-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v286)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v286) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x2 : Shape := ⟨3, ![1024, 1024, 2]⟩
abbrev S32x1024 : Shape := ⟨2, ![32, 1024]⟩
abbrev S32x256x256 : Shape := ⟨3, ![32, 256, 256]⟩
abbrev S64x32 : Shape := ⟨2, ![64, 32]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x1024x2 : S_.BroadcastsInDim S1024x1024x2 (![] : Fin 0 → Fin S1024x1024x2.rank)
  reducesTo_S1024x1024x2_S_d0_1_2 : S1024x1024x2.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S32x256x256 : S_.BroadcastsInDim S32x256x256 (![] : Fin 0 → Fin S32x256x256.rank)
  reducesTo_S32x256x256_S_d0_1_2 : S32x256x256.ReducesTo [0, 1, 2] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x32 .f32) (main_arg5 : FVec F S64 .f32) (main_arg6 : FVec F S1x64 .f32) (main_arg7 : FVec F S1 .f32) (main_v13 : IVec S_ 1) (main_v16 : IVec S32x256x256 1) : IVec S_ 1 :=
  let main_c_5 : IVec S_ 1 := constantI S_ 1 1#1
  let main_v17 : IVec S_ 1 := (fun x v => Host.reduce IntOp.andi x v reducesTo_S32x256x256_S_d0_1_2 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S1024x1024x2 .f32) (main_arg1 : FVec F S32x1024 .f32) (main_arg2 : FVec F S32x1024 .f32) (main_arg3 : FVec F S32x256x256 .f32) (main_arg4 : FVec F S64x32 .f32) (main_arg5 : FVec F S64 .f32) (main_arg6 : FVec F S1x64 .f32) (main_arg7 : FVec F S1 .f32) : IVec S_ 1 :=
  let main_v0 : FVec F S1024x1024x2 .f32 := Host.absf main_arg0
  let main_cst : FVec F S_ .f32 := constant S_ .f32 0x7F800000#32
  let main_v1 : FVec F S1024x1024x2 .f32 := broadcastInDim S1024x1024x2 ![] bcast_S_S1024x1024x2 main_cst
  let main_v2 : IVec S1024x1024x2 1 := cmpf .olt main_v0 main_v1
  let main_c : IVec S_ 1 := constantI S_ 1 1#1
  let main_v3 : IVec S_ 1 := (fun x v => Host.reduce IntOp.andi x v reducesTo_S1024x1024x2_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x256x256 .f32 := Host.absf main_arg3
  let main_cst_4 : FVec F S_ .f32 := constant S_ .f32 0x7F800000#32
  let main_v15 : FVec F S32x256x256 .f32 := broadcastInDim S32x256x256 ![] bcast_S_S32x256x256 main_cst_4
  let main_v16 : IVec S32x256x256 1 := cmpf .olt main_v14 main_v15
  fn_part1 (F := F) main_arg4 main_arg5 main_arg6 main_arg7 main_v13 main_v16
-- ==== Kernel.lean ====
abbrev S1024x1024x2 : Shape := ⟨3, ![1024, 1024, 2]⟩
abbrev S32x1024 : Shape := ⟨2, ![32, 1024]⟩
abbrev S32x256x256 : Shape := ⟨3, ![32, 256, 256]⟩
abbrev S64x32 : Shape := ⟨2, ![64, 32]⟩
abbrev S64 : Shape := ⟨1, ![64]⟩
abbrev S1x64 : Shape := ⟨2, ![1, 64]⟩
abbrev S1 : Shape := ⟨1, ![1]⟩
abbrev S1024x1024x1 : Shape := ⟨3, ![1024, 1024, 1]⟩
abbrev S1024x1024 : Shape := ⟨2, ![1024, 1024]⟩
abbrev S_ : Shape := ⟨0, ![]⟩
abbrev S32x1024x1024 : Shape := ⟨3, ![32, 1024, 1024]⟩
abbrev S1x1024x1024 : Shape := ⟨3, ![1, 1024, 1024]⟩
abbrev S32x1048576 : Shape := ⟨2, ![32, 1048576]⟩
abbrev S64x1 : Shape := ⟨2, ![64, 1]⟩
abbrev S1x1 : Shape := ⟨2, ![1, 1]⟩
abbrev S1x1048576 : Shape := ⟨2, ![1, 1048576]⟩
abbrev S32x32768 : Shape := ⟨2, ![32, 32768]⟩
abbrev S1x32768 : Shape := ⟨2, ![1, 32768]⟩
abbrev S64x32768 : Shape := ⟨2, ![64, 32768]⟩

abbrev nBuf : Space → Nat
  | .hbm => 437
  | .vmem => 8
  | .smem => 0
  | _ => 0

abbrev hbmTy0_0 (i : Nat) : BufTy := match i % 128 with
  | 0 => ⟨S1024x1024x2, .f32⟩
  | 1 => ⟨S32x1024, .f32⟩
  | 2 => ⟨S32x1024, .f32⟩
  | 3 => ⟨S32x256x256, .f32⟩
  | 4 => ⟨S64x32, .f32⟩
  | 5 => ⟨S64, .f32⟩
  | 6 => ⟨S1x64, .f32⟩
  | 7 => ⟨S1, .f32⟩
  | 8 => ⟨S1024x1024x1, .f32⟩
  | 9 => ⟨S1024x1024, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S1024x1024x1, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S_, .f32⟩
  | 34 => ⟨S1024x1024, .f32⟩
  | 35 => ⟨S1024x1024, .f32⟩
  | 36 => ⟨S_, .f32⟩
  | 37 => ⟨S1024x1024, .f32⟩
  | 38 => ⟨S1024x1024, .f32⟩
  | 39 => ⟨S_, .f32⟩
  | 40 => ⟨S_, .f32⟩
  | 41 => ⟨S_, .f32⟩
  | 42 => ⟨S1024x1024, .f32⟩
  | 43 => ⟨S1024x1024, .f32⟩
  | 44 => ⟨S_, .f32⟩
  | 45 => ⟨S1024x1024, .f32⟩
  | 46 => ⟨S1024x1024, .f32⟩
  | 47 => ⟨S1024x1024, .f32⟩
  | 48 => ⟨S1024x1024, .i32⟩
  | 49 => ⟨S_, .i32⟩
  | 50 => ⟨S1024x1024, .i32⟩
  | 51 => ⟨S1024x1024, .i32⟩
  | 52 => ⟨S1024x1024, .f32⟩
  | 53 => ⟨S1024x1024, .f32⟩
  | 54 => ⟨S_, .i32⟩
  | 55 => ⟨S1024x1024, .i32⟩
  | 56 => ⟨S1024x1024, .i1⟩
  | 57 => ⟨S_, .i32⟩
  | 58 => ⟨S1024x1024, .i32⟩
  | 59 => ⟨S1024x1024, .i32⟩
  | 60 => ⟨S1024x1024, .i32⟩
  | 61 => ⟨S1024x1024x1, .i32⟩
  | 62 => ⟨S32x1024x1024, .f32⟩
  | 63 => ⟨S_, .f32⟩
  | 64 => ⟨S1024x1024, .f32⟩
  | 65 => ⟨S1024x1024, .f32⟩
  | 66 => ⟨S1x1024x1024, .f32⟩
  | 67 => ⟨S32x1024x1024, .f32⟩
  | 68 => ⟨S32x1024x1024, .f32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i1⟩
  | 75 => ⟨S_, .i32⟩
  | 76 => ⟨S1024x1024, .i32⟩
  | 77 => ⟨S1024x1024, .i32⟩
  | 78 => ⟨S1024x1024, .i32⟩
  | 79 => ⟨S1024x1024x1, .i32⟩
  | 80 => ⟨S32x1024x1024, .f32⟩
  | 81 => ⟨S1x1024x1024, .f32⟩
  | 82 => ⟨S32x1024x1024, .f32⟩
  | 83 => ⟨S32x1024x1024, .f32⟩
  | 84 => ⟨S32x1024x1024, .f32⟩
  | 85 => ⟨S_, .f32⟩
  | 86 => ⟨S1024x1024, .f32⟩
  | 87 => ⟨S1024x1024, .f32⟩
  | 88 => ⟨S_, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x1024, .f32⟩
  | 103 => ⟨S1024x1024, .i32⟩
  | 104 => ⟨S_, .i32⟩
  | 105 => ⟨S1024x1024, .i32⟩
  | 106 => ⟨S1024x1024, .i32⟩
  | 107 => ⟨S1024x1024, .f32⟩
  | 108 => ⟨S1024x1024, .f32⟩
  | 109 => ⟨S_, .i32⟩
  | 110 => ⟨S1024x1024, .i32⟩
  | 111 => ⟨S1024x1024, .i1⟩
  | 112 => ⟨S_, .i32⟩
  | 113 => ⟨S1024x1024, .i32⟩
  | 114 => ⟨S1024x1024, .i32⟩
  | 115 => ⟨S1024x1024, .i32⟩
  | 116 => ⟨S1024x1024x1, .i32⟩
  | 117 => ⟨S32x1024x1024, .f32⟩
  | 118 => ⟨S_, .f32⟩
  | 119 => ⟨S1024x1024, .f32⟩
  | 120 => ⟨S1024x1024, .f32⟩
  | 121 => ⟨S1x1024x1024, .f32⟩
  | 122 => ⟨S32x1024x1024, .f32⟩
  | 123 => ⟨S32x1024x1024, .f32⟩
  | 124 => ⟨S_, .i32⟩
  | 125 => ⟨S1024x1024, .i32⟩
  | 126 => ⟨S1024x1024, .i32⟩
  | 127 => ⟨S_, .i32⟩
  | _ => ⟨S1024x1024x2, .f32⟩

abbrev hbmTy0_1 (i : Nat) : BufTy := match i % 128 with
  | 0 => ⟨S1024x1024, .i32⟩
  | 1 => ⟨S1024x1024, .i1⟩
  | 2 => ⟨S_, .i32⟩
  | 3 => ⟨S1024x1024, .i32⟩
  | 4 => ⟨S1024x1024, .i32⟩
  | 5 => ⟨S1024x1024, .i32⟩
  | 6 => ⟨S1024x1024x1, .i32⟩
  | 7 => ⟨S32x1024x1024, .f32⟩
  | 8 => ⟨S1x1024x1024, .f32⟩
  | 9 => ⟨S32x1024x1024, .f32⟩
  | 10 => ⟨S32x1024x1024, .f32⟩
  | 11 => ⟨S32x1024x1024, .f32⟩
  | 12 => ⟨S_, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S_, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S1024x1024, .i32⟩
  | 32 => ⟨S1024x1024, .f32⟩
  | 33 => ⟨S1024x1024, .i32⟩
  | 34 => ⟨S1024x1024, .f32⟩
  | 35 => ⟨S1024x1024, .f32⟩
  | 36 => ⟨S1024x1024, .f32⟩
  | 37 => ⟨S1024x1024, .f32⟩
  | 38 => ⟨S_, .i32⟩
  | 39 => ⟨S1024x1024, .i32⟩
  | 40 => ⟨S1024x1024, .i1⟩
  | 41 => ⟨S_, .i32⟩
  | 42 => ⟨S1024x1024, .i32⟩
  | 43 => ⟨S1024x1024, .i1⟩
  | 44 => ⟨S1024x1024, .i1⟩
  | 45 => ⟨S_, .i32⟩
  | 46 => ⟨S1024x1024, .i32⟩
  | 47 => ⟨S1024x1024, .i1⟩
  | 48 => ⟨S1024x1024, .i1⟩
  | 49 => ⟨S_, .i32⟩
  | 50 => ⟨S1024x1024, .i32⟩
  | 51 => ⟨S1024x1024, .i1⟩
  | 52 => ⟨S1024x1024, .i1⟩
  | 53 => ⟨S_, .i32⟩
  | 54 => ⟨S_, .i32⟩
  | 55 => ⟨S_, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S_, .i32⟩
  | 62 => ⟨S_, .i32⟩
  | 63 => ⟨S_, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i1⟩
  | 72 => ⟨S_, .i32⟩
  | 73 => ⟨S1024x1024, .i32⟩
  | 74 => ⟨S1024x1024, .i32⟩
  | 75 => ⟨S1024x1024, .i32⟩
  | 76 => ⟨S_, .i32⟩
  | 77 => ⟨S1024x1024, .i32⟩
  | 78 => ⟨S1024x1024, .i1⟩
  | 79 => ⟨S_, .i32⟩
  | 80 => ⟨S1024x1024, .i32⟩
  | 81 => ⟨S1024x1024, .i32⟩
  | 82 => ⟨S1024x1024, .i32⟩
  | 83 => ⟨S1024x1024x1, .i32⟩
  | 84 => ⟨S1024x1024x1, .i32⟩
  | 85 => ⟨S1024x1024x2, .i32⟩
  | 86 => ⟨S32x1024x1024, .f32⟩
  | 87 => ⟨S1024x1024, .f32⟩
  | 88 => ⟨S1x1024x1024, .f32⟩
  | 89 => ⟨S32x1024x1024, .f32⟩
  | 90 => ⟨S32x1024x1024, .f32⟩
  | 91 => ⟨S_, .f32⟩
  | 92 => ⟨S1024x1024, .f32⟩
  | 93 => ⟨S1024x1024, .f32⟩
  | 94 => ⟨S1x1024x1024, .f32⟩
  | 95 => ⟨S32x1024x1024, .f32⟩
  | 96 => ⟨S32x1024x1024, .f32⟩
  | 97 => ⟨S_, .f32⟩
  | 98 => ⟨S1024x1024, .f32⟩
  | 99 => ⟨S1024x1024, .f32⟩
  | 100 => ⟨S1x1024x1024, .f32⟩
  | 101 => ⟨S32x1024x1024, .f32⟩
  | 102 => ⟨S32x1024x1024, .f32⟩
  | 103 => ⟨S_, .i32⟩
  | 104 => ⟨S1024x1024, .i32⟩
  | 105 => ⟨S1024x1024, .i32⟩
  | 106 => ⟨S_, .i32⟩
  | 107 => ⟨S1024x1024, .i32⟩
  | 108 => ⟨S1024x1024, .i1⟩
  | 109 => ⟨S_, .i32⟩
  | 110 => ⟨S1024x1024, .i32⟩
  | 111 => ⟨S1024x1024, .i1⟩
  | 112 => ⟨S1024x1024, .i1⟩
  | 113 => ⟨S_, .i32⟩
  | 114 => ⟨S1024x1024, .i32⟩
  | 115 => ⟨S1024x1024, .i1⟩
  | 116 => ⟨S1024x1024, .i1⟩
  | 117 => ⟨S_, .i32⟩
  | 118 => ⟨S1024x1024, .i32⟩
  | 119 => ⟨S1024x1024, .i1⟩
  | 120 => ⟨S1024x1024, .i1⟩
  | 121 => ⟨S_, .i32⟩
  | 122 => ⟨S_, .i32⟩
  | 123 => ⟨S_, .i32⟩
  | 124 => ⟨S1024x1024, .i32⟩
  | 125 => ⟨S1024x1024, .i32⟩
  | 126 => ⟨S_, .i32⟩
  | 127 => ⟨S1024x1024, .i32⟩
  | _ => ⟨S1024x1024x2, .f32⟩

abbrev hbmTy0_2 (i : Nat) : BufTy := match i % 128 with
  | 0 => ⟨S1024x1024, .i32⟩
  | 1 => ⟨S_, .i32⟩
  | 2 => ⟨S_, .i32⟩
  | 3 => ⟨S_, .i32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S_, .i32⟩
  | 10 => ⟨S1024x1024, .i32⟩
  | 11 => ⟨S1024x1024, .i1⟩
  | 12 => ⟨S_, .i32⟩
  | 13 => ⟨S1024x1024, .i32⟩
  | 14 => ⟨S1024x1024, .i32⟩
  | 15 => ⟨S1024x1024, .i32⟩
  | 16 => ⟨S_, .i32⟩
  | 17 => ⟨S1024x1024, .i32⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S1024x1024x1, .i32⟩
  | 24 => ⟨S1024x1024x1, .i32⟩
  | 25 => ⟨S1024x1024x2, .i32⟩
  | 26 => ⟨S32x1024x1024, .f32⟩
  | 27 => ⟨S1024x1024, .f32⟩
  | 28 => ⟨S1x1024x1024, .f32⟩
  | 29 => ⟨S32x1024x1024, .f32⟩
  | 30 => ⟨S32x1024x1024, .f32⟩
  | 31 => ⟨S_, .f32⟩
  | 32 => ⟨S1024x1024, .f32⟩
  | 33 => ⟨S1024x1024, .f32⟩
  | 34 => ⟨S1x1024x1024, .f32⟩
  | 35 => ⟨S32x1024x1024, .f32⟩
  | 36 => ⟨S32x1024x1024, .f32⟩
  | 37 => ⟨S1x1024x1024, .f32⟩
  | 38 => ⟨S32x1024x1024, .f32⟩
  | 39 => ⟨S32x1024x1024, .f32⟩
  | 40 => ⟨S32x1024x1024, .f32⟩
  | 41 => ⟨S_, .i32⟩
  | 42 => ⟨S1024x1024, .i32⟩
  | 43 => ⟨S1024x1024, .i32⟩
  | 44 => ⟨S_, .i32⟩
  | 45 => ⟨S1024x1024, .i32⟩
  | 46 => ⟨S1024x1024, .i1⟩
  | 47 => ⟨S_, .i32⟩
  | 48 => ⟨S1024x1024, .i32⟩
  | 49 => ⟨S1024x1024, .i1⟩
  | 50 => ⟨S1024x1024, .i1⟩
  | 51 => ⟨S_, .i32⟩
  | 52 => ⟨S1024x1024, .i32⟩
  | 53 => ⟨S1024x1024, .i1⟩
  | 54 => ⟨S1024x1024, .i1⟩
  | 55 => ⟨S_, .i32⟩
  | 56 => ⟨S1024x1024, .i32⟩
  | 57 => ⟨S1024x1024, .i1⟩
  | 58 => ⟨S1024x1024, .i1⟩
  | 59 => ⟨S_, .i32⟩
  | 60 => ⟨S_, .i32⟩
  | 61 => ⟨S_, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S_, .i32⟩
  | 68 => ⟨S_, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S_, .i32⟩
  | 76 => ⟨S1024x1024, .i32⟩
  | 77 => ⟨S1024x1024, .i1⟩
  | 78 => ⟨S_, .i32⟩
  | 79 => ⟨S1024x1024, .i32⟩
  | 80 => ⟨S1024x1024, .i32⟩
  | 81 => ⟨S1024x1024, .i32⟩
  | 82 => ⟨S_, .i32⟩
  | 83 => ⟨S1024x1024, .i32⟩
  | 84 => ⟨S1024x1024, .i1⟩
  | 85 => ⟨S_, .i32⟩
  | 86 => ⟨S1024x1024, .i32⟩
  | 87 => ⟨S1024x1024, .i32⟩
  | 88 => ⟨S1024x1024, .i32⟩
  | 89 => ⟨S1024x1024x1, .i32⟩
  | 90 => ⟨S1024x1024x1, .i32⟩
  | 91 => ⟨S1024x1024x2, .i32⟩
  | 92 => ⟨S32x1024x1024, .f32⟩
  | 93 => ⟨S1024x1024, .f32⟩
  | 94 => ⟨S1x1024x1024, .f32⟩
  | 95 => ⟨S32x1024x1024, .f32⟩
  | 96 => ⟨S32x1024x1024, .f32⟩
  | 97 => ⟨S1x1024x1024, .f32⟩
  | 98 => ⟨S32x1024x1024, .f32⟩
  | 99 => ⟨S32x1024x1024, .f32⟩
  | 100 => ⟨S_, .f32⟩
  | 101 => ⟨S1024x1024, .f32⟩
  | 102 => ⟨S1024x1024, .f32⟩
  | 103 => ⟨S1x1024x1024, .f32⟩
  | 104 => ⟨S32x1024x1024, .f32⟩
  | 105 => ⟨S32x1024x1024, .f32⟩
  | 106 => ⟨S32x1024x1024, .f32⟩
  | 107 => ⟨S_, .i32⟩
  | 108 => ⟨S1024x1024, .i32⟩
  | 109 => ⟨S1024x1024, .i32⟩
  | 110 => ⟨S_, .i32⟩
  | 111 => ⟨S1024x1024, .i32⟩
  | 112 => ⟨S1024x1024, .i32⟩
  | 113 => ⟨S_, .i32⟩
  | 114 => ⟨S1024x1024, .i32⟩
  | 115 => ⟨S1024x1024, .i1⟩
  | 116 => ⟨S_, .i32⟩
  | 117 => ⟨S1024x1024, .i32⟩
  | 118 => ⟨S1024x1024, .i1⟩
  | 119 => ⟨S1024x1024, .i1⟩
  | 120 => ⟨S_, .i32⟩
  | 121 => ⟨S1024x1024, .i32⟩
  | 122 => ⟨S1024x1024, .i1⟩
  | 123 => ⟨S1024x1024, .i1⟩
  | 124 => ⟨S_, .i32⟩
  | 125 => ⟨S1024x1024, .i32⟩
  | 126 => ⟨S1024x1024, .i1⟩
  | 127 => ⟨S1024x1024, .i1⟩
  | _ => ⟨S1024x1024x2, .f32⟩

abbrev hbmTy0_3 (i : Nat) : BufTy := match i % 128 with
  | 0 => ⟨S_, .i32⟩
  | 1 => ⟨S_, .i32⟩
  | 2 => ⟨S_, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S_, .i32⟩
  | 9 => ⟨S_, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S_, .i32⟩
  | 17 => ⟨S1024x1024, .i32⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S_, .i32⟩
  | 24 => ⟨S1024x1024, .i32⟩
  | 25 => ⟨S1024x1024, .i1⟩
  | 26 => ⟨S_, .i32⟩
  | 27 => ⟨S1024x1024, .i32⟩
  | 28 => ⟨S1024x1024, .i32⟩
  | 29 => ⟨S1024x1024, .i32⟩
  | 30 => ⟨S1024x1024x1, .i32⟩
  | 31 => ⟨S1024x1024x1, .i32⟩
  | 32 => ⟨S1024x1024x2, .i32⟩
  | 33 => ⟨S32x1024x1024, .f32⟩
  | 34 => ⟨S1024x1024, .f32⟩
  | 35 => ⟨S1x1024x1024, .f32⟩
  | 36 => ⟨S32x1024x1024, .f32⟩
  | 37 => ⟨S32x1024x1024, .f32⟩
  | 38 => ⟨S1x1024x1024, .f32⟩
  | 39 => ⟨S32x1024x1024, .f32⟩
  | 40 => ⟨S32x1024x1024, .f32⟩
  | 41 => ⟨S1x1024x1024, .f32⟩
  | 42 => ⟨S32x1024x1024, .f32⟩
  | 43 => ⟨S32x1024x1024, .f32⟩
  | 44 => ⟨S32x1024x1024, .f32⟩
  | 45 => ⟨S32x1024x1024, .f32⟩
  | 46 => ⟨S32x1024x1024, .f32⟩
  | 47 => ⟨S32x1048576, .f32⟩
  | 48 => ⟨S32x1048576, .bf16⟩
  | 49 => ⟨S64x1, .f32⟩
  | 50 => ⟨S1x1, .f32⟩
  | 51 => ⟨S1x1048576, .f32⟩
  | 52 => ⟨S1024x1024, .f32⟩
  | _ => ⟨S1024x1024x2, .f32⟩

abbrev hbmTy (i : Nat) : BufTy := match i / 128 with
  | 0 => hbmTy0_0 i
  | 1 => hbmTy0_1 i
  | 2 => hbmTy0_2 i
  | 3 => hbmTy0_3 i
  | _ => ⟨S1024x1024x2, .f32⟩

abbrev bufTy : (tb : Table) → Fin (tcTables nBuf tb) → BufTy
  | .hbm, ⟨i, _⟩ => hbmTy i
  | .local _ .vmem, ⟨0, _⟩ => ⟨S32x32768, .bf16⟩
  | .local _ .vmem, ⟨1, _⟩ => ⟨S32x32768, .bf16⟩
  | .local _ .vmem, ⟨2, _⟩ => ⟨S64x32, .f32⟩
  | .local _ .vmem, ⟨3, _⟩ => ⟨S64x1, .f32⟩
  | .local _ .vmem, ⟨4, _⟩ => ⟨S1x64, .f32⟩
  | .local _ .vmem, ⟨5, _⟩ => ⟨S1x1, .f32⟩
  | .local _ .vmem, ⟨6, _⟩ => ⟨S1x32768, .f32⟩
  | .local _ .vmem, ⟨7, _⟩ => ⟨S1x32768, .f32⟩
  | _, _ => ⟨S1024x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_12 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_v43 : Ref sig .tc := ⟨.hbm, 73, rfl⟩
abbrev main_v44 : Ref sig .tc := ⟨.hbm, 74, rfl⟩
abbrev main_c_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩
abbrev main_cst_18 : Ref sig .tc := ⟨.hbm, 91, rfl⟩
abbrev main_v58 : Ref sig .tc := ⟨.hbm, 92, rfl⟩
abbrev main_v59 : Ref sig .tc := ⟨.hbm, 93, rfl⟩
abbrev main_cst_19 : Ref sig .tc := ⟨.hbm, 94, rfl⟩
abbrev main_cst_20 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_21 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_22 : Ref sig .tc := ⟨.hbm, 109, rfl⟩
abbrev main_v67 : Ref sig .tc := ⟨.hbm, 110, rfl⟩
abbrev main_v68 : Ref sig .tc := ⟨.hbm, 111, rfl⟩
abbrev main_c_23 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_24 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_25 : Ref sig .tc := ⟨.hbm, 124, rfl⟩
abbrev main_v79 : Ref sig .tc := ⟨.hbm, 125, rfl⟩
abbrev main_v80 : Ref sig .tc := ⟨.hbm, 126, rfl⟩
abbrev main_c_26 : Ref sig .tc := ⟨.hbm, 127, rfl⟩
abbrev main_v81 : Ref sig .tc := ⟨.hbm, 128, rfl⟩
abbrev main_v82 : Ref sig .tc := ⟨.hbm, 129, rfl⟩
abbrev main_c_27 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_28 : Ref sig .tc := ⟨.hbm, 140, rfl⟩
abbrev main_v92 : Ref sig .tc := ⟨.hbm, 141, rfl⟩
abbrev main_v93 : Ref sig .tc := ⟨.hbm, 142, rfl⟩
abbrev main_cst_29 : Ref sig .tc := ⟨.hbm, 143, rfl⟩
abbrev main_v94 : Ref sig .tc := ⟨.hbm, 144, rfl⟩
abbrev main_v95 : Ref sig .tc := ⟨.hbm, 145, rfl⟩
abbrev main_cst_30 : Ref sig .tc := ⟨.hbm, 146, rfl⟩
abbrev main_v96 : Ref sig .tc := ⟨.hbm, 147, rfl⟩
abbrev main_v97 : Ref sig .tc := ⟨.hbm, 148, rfl⟩
abbrev main_cst_31 : Ref sig .tc := ⟨.hbm, 149, rfl⟩
abbrev main_v98 : Ref sig .tc := ⟨.hbm, 150, rfl⟩
abbrev main_v99 : Ref sig .tc := ⟨.hbm, 151, rfl⟩
abbrev main_cst_32 : Ref sig .tc := ⟨.hbm, 152, rfl⟩
abbrev main_v100 : Ref sig .tc := ⟨.hbm, 153, rfl⟩
abbrev main_v101 : Ref sig .tc := ⟨.hbm, 154, rfl⟩
abbrev main_cst_33 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_34 : Ref sig .tc := ⟨.hbm, 166, rfl⟩
abbrev main_v112 : Ref sig .tc := ⟨.hbm, 167, rfl⟩
abbrev main_v113 : Ref sig .tc := ⟨.hbm, 168, rfl⟩
abbrev main_c_35 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_36 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_c_37 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_38 : Ref sig .tc := ⟨.hbm, 181, rfl⟩
abbrev main_c_39 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_v123 : Ref sig .tc := ⟨.hbm, 188, rfl⟩
abbrev main_c_40 : Ref sig .tc := ⟨.hbm, 189, rfl⟩
abbrev main_c_41 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_call3_v3 : Ref sig .tc := ⟨.hbm, 194, rfl⟩
abbrev main_call3_v4 : Ref sig .tc := ⟨.hbm, 195, rfl⟩
abbrev main_v124 : Ref sig .tc := ⟨.hbm, 196, rfl⟩
abbrev main_c_42 : Ref sig .tc := ⟨.hbm, 197, rfl⟩
abbrev main_v125 : Ref sig .tc := ⟨.hbm, 198, rfl⟩
abbrev main_v126 : Ref sig .tc := ⟨.hbm, 199, rfl⟩
abbrev main_c_43 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_c_44 : Ref sig .tc := ⟨.hbm, 204, rfl⟩
abbrev main_v130 : Ref sig .tc := ⟨.hbm, 205, rfl⟩
abbrev main_v131 : Ref sig .tc := ⟨.hbm, 206, rfl⟩
abbrev main_c_45 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_46 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_47 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_c_48 : Ref sig .tc := ⟨.hbm, 231, rfl⟩
abbrev main_v153 : Ref sig .tc := ⟨.hbm, 232, rfl⟩
abbrev main_v154 : Ref sig .tc := ⟨.hbm, 233, rfl⟩
abbrev main_c_49 : Ref sig .tc := ⟨.hbm, 234, rfl⟩
abbrev main_v155 : Ref sig .tc := ⟨.hbm, 235, rfl⟩
abbrev main_v156 : Ref sig .tc := ⟨.hbm, 236, rfl⟩
abbrev main_c_50 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_51 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_c_52 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_c_53 : Ref sig .tc := ⟨.hbm, 249, rfl⟩
abbrev main_c_54 : Ref sig .tc := ⟨.hbm, 250, rfl⟩
abbrev main_call4_v0 : Ref sig .tc := ⟨.hbm, 251, rfl⟩
abbrev main_call4_v1 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_v166 : Ref sig .tc := ⟨.hbm, 256, rfl⟩
abbrev main_c_55 : Ref sig .tc := ⟨.hbm, 257, rfl⟩
abbrev main_c_56 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v167 : Ref sig .tc := ⟨.hbm, 264, rfl⟩
abbrev main_c_57 : Ref sig .tc := ⟨.hbm, 265, rfl⟩
abbrev main_v168 : Ref sig .tc := ⟨.hbm, 266, rfl⟩
abbrev main_v169 : Ref sig .tc := ⟨.hbm, 267, rfl⟩
abbrev main_c_58 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_c_59 : Ref sig .tc := ⟨.hbm, 272, rfl⟩
abbrev main_v173 : Ref sig .tc := ⟨.hbm, 273, rfl⟩
abbrev main_v174 : Ref sig .tc := ⟨.hbm, 274, rfl⟩
abbrev main_c_60 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_cst_61 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_c_62 : Ref sig .tc := ⟨.hbm, 297, rfl⟩
abbrev main_v195 : Ref sig .tc := ⟨.hbm, 298, rfl⟩
abbrev main_v196 : Ref sig .tc := ⟨.hbm, 299, rfl⟩
abbrev main_c_63 : Ref sig .tc := ⟨.hbm, 300, rfl⟩
abbrev main_v197 : Ref sig .tc := ⟨.hbm, 301, rfl⟩
abbrev main_v198 : Ref sig .tc := ⟨.hbm, 302, rfl⟩
abbrev main_c_64 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_c_65 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_c_66 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_c_67 : Ref sig .tc := ⟨.hbm, 315, rfl⟩
abbrev main_c_68 : Ref sig .tc := ⟨.hbm, 316, rfl⟩
abbrev main_call6_v0 : Ref sig .tc := ⟨.hbm, 317, rfl⟩
abbrev main_call6_v1 : Ref sig .tc := ⟨.hbm, 318, rfl⟩
abbrev main_call6_v2 : Ref sig .tc := ⟨.hbm, 319, rfl⟩
abbrev main_call6_v3 : Ref sig .tc := ⟨.hbm, 320, rfl⟩
abbrev main_call6_v4 : Ref sig .tc := ⟨.hbm, 321, rfl⟩
abbrev main_v208 : Ref sig .tc := ⟨.hbm, 322, rfl⟩
abbrev main_c_69 : Ref sig .tc := ⟨.hbm, 323, rfl⟩
abbrev main_c_70 : Ref sig .tc := ⟨.hbm, 324, rfl⟩
abbrev main_call7_v0 : Ref sig .tc := ⟨.hbm, 325, rfl⟩
abbrev main_call7_v1 : Ref sig .tc := ⟨.hbm, 326, rfl⟩
abbrev main_call7_v2 : Ref sig .tc := ⟨.hbm, 327, rfl⟩
abbrev main_call7_v3 : Ref sig .tc := ⟨.hbm, 328, rfl⟩
abbrev main_call7_v4 : Ref sig .tc := ⟨.hbm, 329, rfl⟩
abbrev main_v209 : Ref sig .tc := ⟨.hbm, 330, rfl⟩
abbrev main_c_71 : Ref sig .tc := ⟨.hbm, 331, rfl⟩
abbrev main_v210 : Ref sig .tc := ⟨.hbm, 332, rfl⟩
abbrev main_v211 : Ref sig .tc := ⟨.hbm, 333, rfl⟩
abbrev main_c_72 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_c_73 : Ref sig .tc := ⟨.hbm, 338, rfl⟩
abbrev main_v215 : Ref sig .tc := ⟨.hbm, 339, rfl⟩
abbrev main_v216 : Ref sig .tc := ⟨.hbm, 340, rfl⟩
abbrev main_c_74 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_v230 : Ref sig .tc := ⟨.hbm, 355, rfl⟩
abbrev main_cst_75 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_c_76 : Ref sig .tc := ⟨.hbm, 363, rfl⟩
abbrev main_v237 : Ref sig .tc := ⟨.hbm, 364, rfl⟩
abbrev main_v238 : Ref sig .tc := ⟨.hbm, 365, rfl⟩
abbrev main_c_77 : Ref sig .tc := ⟨.hbm, 366, rfl⟩
abbrev main_v239 : Ref sig .tc := ⟨.hbm, 367, rfl⟩
abbrev main_v240 : Ref sig .tc := ⟨.hbm, 368, rfl⟩
abbrev main_c_78 : Ref sig .tc := ⟨.hbm, 369, rfl⟩
abbrev main_v241 : Ref sig .tc := ⟨.hbm, 370, rfl⟩
abbrev main_v242 : Ref sig .tc := ⟨.hbm, 371, rfl⟩
abbrev main_c_79 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_c_80 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_c_81 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_c_82 : Ref sig .tc := ⟨.hbm, 384, rfl⟩
abbrev main_c_83 : Ref sig .tc := ⟨.hbm, 385, rfl⟩
abbrev main_call8_v0 : Ref sig .tc := ⟨.hbm, 386, rfl⟩
abbrev main_call8_v1 : Ref sig .tc := ⟨.hbm, 387, rfl⟩
abbrev main_call8_v2 : Ref sig .tc := ⟨.hbm, 388, rfl⟩
abbrev main_call8_v3 : Ref sig .tc := ⟨.hbm, 389, rfl⟩
abbrev main_call8_v4 : Ref sig .tc := ⟨.hbm, 390, rfl⟩
abbrev main_v252 : Ref sig .tc := ⟨.hbm, 391, rfl⟩
abbrev main_c_84 : Ref sig .tc := ⟨.hbm, 392, rfl⟩
abbrev main_c_85 : Ref sig .tc := ⟨.hbm, 393, rfl⟩
abbrev main_call9_v0 : Ref sig .tc := ⟨.hbm, 394, rfl⟩
abbrev main_call9_v1 : Ref sig .tc := ⟨.hbm, 395, rfl⟩
abbrev main_call9_v2 : Ref sig .tc := ⟨.hbm, 396, rfl⟩
abbrev main_call9_v3 : Ref sig .tc := ⟨.hbm, 397, rfl⟩
abbrev main_call9_v4 : Ref sig .tc := ⟨.hbm, 398, rfl⟩
abbrev main_v253 : Ref sig .tc := ⟨.hbm, 399, rfl⟩
abbrev main_c_86 : Ref sig .tc := ⟨.hbm, 400, rfl⟩
abbrev main_v254 : Ref sig .tc := ⟨.hbm, 401, rfl⟩
abbrev main_v255 : Ref sig .tc := ⟨.hbm, 402, rfl⟩
abbrev main_c_87 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_c_88 : Ref sig .tc := ⟨.hbm, 407, rfl⟩
abbrev main_v259 : Ref sig .tc := ⟨.hbm, 408, rfl⟩
abbrev main_v260 : Ref sig .tc := ⟨.hbm, 409, rfl⟩
abbrev main_c_89 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_v284 : Ref sig .tc := ⟨.hbm, 434, rfl⟩
abbrev main_v285 : Ref sig .tc := ⟨.hbm, 435, rfl⟩
abbrev main_v286 : Ref sig .tc := ⟨.hbm, 436, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x1024x2_S1024x1024x1_0_0_0 : S1024x1024x2.Slices ![0, 0, 0] S1024x1024x1
  shapeCasts_S1024x1024x1_S1024x1024 : S1024x1024x1.ShapeCasts S1024x1024
  bcast_S_S1024x1024 : S_.BroadcastsInDim S1024x1024 (![] : Fin 0 → Fin S1024x1024.rank)
  slices_S1024x1024x2_S1024x1024x1_0_0_1 : S1024x1024x2.Slices ![0, 0, 1] S1024x1024x1
  bcast_S1024x1024_S1024x1024x1_0_1 : S1024x1024.BroadcastsInDim S1024x1024x1 (![0, 1] : Fin 2 → Fin S1024x1024x1.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  concatenates_S1024x1024x1_S1024x1024x1_S1024x1024x2_d2 : Shape.Concatenates [S1024x1024x1, S1024x1024x1] S1024x1024x2 2
  shapeCasts_S32x1024x1024_S32x1048576 : S32x1024x1024.ShapeCasts S32x1048576
  bitsLt_bf16_f32 : FTy.bits .bf16 < FTy.bits .f32
  shapeCasts_S64_S64x1 : S64.ShapeCasts S64x1
  shapeCasts_S1_S1x1 : S1.ShapeCasts S1x1
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S64x32_S64x32_0_0 : ∀ a, (![0, 0] : Fin 2 → Nat) a + S64x32.size a ≤ S64x32.size a
  h_S64x32 : 0 < S64x32.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32768 : S64x1.Broadcasts S64x32768
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32768 : S1x1.Broadcasts S1x32768
  inb_S1x32768_S1x32768_0_0 : ∀ a, (![0, 0] : Fin 2 → Nat) a + S1x32768.size a ≤ S1x32768.size a
  h_S1x32768 : 0 < S1x32768.numel
  shapeCasts_S1x1048576_S1024x1024 : S1x1048576.ShapeCasts S1024x1024
  gather_S32x1024_S1024x1024x1_S32x1024x1024_0_1_n_n_1_2_321_wf : GatherDims.WF S32x1024 S1024x1024x1 S32x1024x1024 [0] [1] [] [1] [] 2 ![32, 1]
  gather_S32x256x256_S1024x1024x2_S32x1024x1024_0_12_n_n_12_2_3211_wf : GatherDims.WF S32x256x256 S1024x1024x2 S32x1024x1024 [0] [1, 2] [] [1, 2] [] 2 ![32, 1, 1]
  dot_S64x32_S32x32768_S64x32768_1_0_0_1_n_n_wf : DotDims.WF S64x32 S32x32768 S64x32768 [1] [0] [0] [1] [] []
  dot_S1x64_S64x32768_S1x32768_1_0_0_1_n_n_wf : DotDims.WF S1x64 S64x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S32x1048576.size a
  hwx0_0 : ∀ i : grid0.Coords, EltTy.bits .bf16 = 32 ∨ (Rect.block (s := S32x1048576) S32x32768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32768.size a ≤ S1x1048576.size a
  hwx0_5 : ∀ i : grid0.Coords, EltTy.bits .f32 = 32 ∨ (Rect.block (s := S1x1048576) S1x32768.size (cc0_transform_5 i) (hinb0_5 i)).WholeWords (EltTy.packing .f32)

variable [Facts₀]

def gather_S32x1024_S1024x1024x1_S32x1024x1024_0_1_n_n_1_2_321 : GatherDims S32x1024 S1024x1024x1 S32x1024x1024 where
  offsetDims := [0]
  collapsedSliceDims := [1]
  operandBatchingDims := []
  startIndicesBatchingDims := []
  startIndexMap := [1]
  indexVectorDim := 2
  sliceSizes := ![32, 1]
  wf := gather_S32x1024_S1024x1024x1_S32x1024x1024_0_1_n_n_1_2_321_wf
def gather_S32x256x256_S1024x1024x2_S32x1024x1024_0_12_n_n_12_2_3211 : GatherDims S32x256x256 S1024x1024x2 S32x1024x1024 where
  offsetDims := [0]
  collapsedSliceDims := [1, 2]
  operandBatchingDims := []
  startIndicesBatchingDims := []
  startIndexMap := [1, 2]
  indexVectorDim := 2
  sliceSizes := ![32, 1, 1]
  wf := gather_S32x256x256_S1024x1024x2_S32x1024x1024_0_12_n_n_12_2_3211_wf
def dot_S64x32_S32x32768_S64x32768_1_0_0_1_n_n : DotDims S64x32 S32x32768 S64x32768 where
  lhsContracting := [1]
  rhsContracting := [0]
  lhsNonContracting := [0]
  rhsNonContracting := [1]
  lhsBatch := []
  rhsBatch := []
  wf := dot_S64x32_S32x32768_S64x32768_1_0_0_1_n_n_wf
def dot_S1x64_S64x32768_S1x32768_1_0_0_1_n_n : DotDims S1x64 S64x32768 S1x32768 where
  lhsContracting := [1]
  rhsContracting := [0]
  lhsNonContracting := [0]
  rhsNonContracting := [1]
  lhsBatch := []
  rhsBatch := []
  wf := dot_S1x64_S64x32768_S1x32768_1_0_0_1_n_n_wf

abbrev win0_0 : Pipeline.Window sig grid0 :=
  Pipeline.Window.ofSpec (Memref.whole main_v282) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v283) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v284) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v285) S1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1024x2 : Shape := ⟨3, ![1024, 1024, 2]⟩
abbrev S32x1024 : Shape := ⟨2, ![32, 1024]⟩
abbrev S32x256x256 : Shape := ⟨3, ![32, 256, 256]⟩
abbrev S64x32 : Shape := ⟨2, ![64, 32]⟩
abbrev S64 : Shape := ⟨1, ![64]⟩
abbrev S1x64 : Shape := ⟨2, ![1, 64]⟩
abbrev S1 : Shape := ⟨1, ![1]⟩
abbrev S1024x1024x1 : Shape := ⟨3, ![1024, 1024, 1]⟩
abbrev S1024x1024 : Shape := ⟨2, ![1024, 1024]⟩
abbrev S_ : Shape := ⟨0, ![]⟩
abbrev S32x1024x1024 : Shape := ⟨3, ![32, 1024, 1024]⟩
abbrev S1x1024x1024 : Shape := ⟨3, ![1, 1024, 1024]⟩
abbrev S1024x1024x32 : Shape := ⟨3, ![1024, 1024, 32]⟩
abbrev S1024x1024x64 : Shape := ⟨3, ![1024, 1024, 64]⟩
abbrev S1x1x64 : Shape := ⟨3, ![1, 1, 64]⟩
abbrev S1x1x1 : Shape := ⟨3, ![1, 1, 1]⟩

abbrev nBuf : Space → Nat
  | .hbm => 444
  | .vmem => 0
  | .smem => 0
  | _ => 0

abbrev hbmTy0_0 (i : Nat) : BufTy := match i % 128 with
  | 0 => ⟨S1024x1024x2, .f32⟩
  | 1 => ⟨S32x1024, .f32⟩
  | 2 => ⟨S32x1024, .f32⟩
  | 3 => ⟨S32x256x256, .f32⟩
  | 4 => ⟨S64x32, .f32⟩
  | 5 => ⟨S64, .f32⟩
  | 6 => ⟨S1x64, .f32⟩
  | 7 => ⟨S1, .f32⟩
  | 8 => ⟨S1024x1024x1, .f32⟩
  | 9 => ⟨S1024x1024, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S1024x1024x1, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S_, .f32⟩
  | 34 => ⟨S1024x1024, .f32⟩
  | 35 => ⟨S1024x1024, .f32⟩
  | 36 => ⟨S_, .f32⟩
  | 37 => ⟨S1024x1024, .f32⟩
  | 38 => ⟨S1024x1024, .f32⟩
  | 39 => ⟨S_, .f32⟩
  | 40 => ⟨S_, .f32⟩
  | 41 => ⟨S_, .f32⟩
  | 42 => ⟨S1024x1024, .f32⟩
  | 43 => ⟨S1024x1024, .f32⟩
  | 44 => ⟨S_, .f32⟩
  | 45 => ⟨S1024x1024, .f32⟩
  | 46 => ⟨S1024x1024, .f32⟩
  | 47 => ⟨S1024x1024, .f32⟩
  | 48 => ⟨S1024x1024, .i32⟩
  | 49 => ⟨S_, .i32⟩
  | 50 => ⟨S1024x1024, .i32⟩
  | 51 => ⟨S1024x1024, .i32⟩
  | 52 => ⟨S1024x1024, .f32⟩
  | 53 => ⟨S1024x1024, .f32⟩
  | 54 => ⟨S_, .i32⟩
  | 55 => ⟨S1024x1024, .i32⟩
  | 56 => ⟨S1024x1024, .i1⟩
  | 57 => ⟨S_, .i32⟩
  | 58 => ⟨S1024x1024, .i32⟩
  | 59 => ⟨S1024x1024, .i32⟩
  | 60 => ⟨S1024x1024, .i32⟩
  | 61 => ⟨S1024x1024x1, .i32⟩
  | 62 => ⟨S32x1024x1024, .f32⟩
  | 63 => ⟨S_, .f32⟩
  | 64 => ⟨S1024x1024, .f32⟩
  | 65 => ⟨S1024x1024, .f32⟩
  | 66 => ⟨S1x1024x1024, .f32⟩
  | 67 => ⟨S32x1024x1024, .f32⟩
  | 68 => ⟨S32x1024x1024, .f32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i1⟩
  | 75 => ⟨S_, .i32⟩
  | 76 => ⟨S1024x1024, .i32⟩
  | 77 => ⟨S1024x1024, .i32⟩
  | 78 => ⟨S1024x1024, .i32⟩
  | 79 => ⟨S1024x1024x1, .i32⟩
  | 80 => ⟨S32x1024x1024, .f32⟩
  | 81 => ⟨S1x1024x1024, .f32⟩
  | 82 => ⟨S32x1024x1024, .f32⟩
  | 83 => ⟨S32x1024x1024, .f32⟩
  | 84 => ⟨S32x1024x1024, .f32⟩
  | 85 => ⟨S_, .f32⟩
  | 86 => ⟨S1024x1024, .f32⟩
  | 87 => ⟨S1024x1024, .f32⟩
  | 88 => ⟨S_, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x1024, .f32⟩
  | 103 => ⟨S1024x1024, .i32⟩
  | 104 => ⟨S_, .i32⟩
  | 105 => ⟨S1024x1024, .i32⟩
  | 106 => ⟨S1024x1024, .i32⟩
  | 107 => ⟨S1024x1024, .f32⟩
  | 108 => ⟨S1024x1024, .f32⟩
  | 109 => ⟨S_, .i32⟩
  | 110 => ⟨S1024x1024, .i32⟩
  | 111 => ⟨S1024x1024, .i1⟩
  | 112 => ⟨S_, .i32⟩
  | 113 => ⟨S1024x1024, .i32⟩
  | 114 => ⟨S1024x1024, .i32⟩
  | 115 => ⟨S1024x1024, .i32⟩
  | 116 => ⟨S1024x1024x1, .i32⟩
  | 117 => ⟨S32x1024x1024, .f32⟩
  | 118 => ⟨S_, .f32⟩
  | 119 => ⟨S1024x1024, .f32⟩
  | 120 => ⟨S1024x1024, .f32⟩
  | 121 => ⟨S1x1024x1024, .f32⟩
  | 122 => ⟨S32x1024x1024, .f32⟩
  | 123 => ⟨S32x1024x1024, .f32⟩
  | 124 => ⟨S_, .i32⟩
  | 125 => ⟨S1024x1024, .i32⟩
  | 126 => ⟨S1024x1024, .i32⟩
  | 127 => ⟨S_, .i32⟩
  | _ => ⟨S1024x1024x2, .f32⟩

abbrev hbmTy0_1 (i : Nat) : BufTy := match i % 128 with
  | 0 => ⟨S1024x1024, .i32⟩
  | 1 => ⟨S1024x1024, .i1⟩
  | 2 => ⟨S_, .i32⟩
  | 3 => ⟨S1024x1024, .i32⟩
  | 4 => ⟨S1024x1024, .i32⟩
  | 5 => ⟨S1024x1024, .i32⟩
  | 6 => ⟨S1024x1024x1, .i32⟩
  | 7 => ⟨S32x1024x1024, .f32⟩
  | 8 => ⟨S1x1024x1024, .f32⟩
  | 9 => ⟨S32x1024x1024, .f32⟩
  | 10 => ⟨S32x1024x1024, .f32⟩
  | 11 => ⟨S32x1024x1024, .f32⟩
  | 12 => ⟨S_, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S_, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S1024x1024, .i32⟩
  | 32 => ⟨S1024x1024, .f32⟩
  | 33 => ⟨S1024x1024, .i32⟩
  | 34 => ⟨S1024x1024, .f32⟩
  | 35 => ⟨S1024x1024, .f32⟩
  | 36 => ⟨S1024x1024, .f32⟩
  | 37 => ⟨S1024x1024, .f32⟩
  | 38 => ⟨S_, .i32⟩
  | 39 => ⟨S1024x1024, .i32⟩
  | 40 => ⟨S1024x1024, .i1⟩
  | 41 => ⟨S_, .i32⟩
  | 42 => ⟨S1024x1024, .i32⟩
  | 43 => ⟨S1024x1024, .i1⟩
  | 44 => ⟨S1024x1024, .i1⟩
  | 45 => ⟨S_, .i32⟩
  | 46 => ⟨S1024x1024, .i32⟩
  | 47 => ⟨S1024x1024, .i1⟩
  | 48 => ⟨S1024x1024, .i1⟩
  | 49 => ⟨S_, .i32⟩
  | 50 => ⟨S1024x1024, .i32⟩
  | 51 => ⟨S1024x1024, .i1⟩
  | 52 => ⟨S1024x1024, .i1⟩
  | 53 => ⟨S_, .i32⟩
  | 54 => ⟨S_, .i32⟩
  | 55 => ⟨S_, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S_, .i32⟩
  | 62 => ⟨S_, .i32⟩
  | 63 => ⟨S_, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i1⟩
  | 72 => ⟨S_, .i32⟩
  | 73 => ⟨S1024x1024, .i32⟩
  | 74 => ⟨S1024x1024, .i32⟩
  | 75 => ⟨S1024x1024, .i32⟩
  | 76 => ⟨S_, .i32⟩
  | 77 => ⟨S1024x1024, .i32⟩
  | 78 => ⟨S1024x1024, .i1⟩
  | 79 => ⟨S_, .i32⟩
  | 80 => ⟨S1024x1024, .i32⟩
  | 81 => ⟨S1024x1024, .i32⟩
  | 82 => ⟨S1024x1024, .i32⟩
  | 83 => ⟨S1024x1024x1, .i32⟩
  | 84 => ⟨S1024x1024x1, .i32⟩
  | 85 => ⟨S1024x1024x2, .i32⟩
  | 86 => ⟨S32x1024x1024, .f32⟩
  | 87 => ⟨S1024x1024, .f32⟩
  | 88 => ⟨S1x1024x1024, .f32⟩
  | 89 => ⟨S32x1024x1024, .f32⟩
  | 90 => ⟨S32x1024x1024, .f32⟩
  | 91 => ⟨S_, .f32⟩
  | 92 => ⟨S1024x1024, .f32⟩
  | 93 => ⟨S1024x1024, .f32⟩
  | 94 => ⟨S1x1024x1024, .f32⟩
  | 95 => ⟨S32x1024x1024, .f32⟩
  | 96 => ⟨S32x1024x1024, .f32⟩
  | 97 => ⟨S_, .f32⟩
  | 98 => ⟨S1024x1024, .f32⟩
  | 99 => ⟨S1024x1024, .f32⟩
  | 100 => ⟨S1x1024x1024, .f32⟩
  | 101 => ⟨S32x1024x1024, .f32⟩
  | 102 => ⟨S32x1024x1024, .f32⟩
  | 103 => ⟨S_, .i32⟩
  | 104 => ⟨S1024x1024, .i32⟩
  | 105 => ⟨S1024x1024, .i32⟩
  | 106 => ⟨S_, .i32⟩
  | 107 => ⟨S1024x1024, .i32⟩
  | 108 => ⟨S1024x1024, .i1⟩
  | 109 => ⟨S_, .i32⟩
  | 110 => ⟨S1024x1024, .i32⟩
  | 111 => ⟨S1024x1024, .i1⟩
  | 112 => ⟨S1024x1024, .i1⟩
  | 113 => ⟨S_, .i32⟩
  | 114 => ⟨S1024x1024, .i32⟩
  | 115 => ⟨S1024x1024, .i1⟩
  | 116 => ⟨S1024x1024, .i1⟩
  | 117 => ⟨S_, .i32⟩
  | 118 => ⟨S1024x1024, .i32⟩
  | 119 => ⟨S1024x1024, .i1⟩
  | 120 => ⟨S1024x1024, .i1⟩
  | 121 => ⟨S_, .i32⟩
  | 122 => ⟨S_, .i32⟩
  | 123 => ⟨S_, .i32⟩
  | 124 => ⟨S1024x1024, .i32⟩
  | 125 => ⟨S1024x1024, .i32⟩
  | 126 => ⟨S_, .i32⟩
  | 127 => ⟨S1024x1024, .i32⟩
  | _ => ⟨S1024x1024x2, .f32⟩

abbrev hbmTy0_2 (i : Nat) : BufTy := match i % 128 with
  | 0 => ⟨S1024x1024, .i32⟩
  | 1 => ⟨S_, .i32⟩
  | 2 => ⟨S_, .i32⟩
  | 3 => ⟨S_, .i32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S_, .i32⟩
  | 10 => ⟨S1024x1024, .i32⟩
  | 11 => ⟨S1024x1024, .i1⟩
  | 12 => ⟨S_, .i32⟩
  | 13 => ⟨S1024x1024, .i32⟩
  | 14 => ⟨S1024x1024, .i32⟩
  | 15 => ⟨S1024x1024, .i32⟩
  | 16 => ⟨S_, .i32⟩
  | 17 => ⟨S1024x1024, .i32⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S1024x1024x1, .i32⟩
  | 24 => ⟨S1024x1024x1, .i32⟩
  | 25 => ⟨S1024x1024x2, .i32⟩
  | 26 => ⟨S32x1024x1024, .f32⟩
  | 27 => ⟨S1024x1024, .f32⟩
  | 28 => ⟨S1x1024x1024, .f32⟩
  | 29 => ⟨S32x1024x1024, .f32⟩
  | 30 => ⟨S32x1024x1024, .f32⟩
  | 31 => ⟨S_, .f32⟩
  | 32 => ⟨S1024x1024, .f32⟩
  | 33 => ⟨S1024x1024, .f32⟩
  | 34 => ⟨S1x1024x1024, .f32⟩
  | 35 => ⟨S32x1024x1024, .f32⟩
  | 36 => ⟨S32x1024x1024, .f32⟩
  | 37 => ⟨S1x1024x1024, .f32⟩
  | 38 => ⟨S32x1024x1024, .f32⟩
  | 39 => ⟨S32x1024x1024, .f32⟩
  | 40 => ⟨S32x1024x1024, .f32⟩
  | 41 => ⟨S_, .i32⟩
  | 42 => ⟨S1024x1024, .i32⟩
  | 43 => ⟨S1024x1024, .i32⟩
  | 44 => ⟨S_, .i32⟩
  | 45 => ⟨S1024x1024, .i32⟩
  | 46 => ⟨S1024x1024, .i1⟩
  | 47 => ⟨S_, .i32⟩
  | 48 => ⟨S1024x1024, .i32⟩
  | 49 => ⟨S1024x1024, .i1⟩
  | 50 => ⟨S1024x1024, .i1⟩
  | 51 => ⟨S_, .i32⟩
  | 52 => ⟨S1024x1024, .i32⟩
  | 53 => ⟨S1024x1024, .i1⟩
  | 54 => ⟨S1024x1024, .i1⟩
  | 55 => ⟨S_, .i32⟩
  | 56 => ⟨S1024x1024, .i32⟩
  | 57 => ⟨S1024x1024, .i1⟩
  | 58 => ⟨S1024x1024, .i1⟩
  | 59 => ⟨S_, .i32⟩
  | 60 => ⟨S_, .i32⟩
  | 61 => ⟨S_, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S_, .i32⟩
  | 68 => ⟨S_, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S_, .i32⟩
  | 76 => ⟨S1024x1024, .i32⟩
  | 77 => ⟨S1024x1024, .i1⟩
  | 78 => ⟨S_, .i32⟩
  | 79 => ⟨S1024x1024, .i32⟩
  | 80 => ⟨S1024x1024, .i32⟩
  | 81 => ⟨S1024x1024, .i32⟩
  | 82 => ⟨S_, .i32⟩
  | 83 => ⟨S1024x1024, .i32⟩
  | 84 => ⟨S1024x1024, .i1⟩
  | 85 => ⟨S_, .i32⟩
  | 86 => ⟨S1024x1024, .i32⟩
  | 87 => ⟨S1024x1024, .i32⟩
  | 88 => ⟨S1024x1024, .i32⟩
  | 89 => ⟨S1024x1024x1, .i32⟩
  | 90 => ⟨S1024x1024x1, .i32⟩
  | 91 => ⟨S1024x1024x2, .i32⟩
  | 92 => ⟨S32x1024x1024, .f32⟩
  | 93 => ⟨S1024x1024, .f32⟩
  | 94 => ⟨S1x1024x1024, .f32⟩
  | 95 => ⟨S32x1024x1024, .f32⟩
  | 96 => ⟨S32x1024x1024, .f32⟩
  | 97 => ⟨S1x1024x1024, .f32⟩
  | 98 => ⟨S32x1024x1024, .f32⟩
  | 99 => ⟨S32x1024x1024, .f32⟩
  | 100 => ⟨S_, .f32⟩
  | 101 => ⟨S1024x1024, .f32⟩
  | 102 => ⟨S1024x1024, .f32⟩
  | 103 => ⟨S1x1024x1024, .f32⟩
  | 104 => ⟨S32x1024x1024, .f32⟩
  | 105 => ⟨S32x1024x1024, .f32⟩
  | 106 => ⟨S32x1024x1024, .f32⟩
  | 107 => ⟨S_, .i32⟩
  | 108 => ⟨S1024x1024, .i32⟩
  | 109 => ⟨S1024x1024, .i32⟩
  | 110 => ⟨S_, .i32⟩
  | 111 => ⟨S1024x1024, .i32⟩
  | 112 => ⟨S1024x1024, .i32⟩
  | 113 => ⟨S_, .i32⟩
  | 114 => ⟨S1024x1024, .i32⟩
  | 115 => ⟨S1024x1024, .i1⟩
  | 116 => ⟨S_, .i32⟩
  | 117 => ⟨S1024x1024, .i32⟩
  | 118 => ⟨S1024x1024, .i1⟩
  | 119 => ⟨S1024x1024, .i1⟩
  | 120 => ⟨S_, .i32⟩
  | 121 => ⟨S1024x1024, .i32⟩
  | 122 => ⟨S1024x1024, .i1⟩
  | 123 => ⟨S1024x1024, .i1⟩
  | 124 => ⟨S_, .i32⟩
  | 125 => ⟨S1024x1024, .i32⟩
  | 126 => ⟨S1024x1024, .i1⟩
  | 127 => ⟨S1024x1024, .i1⟩
  | _ => ⟨S1024x1024x2, .f32⟩

abbrev hbmTy0_3 (i : Nat) : BufTy := match i % 128 with
  | 0 => ⟨S_, .i32⟩
  | 1 => ⟨S_, .i32⟩
  | 2 => ⟨S_, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S_, .i32⟩
  | 9 => ⟨S_, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S_, .i32⟩
  | 17 => ⟨S1024x1024, .i32⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S_, .i32⟩
  | 24 => ⟨S1024x1024, .i32⟩
  | 25 => ⟨S1024x1024, .i1⟩
  | 26 => ⟨S_, .i32⟩
  | 27 => ⟨S1024x1024, .i32⟩
  | 28 => ⟨S1024x1024, .i32⟩
  | 29 => ⟨S1024x1024, .i32⟩
  | 30 => ⟨S1024x1024x1, .i32⟩
  | 31 => ⟨S1024x1024x1, .i32⟩
  | 32 => ⟨S1024x1024x2, .i32⟩
  | 33 => ⟨S32x1024x1024, .f32⟩
  | 34 => ⟨S1024x1024, .f32⟩
  | 35 => ⟨S1x1024x1024, .f32⟩
  | 36 => ⟨S32x1024x1024, .f32⟩
  | 37 => ⟨S32x1024x1024, .f32⟩
  | 38 => ⟨S1x1024x1024, .f32⟩
  | 39 => ⟨S32x1024x1024, .f32⟩
  | 40 => ⟨S32x1024x1024, .f32⟩
  | 41 => ⟨S1x1024x1024, .f32⟩
  | 42 => ⟨S32x1024x1024, .f32⟩
  | 43 => ⟨S32x1024x1024, .f32⟩
  | 44 => ⟨S32x1024x1024, .f32⟩
  | 45 => ⟨S32x1024x1024, .f32⟩
  | 46 => ⟨S32x1024x1024, .f32⟩
  | 47 => ⟨S1024x1024x32, .f32⟩
  | 48 => ⟨S1024x1024x64, .f32⟩
  | 49 => ⟨S1x1x64, .f32⟩
  | 50 => ⟨S1024x1024x64, .f32⟩
  | 51 => ⟨S1024x1024x64, .f32⟩
  | 52 => ⟨S_, .f32⟩
  | 53 => ⟨S1024x1024x64, .f32⟩
  | 54 => ⟨S1024x1024x64, .f32⟩
  | 55 => ⟨S1024x1024x1, .f32⟩
  | 56 => ⟨S1x1x1, .f32⟩
  | 57 => ⟨S1024x1024x1, .f32⟩
  | 58 => ⟨S1024x1024x1, .f32⟩
  | 59 => ⟨S1024x1024, .f32⟩
  | _ => ⟨S1024x1024x2, .f32⟩

abbrev hbmTy (i : Nat) : BufTy := match i / 128 with
  | 0 => hbmTy0_0 i
  | 1 => hbmTy0_1 i
  | 2 => hbmTy0_2 i
  | 3 => hbmTy0_3 i
  | _ => ⟨S1024x1024x2, .f32⟩

abbrev bufTy : (tb : Table) → Fin (tcTables nBuf tb) → BufTy
  | .hbm, ⟨i, _⟩ => hbmTy i
  | _, _ => ⟨S1024x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_12 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_v43 : Ref sig .tc := ⟨.hbm, 73, rfl⟩
abbrev main_v44 : Ref sig .tc := ⟨.hbm, 74, rfl⟩
abbrev main_c_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩
abbrev main_cst_18 : Ref sig .tc := ⟨.hbm, 91, rfl⟩
abbrev main_v58 : Ref sig .tc := ⟨.hbm, 92, rfl⟩
abbrev main_v59 : Ref sig .tc := ⟨.hbm, 93, rfl⟩
abbrev main_cst_19 : Ref sig .tc := ⟨.hbm, 94, rfl⟩
abbrev main_cst_20 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_21 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_22 : Ref sig .tc := ⟨.hbm, 109, rfl⟩
abbrev main_v67 : Ref sig .tc := ⟨.hbm, 110, rfl⟩
abbrev main_v68 : Ref sig .tc := ⟨.hbm, 111, rfl⟩
abbrev main_c_23 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_24 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_25 : Ref sig .tc := ⟨.hbm, 124, rfl⟩
abbrev main_v79 : Ref sig .tc := ⟨.hbm, 125, rfl⟩
abbrev main_v80 : Ref sig .tc := ⟨.hbm, 126, rfl⟩
abbrev main_c_26 : Ref sig .tc := ⟨.hbm, 127, rfl⟩
abbrev main_v81 : Ref sig .tc := ⟨.hbm, 128, rfl⟩
abbrev main_v82 : Ref sig .tc := ⟨.hbm, 129, rfl⟩
abbrev main_c_27 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_28 : Ref sig .tc := ⟨.hbm, 140, rfl⟩
abbrev main_v92 : Ref sig .tc := ⟨.hbm, 141, rfl⟩
abbrev main_v93 : Ref sig .tc := ⟨.hbm, 142, rfl⟩
abbrev main_cst_29 : Ref sig .tc := ⟨.hbm, 143, rfl⟩
abbrev main_v94 : Ref sig .tc := ⟨.hbm, 144, rfl⟩
abbrev main_v95 : Ref sig .tc := ⟨.hbm, 145, rfl⟩
abbrev main_cst_30 : Ref sig .tc := ⟨.hbm, 146, rfl⟩
abbrev main_v96 : Ref sig .tc := ⟨.hbm, 147, rfl⟩
abbrev main_v97 : Ref sig .tc := ⟨.hbm, 148, rfl⟩
abbrev main_cst_31 : Ref sig .tc := ⟨.hbm, 149, rfl⟩
abbrev main_v98 : Ref sig .tc := ⟨.hbm, 150, rfl⟩
abbrev main_v99 : Ref sig .tc := ⟨.hbm, 151, rfl⟩
abbrev main_cst_32 : Ref sig .tc := ⟨.hbm, 152, rfl⟩
abbrev main_v100 : Ref sig .tc := ⟨.hbm, 153, rfl⟩
abbrev main_v101 : Ref sig .tc := ⟨.hbm, 154, rfl⟩
abbrev main_cst_33 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_34 : Ref sig .tc := ⟨.hbm, 166, rfl⟩
abbrev main_v112 : Ref sig .tc := ⟨.hbm, 167, rfl⟩
abbrev main_v113 : Ref sig .tc := ⟨.hbm, 168, rfl⟩
abbrev main_c_35 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_36 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_c_37 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_38 : Ref sig .tc := ⟨.hbm, 181, rfl⟩
abbrev main_c_39 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_v123 : Ref sig .tc := ⟨.hbm, 188, rfl⟩
abbrev main_c_40 : Ref sig .tc := ⟨.hbm, 189, rfl⟩
abbrev main_c_41 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_call3_v3 : Ref sig .tc := ⟨.hbm, 194, rfl⟩
abbrev main_call3_v4 : Ref sig .tc := ⟨.hbm, 195, rfl⟩
abbrev main_v124 : Ref sig .tc := ⟨.hbm, 196, rfl⟩
abbrev main_c_42 : Ref sig .tc := ⟨.hbm, 197, rfl⟩
abbrev main_v125 : Ref sig .tc := ⟨.hbm, 198, rfl⟩
abbrev main_v126 : Ref sig .tc := ⟨.hbm, 199, rfl⟩
abbrev main_c_43 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_c_44 : Ref sig .tc := ⟨.hbm, 204, rfl⟩
abbrev main_v130 : Ref sig .tc := ⟨.hbm, 205, rfl⟩
abbrev main_v131 : Ref sig .tc := ⟨.hbm, 206, rfl⟩
abbrev main_c_45 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_46 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_47 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_c_48 : Ref sig .tc := ⟨.hbm, 231, rfl⟩
abbrev main_v153 : Ref sig .tc := ⟨.hbm, 232, rfl⟩
abbrev main_v154 : Ref sig .tc := ⟨.hbm, 233, rfl⟩
abbrev main_c_49 : Ref sig .tc := ⟨.hbm, 234, rfl⟩
abbrev main_v155 : Ref sig .tc := ⟨.hbm, 235, rfl⟩
abbrev main_v156 : Ref sig .tc := ⟨.hbm, 236, rfl⟩
abbrev main_c_50 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_51 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_c_52 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_c_53 : Ref sig .tc := ⟨.hbm, 249, rfl⟩
abbrev main_c_54 : Ref sig .tc := ⟨.hbm, 250, rfl⟩
abbrev main_call4_v0 : Ref sig .tc := ⟨.hbm, 251, rfl⟩
abbrev main_call4_v1 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_v166 : Ref sig .tc := ⟨.hbm, 256, rfl⟩
abbrev main_c_55 : Ref sig .tc := ⟨.hbm, 257, rfl⟩
abbrev main_c_56 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v167 : Ref sig .tc := ⟨.hbm, 264, rfl⟩
abbrev main_c_57 : Ref sig .tc := ⟨.hbm, 265, rfl⟩
abbrev main_v168 : Ref sig .tc := ⟨.hbm, 266, rfl⟩
abbrev main_v169 : Ref sig .tc := ⟨.hbm, 267, rfl⟩
abbrev main_c_58 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_c_59 : Ref sig .tc := ⟨.hbm, 272, rfl⟩
abbrev main_v173 : Ref sig .tc := ⟨.hbm, 273, rfl⟩
abbrev main_v174 : Ref sig .tc := ⟨.hbm, 274, rfl⟩
abbrev main_c_60 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_cst_61 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_c_62 : Ref sig .tc := ⟨.hbm, 297, rfl⟩
abbrev main_v195 : Ref sig .tc := ⟨.hbm, 298, rfl⟩
abbrev main_v196 : Ref sig .tc := ⟨.hbm, 299, rfl⟩
abbrev main_c_63 : Ref sig .tc := ⟨.hbm, 300, rfl⟩
abbrev main_v197 : Ref sig .tc := ⟨.hbm, 301, rfl⟩
abbrev main_v198 : Ref sig .tc := ⟨.hbm, 302, rfl⟩
abbrev main_c_64 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_c_65 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_c_66 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_c_67 : Ref sig .tc := ⟨.hbm, 315, rfl⟩
abbrev main_c_68 : Ref sig .tc := ⟨.hbm, 316, rfl⟩
abbrev main_call6_v0 : Ref sig .tc := ⟨.hbm, 317, rfl⟩
abbrev main_call6_v1 : Ref sig .tc := ⟨.hbm, 318, rfl⟩
abbrev main_call6_v2 : Ref sig .tc := ⟨.hbm, 319, rfl⟩
abbrev main_call6_v3 : Ref sig .tc := ⟨.hbm, 320, rfl⟩
abbrev main_call6_v4 : Ref sig .tc := ⟨.hbm, 321, rfl⟩
abbrev main_v208 : Ref sig .tc := ⟨.hbm, 322, rfl⟩
abbrev main_c_69 : Ref sig .tc := ⟨.hbm, 323, rfl⟩
abbrev main_c_70 : Ref sig .tc := ⟨.hbm, 324, rfl⟩
abbrev main_call7_v0 : Ref sig .tc := ⟨.hbm, 325, rfl⟩
abbrev main_call7_v1 : Ref sig .tc := ⟨.hbm, 326, rfl⟩
abbrev main_call7_v2 : Ref sig .tc := ⟨.hbm, 327, rfl⟩
abbrev main_call7_v3 : Ref sig .tc := ⟨.hbm, 328, rfl⟩
abbrev main_call7_v4 : Ref sig .tc := ⟨.hbm, 329, rfl⟩
abbrev main_v209 : Ref sig .tc := ⟨.hbm, 330, rfl⟩
abbrev main_c_71 : Ref sig .tc := ⟨.hbm, 331, rfl⟩
abbrev main_v210 : Ref sig .tc := ⟨.hbm, 332, rfl⟩
abbrev main_v211 : Ref sig .tc := ⟨.hbm, 333, rfl⟩
abbrev main_c_72 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_c_73 : Ref sig .tc := ⟨.hbm, 338, rfl⟩
abbrev main_v215 : Ref sig .tc := ⟨.hbm, 339, rfl⟩
abbrev main_v216 : Ref sig .tc := ⟨.hbm, 340, rfl⟩
abbrev main_c_74 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_v230 : Ref sig .tc := ⟨.hbm, 355, rfl⟩
abbrev main_cst_75 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_c_76 : Ref sig .tc := ⟨.hbm, 363, rfl⟩
abbrev main_v237 : Ref sig .tc := ⟨.hbm, 364, rfl⟩
abbrev main_v238 : Ref sig .tc := ⟨.hbm, 365, rfl⟩
abbrev main_c_77 : Ref sig .tc := ⟨.hbm, 366, rfl⟩
abbrev main_v239 : Ref sig .tc := ⟨.hbm, 367, rfl⟩
abbrev main_v240 : Ref sig .tc := ⟨.hbm, 368, rfl⟩
abbrev main_c_78 : Ref sig .tc := ⟨.hbm, 369, rfl⟩
abbrev main_v241 : Ref sig .tc := ⟨.hbm, 370, rfl⟩
abbrev main_v242 : Ref sig .tc := ⟨.hbm, 371, rfl⟩
abbrev main_c_79 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_c_80 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_c_81 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_c_82 : Ref sig .tc := ⟨.hbm, 384, rfl⟩
abbrev main_c_83 : Ref sig .tc := ⟨.hbm, 385, rfl⟩
abbrev main_call8_v0 : Ref sig .tc := ⟨.hbm, 386, rfl⟩
abbrev main_call8_v1 : Ref sig .tc := ⟨.hbm, 387, rfl⟩
abbrev main_call8_v2 : Ref sig .tc := ⟨.hbm, 388, rfl⟩
abbrev main_call8_v3 : Ref sig .tc := ⟨.hbm, 389, rfl⟩
abbrev main_call8_v4 : Ref sig .tc := ⟨.hbm, 390, rfl⟩
abbrev main_v252 : Ref sig .tc := ⟨.hbm, 391, rfl⟩
abbrev main_c_84 : Ref sig .tc := ⟨.hbm, 392, rfl⟩
abbrev main_c_85 : Ref sig .tc := ⟨.hbm, 393, rfl⟩
abbrev main_call9_v0 : Ref sig .tc := ⟨.hbm, 394, rfl⟩
abbrev main_call9_v1 : Ref sig .tc := ⟨.hbm, 395, rfl⟩
abbrev main_call9_v2 : Ref sig .tc := ⟨.hbm, 396, rfl⟩
abbrev main_call9_v3 : Ref sig .tc := ⟨.hbm, 397, rfl⟩
abbrev main_call9_v4 : Ref sig .tc := ⟨.hbm, 398, rfl⟩
abbrev main_v253 : Ref sig .tc := ⟨.hbm, 399, rfl⟩
abbrev main_c_86 : Ref sig .tc := ⟨.hbm, 400, rfl⟩
abbrev main_v254 : Ref sig .tc := ⟨.hbm, 401, rfl⟩
abbrev main_v255 : Ref sig .tc := ⟨.hbm, 402, rfl⟩
abbrev main_c_87 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_c_88 : Ref sig .tc := ⟨.hbm, 407, rfl⟩
abbrev main_v259 : Ref sig .tc := ⟨.hbm, 408, rfl⟩
abbrev main_v260 : Ref sig .tc := ⟨.hbm, 409, rfl⟩
abbrev main_c_89 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_v284 : Ref sig .tc := ⟨.hbm, 434, rfl⟩
abbrev main_v285 : Ref sig .tc := ⟨.hbm, 435, rfl⟩
abbrev main_call10_cst : Ref sig .tc := ⟨.hbm, 436, rfl⟩
abbrev main_call10_v0 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩

abbrev nD : Nat := 1
abbrev τ : Topo := Topo.v7x

variable {F : FTy → Type} [FloatOps F]

class Facts₀ : Prop where
  slices_S1024x1024x2_S1024x1024x1_0_0_0 : S1024x1024x2.Slices ![0, 0, 0] S1024x1024x1
  shapeCasts_S1024x1024x1_S1024x1024 : S1024x1024x1.ShapeCasts S1024x1024
  bcast_S_S1024x1024 : S_.BroadcastsInDim S1024x1024 (![] : Fin 0 → Fin S1024x1024.rank)
  slices_S1024x1024x2_S1024x1024x1_0_0_1 : S1024x1024x2.Slices ![0, 0, 1] S1024x1024x1
  bcast_S1024x1024_S1024x1024x1_0_1 : S1024x1024.BroadcastsInDim S1024x1024x1 (![0, 1] : Fin 2 → Fin S1024x1024x1.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  concatenates_S1024x1024x1_S1024x1024x1_S1024x1024x2_d2 : Shape.Concatenates [S1024x1024x1, S1024x1024x1] S1024x1024x2 2
  transposes_S32x1024x1024_S1024x1024x32_1_2_0 : S32x1024x1024.Transposes [1, 2, 0] S1024x1024x32
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  gather_S32x1024_S1024x1024x1_S32x1024x1024_0_1_n_n_1_2_321_wf : GatherDims.WF S32x1024 S1024x1024x1 S32x1024x1024 [0] [1] [] [1] [] 2 ![32, 1]
  gather_S32x256x256_S1024x1024x2_S32x1024x1024_0_12_n_n_12_2_3211_wf : GatherDims.WF S32x256x256 S1024x1024x2 S32x1024x1024 [0] [1, 2] [] [1, 2] [] 2 ![32, 1, 1]
  dot_S1024x1024x32_S64x32_S1024x1024x64_2_1_01_0_n_n_wf : DotDims.WF S1024x1024x32 S64x32 S1024x1024x64 [2] [1] [0, 1] [0] [] []
  dot_S1024x1024x64_S1x64_S1024x1024x1_2_1_01_0_n_n_wf : DotDims.WF S1024x1024x64 S1x64 S1024x1024x1 [2] [1] [0, 1] [0] [] []

variable [Facts₀]

def gather_S32x1024_S1024x1024x1_S32x1024x1024_0_1_n_n_1_2_321 : GatherDims S32x1024 S1024x1024x1 S32x1024x1024 where
  offsetDims := [0]
  collapsedSliceDims := [1]
  operandBatchingDims := []
  startIndicesBatchingDims := []
  startIndexMap := [1]
  indexVectorDim := 2
  sliceSizes := ![32, 1]
  wf := gather_S32x1024_S1024x1024x1_S32x1024x1024_0_1_n_n_1_2_321_wf
def gather_S32x256x256_S1024x1024x2_S32x1024x1024_0_12_n_n_12_2_3211 : GatherDims S32x256x256 S1024x1024x2 S32x1024x1024 where
  offsetDims := [0]
  collapsedSliceDims := [1, 2]
  operandBatchingDims := []
  startIndicesBatchingDims := []
  startIndexMap := [1, 2]
  indexVectorDim := 2
  sliceSizes := ![32, 1, 1]
  wf := gather_S32x256x256_S1024x1024x2_S32x1024x1024_0_12_n_n_12_2_3211_wf
def dot_S1024x1024x32_S64x32_S1024x1024x64_2_1_01_0_n_n : DotDims S1024x1024x32 S64x32 S1024x1024x64 where
  lhsContracting := [2]
  rhsContracting := [1]
  lhsNonContracting := [0, 1]
  rhsNonContracting := [0]
  lhsBatch := []
  rhsBatch := []
  wf := dot_S1024x1024x32_S64x32_S1024x1024x64_2_1_01_0_n_n_wf
def dot_S1024x1024x64_S1x64_S1024x1024x1_2_1_01_0_n_n : DotDims S1024x1024x64 S1x64 S1024x1024x1 where
  lhsContracting := [2]
  rhsContracting := [1]
  lhsNonContracting := [0, 1]
  rhsNonContracting := [0]
  lhsBatch := []
  rhsBatch := []
  wf := dot_S1024x1024x64_S1x64_S1024x1024x1_2_1_01_0_n_n_wf

class Facts : Prop extends Facts₀ where

variable [Facts]
-- ==== Proof.Spec.lean ====
/-
  The decoder both programs apply to the sampled feature tensor, as ONE function of the arrays, index by index on the
  extended reals. With X the feature tensor [32, 1024, 1024] (channel first), W1 [64, 32], b1 [64], W2 [1, 64], b2 [1]:

      hidden X W1 b1 h w k = max (Σ_c W1[k, c] · X[c, h, w] + b1[k]) 0
      decode X W1 b1 W2 b2 [h, w] = Σ_k W2[0, k] · hidden X W1 b1 h w k + b2[0]

  The kernel sees X flattened to [32, 1048576] (position n = h · 1024 + w), b1 as a column [64, 1] and b2 as [1, 1], and
  writes a row [1, 1048576]: that is `decodeFlat`. The two are the same numbers laid out differently (`decodeFlat_eq`).
-/
import Idealize.ShloMosaic.Lib.ValueIdx
import Idealize.ShloMosaic.PureOps.Ideal.Laws

noncomputable section

open scoped BigOperators

namespace Cert.Mlp

open Idealize.ShloMosaic Idealize.ShloMosaic.ValueIdx

/-- The hidden unit `k` at pixel `(h, w)`: the affine map of the pixel's 32 features, clamped below at zero. -/
def hidden (X : (⟨3, ![32, 1024, 1024]⟩ : Shape).Idx → EReal) (W1 : (⟨2, ![64, 32]⟩ : Shape).Idx → EReal)
    (b1 : (⟨1, ![64]⟩ : Shape).Idx → EReal) (h w : Fin 1024) (k : Fin 64) : EReal :=
  max ((∑ c : Fin 32, W1 (ix2 k c) * X (ix3 c h w)) + b1 (ix1 k)) 0

/-- The decoder's output at pixel `i = (h, w)`: the second affine map of the 64 hidden units. -/
def decode (X : (⟨3, ![32, 1024, 1024]⟩ : Shape).Idx → EReal) (W1 : (⟨2, ![64, 32]⟩ : Shape).Idx → EReal)
    (b1 : (⟨1, ![64]⟩ : Shape).Idx → EReal) (W2 : (⟨2, ![1, 64]⟩ : Shape).Idx → EReal) (b2 : (⟨1, ![1]⟩ : Shape).Idx → EReal) :
    (⟨2, ![1024, 1024]⟩ : Shape).Idx → EReal :=
  fun i => (∑ k : Fin 64, W2 (ix2 0 k) * hidden X W1 b1 (i 0) (i 1) k) + b2 (ix1 0)

/-- The same over the flat layout: features [32, 1048576], the biases as a column [64, 1] and a [1, 1] cell, the
    output a row [1, 1048576]. -/
def decodeFlat (Xf : (⟨2, ![32, 1048576]⟩ : Shape).Idx → EReal) (W1 : (⟨2, ![64, 32]⟩ : Shape).Idx → EReal)
    (B1 : (⟨2, ![64, 1]⟩ : Shape).Idx → EReal) (W2 : (⟨2, ![1, 64]⟩ : Shape).Idx → EReal) (B2 : (⟨2, ![1, 1]⟩ : Shape).Idx → EReal) :
    (⟨2, ![1, 1048576]⟩ : Shape).Idx → EReal :=
  fun j => (∑ k : Fin 64, W2 (ix2 0 k) * max ((∑ c : Fin 32, W1 (ix2 k c) * Xf (ix2 c (j 1))) + B1 (ix2 k 0)) 0) + B2 (ix2 0 0)

/-- Position `n = h · 1024 + w` of the flat row. -/
def flatPos (h w : Fin 1024) : Fin 1048576 := ⟨h.val * 1024 + w.val, by have := h.isLt; have := w.isLt; omega⟩

/-- Flat layout against tensor layout: if the flat features are the tensor read at `n = h · 1024 + w`, the column is
    b1 and the cell is b2, then the flat row at `n` is the decoder's output at `(h, w)`. -/
theorem decodeFlat_eq (X : (⟨3, ![32, 1024, 1024]⟩ : Shape).Idx → EReal) (Xf : (⟨2, ![32, 1048576]⟩ : Shape).Idx → EReal)
    (W1 : (⟨2, ![64, 32]⟩ : Shape).Idx → EReal) (b1 : (⟨1, ![64]⟩ : Shape).Idx → EReal) (B1 : (⟨2, ![64, 1]⟩ : Shape).Idx → EReal)
    (W2 : (⟨2, ![1, 64]⟩ : Shape).Idx → EReal) (b2 : (⟨1, ![1]⟩ : Shape).Idx → EReal) (B2 : (⟨2, ![1, 1]⟩ : Shape).Idx → EReal)
    (hX : ∀ (c : Fin 32) (h w : Fin 1024), Xf (ix2 c (flatPos h w)) = X (ix3 c h w))
    (hB1 : ∀ k : Fin 64, B1 (ix2 k 0) = b1 (ix1 k)) (hB2 : B2 (ix2 0 0) = b2 (ix1 0)) (h w : Fin 1024) :
    decodeFlat Xf W1 B1 W2 B2 (ix2 0 (flatPos h w)) = decode X W1 b1 W2 b2 (ix2 h w) := by
  unfold decodeFlat decode hidden
  simp only [hX, hB1, hB2]

end Cert.Mlp

end
-- ==== Proof.KernelArray.lean ====
/-
  The kernel's output array after its one grid of 32 points, as ONE function of the arrays the region finds: the flat
  decoder's row `Cert.Mlp.decodeFlat` of the feature array [32, 1048576], the first layer's weights [64, 32] and bias
  column [64, 1], the second layer's weights [1, 64] and bias cell [1, 1].

  The steps: each of the body's two products read at an index as a sum over its contraction axis; the body's value at a
  column of its block (`payload_apply`: on the extended reals the casts to the narrower format are the identity, the
  clamp is `max · 0`); the same with the blocks read off the arrays (`block_value`); the block index maps over the grid
  (`index_facts`: the feature and output windows move along the columns with the point, block `t` being columns
  `32768 t … 32768 t + 32767`; the four small windows are their whole arrays); what point `t` writes back is block `t` of
  the row (`flushed_eq`); the 32 blocks cover the row (`cover`: column `n` lies in block `n / 32768`); hence the array
  (`final`).
-/
import proofs.«152604_j41824391528833_1_alg».proof.Proof.Spec
import proofs.«152604_j41824391528833_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

/-! ## The two products read at an index

Both products contract the left operand's second axis with the right operand's first: at the output index `(r, q)` and
contraction position `k` the left operand is read at `(r, k)` and the right one at `(k, q)`. -/

/-- The first layer's product: rows of the weights, row axis of the output. -/
theorem lhs_hidden_0 (i : S64x32768.Idx) (q : dot_S64x32_S32x32768_S64x32768_1_0_0_1_n_n.contr.Idx) :
    (dot_S64x32_S32x32768_S64x32768_1_0_0_1_n_n.lhsIdx i q 0).val = (i 0).val := by
  unfold DotDims.lhsIdx
  rw [dif_neg (show ¬(0 : Fin S64x32.rank) ∈ dot_S64x32_S32x32768_S64x32768_1_0_0_1_n_n.lhsBatch by decide), dif_pos (show (0 : Fin S64x32.rank) ∈ dot_S64x32_S32x32768_S64x32768_1_0_0_1_n_n.lhsNonContracting by decide)]
  rfl
theorem lhs_hidden_1 (i : S64x32768.Idx) (q : dot_S64x32_S32x32768_S64x32768_1_0_0_1_n_n.contr.Idx) :
    (dot_S64x32_S32x32768_S64x32768_1_0_0_1_n_n.lhsIdx i q 1).val = (q ⟨0, by decide⟩).val :=
  dot_S64x32_S32x32768_S64x32768_1_0_0_1_n_n.lhsIdx_val_of_single rfl i q
theorem rhs_hidden_0 (i : S64x32768.Idx) (q : dot_S64x32_S32x32768_S64x32768_1_0_0_1_n_n.contr.Idx) :
    (dot_S64x32_S32x32768_S64x32768_1_0_0_1_n_n.rhsIdx i q 0).val = (q ⟨0, by decide⟩).val :=
  dot_S64x32_S32x32768_S64x32768_1_0_0_1_n_n.rhsIdx_val_of_single rfl i q
theorem rhs_hidden_1 (i : S64x32768.Idx) (q : dot_S64x32_S32x32768_S64x32768_1_0_0_1_n_n.contr.Idx) :
    (dot_S64x32_S32x32768_S64x32768_1_0_0_1_n_n.rhsIdx i q 1).val = (i 1).val := by
  unfold DotDims.rhsIdx
  rw [dif_neg (show ¬(1 : Fin S32x32768.rank) ∈ dot_S64x32_S32x32768_S64x32768_1_0_0_1_n_n.rhsBatch by decide), dif_pos (show (1 : Fin S32x32768.rank) ∈ dot_S64x32_S32x32768_S64x32768_1_0_0_1_n_n.rhsNonContracting by decide)]
  rfl

/-- The first layer's product at `(r, q)`: the sum over the 32 features. -/
theorem hidden_matmul_apply (a : FVec Ideal S64x32 .bf16) (b : FVec Ideal S32x32768 .bf16) (r : Fin 64) (q : Fin 32768) :
    matmul dot_S64x32_S32x32768_S64x32768_1_0_0_1_n_n none a b (constant (F := Ideal) S64x32768 .f32 0x00000000#32) (ix2 r q)
      = ∑ k : Fin 32, a (ix2 r k) * b (ix2 k q) := by
  simp only [matmul]
  rw [Ideal.matmul_constant_zero_apply, ← Equiv.sum_comp (ValueIdx.contrEquiv1 dot_S64x32_S32x32768_S64x32768_1_0_0_1_n_n 32 rfl rfl).symm]
  refine Finset.sum_congr rfl fun k _ => ?_
  have hk := ValueIdx.contrEquiv1_symm_val dot_S64x32_S32x32768_S64x32768_1_0_0_1_n_n 32 rfl rfl k
  have el : dot_S64x32_S32x32768_S64x32768_1_0_0_1_n_n.lhsIdx (ix2 r q) ((ValueIdx.contrEquiv1 dot_S64x32_S32x32768_S64x32768_1_0_0_1_n_n 32 rfl rfl).symm k) = ix2 r k := funext fun a => Fin.ext (by
    match a with
    | ⟨0, _⟩ => exact lhs_hidden_0 _ _
    | ⟨1, _⟩ => exact (lhs_hidden_1 _ _).trans hk)
  have er : dot_S64x32_S32x32768_S64x32768_1_0_0_1_n_n.rhsIdx (ix2 r q) ((ValueIdx.contrEquiv1 dot_S64x32_S32x32768_S64x32768_1_0_0_1_n_n 32 rfl rfl).symm k) = ix2 k q := funext fun a => Fin.ext (by
    match a with
    | ⟨0, _⟩ => exact (rhs_hidden_0 _ _).trans hk
    | ⟨1, _⟩ => exact rhs_hidden_1 _ _)
  rw [el, er]

/-- The second layer's product: the one row of the weights, row axis of the output. -/
theorem lhs_out_0 (i : S1x32768.Idx) (q : dot_S1x64_S64x32768_S1x32768_1_0_0_1_n_n.contr.Idx) :
    (dot_S1x64_S64x32768_S1x32768_1_0_0_1_n_n.lhsIdx i q 0).val = (i 0).val := by
  unfold DotDims.lhsIdx
  rw [dif_neg (show ¬(0 : Fin S1x64.rank) ∈ dot_S1x64_S64x32768_S1x32768_1_0_0_1_n_n.lhsBatch by decide), dif_pos (show (0 : Fin S1x64.rank) ∈ dot_S1x64_S64x32768_S1x32768_1_0_0_1_n_n.lhsNonContracting by decide)]
  rfl
theorem lhs_out_1 (i : S1x32768.Idx) (q : dot_S1x64_S64x32768_S1x32768_1_0_0_1_n_n.contr.Idx) :
    (dot_S1x64_S64x32768_S1x32768_1_0_0_1_n_n.lhsIdx i q 1).val = (q ⟨0, by decide⟩).val :=
  dot_S1x64_S64x32768_S1x32768_1_0_0_1_n_n.lhsIdx_val_of_single rfl i q
theorem rhs_out_0 (i : S1x32768.Idx) (q : dot_S1x64_S64x32768_S1x32768_1_0_0_1_n_n.contr.Idx) :
    (dot_S1x64_S64x32768_S1x32768_1_0_0_1_n_n.rhsIdx i q 0).val = (q ⟨0, by decide⟩).val :=
  dot_S1x64_S64x32768_S1x32768_1_0_0_1_n_n.rhsIdx_val_of_single rfl i q
theorem rhs_out_1 (i : S1x32768.Idx) (q : dot_S1x64_S64x32768_S1x32768_1_0_0_1_n_n.contr.Idx) :
    (dot_S1x64_S64x32768_S1x32768_1_0_0_1_n_n.rhsIdx i q 1).val = (i 1).val := by
  unfold DotDims.rhsIdx
  rw [dif_neg (show ¬(1 : Fin S64x32768.rank) ∈ dot_S1x64_S64x32768_S1x32768_1_0_0_1_n_n.rhsBatch by decide), dif_pos (show (1 : Fin S64x32768.rank) ∈ dot_S1x64_S64x32768_S1x32768_1_0_0_1_n_n.rhsNonContracting by decide)]
  rfl

/-- The second layer's product at `(0, q)`: the sum over the 64 hidden units. -/
theorem out_matmul_apply (a : FVec Ideal S1x64 .bf16) (b : FVec Ideal S64x32768 .bf16) (q : Fin 32768) :
    matmul dot_S1x64_S64x32768_S1x32768_1_0_0_1_n_n none a b (constant (F := Ideal) S1x32768 .f32 0x00000000#32) (ix2 (0 : Fin 1) q)
      = ∑ k : Fin 64, a (ix2 (0 : Fin 1) k) * b (ix2 k q) := by
  simp only [matmul]
  rw [Ideal.matmul_constant_zero_apply, ← Equiv.sum_comp (ValueIdx.contrEquiv1 dot_S1x64_S64x32768_S1x32768_1_0_0_1_n_n 64 rfl rfl).symm]
  refine Finset.sum_congr rfl fun k _ => ?_
  have hk := ValueIdx.contrEquiv1_symm_val dot_S1x64_S64x32768_S1x32768_1_0_0_1_n_n 64 rfl rfl k
  have el : dot_S1x64_S64x32768_S1x32768_1_0_0_1_n_n.lhsIdx (ix2 (0 : Fin 1) q) ((ValueIdx.contrEquiv1 dot_S1x64_S64x32768_S1x32768_1_0_0_1_n_n 64 rfl rfl).symm k) = ix2 (0 : Fin 1) k := funext fun a => Fin.ext (by
    match a with
    | ⟨0, _⟩ => exact lhs_out_0 _ _
    | ⟨1, _⟩ => exact (lhs_out_1 _ _).trans hk)
  have er : dot_S1x64_S64x32768_S1x32768_1_0_0_1_n_n.rhsIdx (ix2 (0 : Fin 1) q) ((ValueIdx.contrEquiv1 dot_S1x64_S64x32768_S1x32768_1_0_0_1_n_n 64 rfl rfl).symm k) = ix2 k q := funext fun a => Fin.ext (by
    match a with
    | ⟨0, _⟩ => exact (rhs_out_0 _ _).trans hk
    | ⟨1, _⟩ => exact rhs_out_1 _ _)
  rw [el, er]

/-! ## The two biases spread over the block -/

/-- A column `[a, 1]` broadcast to `[a, b]` reads, at `(r, q)`, the column at `r`. -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- A cell `[1, 1]` broadcast to `[1, b]` reads the cell everywhere. -/
theorem broadcastTo_11_1b_apply {α : Type} {b : ℕ} (v : (⟨2, ![1, 1]⟩ : Shape).Idx → α) (h : (⟨2, ![1, 1]⟩ : Shape).Broadcasts ⟨2, ![1, b]⟩)
    (q : Fin b) : broadcastTo ⟨2, ![1, b]⟩ v h (ix2 (0 : Fin 1) q) = v (ix2 (0 : Fin 1) (0 : Fin 1)) := by
  refine broadcastTo_apply v h (ix2 (0 : Fin 1) q) (ix2 (0 : Fin 1) (0 : Fin 1)) fun ax => ?_
  match ax with
  | ⟨0, _⟩ => rfl
  | ⟨1, _⟩ => rfl

/-! ## The body's arithmetic at a column of the block -/

/-- What the body stores at column `q` of its block: the second affine map of the 64 clamped first-layer units of that
    column. The casts to the narrower format and the same-shape casts are the identity on the extended reals. -/
theorem payload_apply (x0 : FVec Ideal S32x32768 .bf16) (x1 : FVec Ideal S64x32 .f32) (x2 : FVec Ideal S64x1 .f32)
    (x3 : FVec Ideal S1x64 .f32) (x4 : FVec Ideal S1x1 .f32) (q : Fin 32768) :
    k0_pay1 (F := Ideal) x0 x1 x2 x3 x4 (ix2 (0 : Fin 1) q)
      = (∑ k : Fin 64, x3 (ix2 (0 : Fin 1) k) * max ((∑ c : Fin 32, x1 (ix2 k c) * x0 (ix2 c q)) + x2 (ix2 k (0 : Fin 1))) 0)
        + x4 (ix2 (0 : Fin 1) (0 : Fin 1)) := by
  unfold k0_pay1
  simp only [shapeCast_self]
  rw [addf_apply, out_matmul_apply, broadcastTo_11_1b_apply]
  refine congrArg (· + x4 (ix2 (0 : Fin 1) (0 : Fin 1))) (Finset.sum_congr rfl fun k _ => ?_)
  rw [truncf_apply, truncf_apply, maximumf_apply, addf_apply, hidden_matmul_apply, broadcastTo_a1_ab_apply, broadcast_apply]
  rw [show (FloatOps.ofBits (F := Ideal) FTy.f32 0x00000000#32 : EReal) = 0 from Ideal.ofBits_zero_f32]
  rfl

/-! ## The body's value on blocks read off the arrays -/

/-- If the feature block's column `y 1` is the feature array's column `i 1`, and the four small blocks are their whole
    arrays, the body's value at `y` is the flat decoder's row at `i`. -/
theorem block_value (X : FVec Ideal S32x1048576 .bf16) (W1 : FVec Ideal S64x32 .f32) (B1 : FVec Ideal S64x1 .f32)
    (W2 : FVec Ideal S1x64 .f32) (B2 : FVec Ideal S1x1 .f32)
    (x0 : FVec Ideal S32x32768 .bf16) (x1 : FVec Ideal S64x32 .f32) (x2 : FVec Ideal S64x1 .f32)
    (x3 : FVec Ideal S1x64 .f32) (x4 : FVec Ideal S1x1 .f32) (y : S1x32768.Idx) (i : S1x1048576.Idx)
    (h0 : ∀ k : Fin 32, x0 (ix2 k (y 1)) = X (ix2 k (i 1)))
    (h1 : x1 = W1) (h2 : x2 = B1) (h3 : x3 = W2) (h4 : x4 = B2) :
    k0_pay1 (F := Ideal) x0 x1 x2 x3 x4 y = Cert.Mlp.decodeFlat X W1 B1 W2 B2 i := by
  subst h1 h2 h3 h4
  obtain ⟨p, q, rfl⟩ : ∃ (p : Fin 1) (q : Fin 32768), y = ix2 p q := ⟨y 0, y 1, eq_ix2 y⟩
  obtain rfl : p = 0 := Subsingleton.elim _ _
  rw [payload_apply]
  unfold Cert.Mlp.decodeFlat
  exact congrArg (· + x4 (ix2 (0 : Fin 1) (0 : Fin 1))) (Finset.sum_congr rfl fun k _ => by
    rw [Finset.sum_congr rfl fun c _ => congrArg (x1 (ix2 k c) * ·) (h0 c)])

/-! ## From blocks to the array -/

variable (m : (ℓ : Loc nD τ sig) → Buf (Elt Ideal) ℓ)

theorem zero_offsets : (![0, 0] : Fin 2 → Nat) = fun _ => 0 := funext fun a => by fin_cases a <;> rfl

/-- The block index maps over the grid: the feature window and the output window move along the columns with the grid
    point, the four small windows stay at their whole arrays. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The feature block at point `t` is columns `32768 t … 32768 t + 32767` of the feature array. -/
theorem feat_block (c : Dev nD) (t : Fin cfg0.N) (y : S32x32768.Idx) (i : S32x1048576.Idx)
    (h0 : (i 0).val = (y 0).val) (h1 : (i 1).val = t.val * 32768 + (y 1).val) :
    (iblk m c 0 t : FVec Ideal S32x32768 .bf16) y = (V m c main_v282 : FVec Ideal S32x1048576 .bf16) i := by
  obtain ⟨e0, e1, -⟩ := index_facts t
  unfold iblk
  rw [View.read_apply]
  show V m c main_v282 _ = V m c main_v282 _
  congr 1
  funext a
  apply Fin.ext
  match a with
  | ⟨0, _⟩ => show win0_0.index t (0 : Fin 2) * 32 + 1 * (y 0).val = (i 0).val; rw [e0, h0]; omega
  | ⟨1, _⟩ => show win0_0.index t (1 : Fin 2) * 32768 + 1 * (y 1).val = (i 1).val; rw [e1, h1]; omega

/-- The first layer's weights are staged whole. -/
theorem w1_block (c : Dev nD) (t : Fin cfg0.N) : (iblk m c 1 t : FVec Ideal S64x32 .f32) = V m c main_arg4 := by
  obtain ⟨-, -, e0, e1, -⟩ := index_facts t
  funext y
  unfold iblk
  rw [View.read_apply]
  show V m c main_arg4 _ = V m c main_arg4 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 32 + 1 * (y 1).val = (y 1).val; rw [e1]; omega

/-- The first layer's bias column is staged whole. -/
theorem b1_block (c : Dev nD) (t : Fin cfg0.N) : (iblk m c 2 t : FVec Ideal S64x1 .f32) = V m c main_v283 := by
  obtain ⟨-, -, -, -, e0, e1, -⟩ := index_facts t
  funext y
  unfold iblk
  rw [View.read_apply]
  show V m c main_v283 _ = V m c main_v283 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 1 + 1 * (y 1).val = (y 1).val; rw [e1]; omega

/-- The second layer's weights are staged whole. -/
theorem w2_block (c : Dev nD) (t : Fin cfg0.N) : (iblk m c 3 t : FVec Ideal S1x64 .f32) = V m c main_arg6 := by
  obtain ⟨-, -, -, -, -, -, e0, e1, -⟩ := index_facts t
  funext y
  unfold iblk
  rw [View.read_apply]
  show V m c main_arg6 _ = V m c main_arg6 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The second layer's bias cell is staged whole. -/
theorem b2_block (c : Dev nD) (t : Fin cfg0.N) : (iblk m c 4 t : FVec Ideal S1x1 .f32) = V m c main_v284 := by
  obtain ⟨-, -, -, -, -, -, -, -, e0, e1, -⟩ := index_facts t
  funext y
  unfold iblk
  rw [View.read_apply]
  show V m c main_v284 _ = V m c main_v284 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- The kernel's output row as one function of the arrays the region finds. -/
abbrev row (c : Dev nD) : S1x1048576.Idx → EReal :=
  Cert.Mlp.decodeFlat (V m c main_v282) (V m c main_arg4) (V m c main_v283) (V m c main_arg6) (V m c main_v284)

/-- Column `y 1` of the output block at point `t` is column `32768 t + y 1` of the output row. -/
theorem out_col (t : Fin cfg0.N) (y : S1x32768.Idx) :
    ((((cfg0.win 5).blk t).view.emb y : S1x1048576.Idx) 1).val = t.val * 32768 + (y 1).val := by
  obtain ⟨-, -, -, -, -, -, -, -, -, -, -, e1⟩ := index_facts t
  show win0_5.index t (1 : Fin 2) * 32768 + 1 * (y 1).val = _
  rw [e1]; omega

/-- What point `t` writes back is block `t` of the row. -/
theorem flushed_eq (c : Dev nD) (t : Fin cfg0.N) :
    (dats (F := Ideal) m 0 c).flushed 5 t = ((cfg0.win 5).blk t).view.read (Elt Ideal) (row m c) := by
  show (cfg0.win 5).cut (grid0.coords t) ((dats m 0 c).after 5 t) = _
  rw [after0_5]
  unfold out0_5
  rw [View.canon_unit_zero zero_offsets]
  simp only [View.ld_unit_zero (S := S32x32768) zero_offsets, View.ld_unit_zero (S := S64x32) zero_offsets, View.ld_unit_zero (S := S64x1) zero_offsets, View.ld_unit_zero (S := S1x64) zero_offsets, View.ld_unit_zero (S := S1x1) zero_offsets]
  funext j
  show k0_pay1 (F := Ideal) (iblk m c 0 t) (iblk m c 1 t) (iblk m c 2 t) (iblk m c 3 t) (iblk m c 4 t) j
    = row m c (((cfg0.win 5).blk t).view.emb j)
  exact block_value (V m c main_v282) (V m c main_arg4) (V m c main_v283) (V m c main_arg6) (V m c main_v284)
    (iblk m c 0 t) (iblk m c 1 t) (iblk m c 2 t) (iblk m c 3 t) (iblk m c 4 t) j (((cfg0.win 5).blk t).view.emb j)
    (fun k => feat_block m c t (ix2 k (j 1)) (ix2 k ((((cfg0.win 5).blk t).view.emb j : S1x1048576.Idx) 1)) rfl (out_col t j))
    (w1_block m c t) (b1_block m c t) (w2_block m c t) (b2_block m c t)

/-- Every column of the row lies in the block of the point `column / 32768`, and every point writes back. -/
theorem cover (i : S1x1048576.Idx) :
    ∃ t : Fin cfg0.N, (cfg0.win 5).flush t = true ∧ i ∈ ((cfg0.win 5).blk t).view.set := by
  have hN : cfg0.N = 32 := N_0
  have hi0 : (i 0).val < 1 := (i 0).isLt
  have hi1 : (i 1).val < 1048576 := (i 1).isLt
  have ht : (i 1).val / 32768 < cfg0.N := by rw [hN]; omega
  obtain ⟨-, -, -, -, -, -, -, -, -, -, e0, e1⟩ := index_facts ⟨(i 1).val / 32768, ht⟩
  refine ⟨⟨(i 1).val / 32768, ht⟩, flush0_5 _, ?_⟩
  show i ∈ ((View.whole main_v285).slice (win0_5.rect ⟨(i 1).val / 32768, ht⟩)).set
  rw [View.set_slice_whole, Rect.mem_set_unit]
  intro a
  match a with
  | ⟨0, _⟩ =>
    show win0_5.index ⟨(i 1).val / 32768, ht⟩ (0 : Fin 2) * 1 ≤ (i 0).val
      ∧ (i 0).val < win0_5.index ⟨(i 1).val / 32768, ht⟩ (0 : Fin 2) * 1 + 1
    rw [e0]; omega
  | ⟨1, _⟩ =>
    show win0_5.index ⟨(i 1).val / 32768, ht⟩ (1 : Fin 2) * 32768 ≤ (i 1).val
      ∧ (i 1).val < win0_5.index ⟨(i 1).val / 32768, ht⟩ (1 : Fin 2) * 32768 + 32768
    rw [e1]
    show (i 1).val / 32768 * 32768 ≤ (i 1).val ∧ (i 1).val < (i 1).val / 32768 * 32768 + 32768
    omega

/-- THE KERNEL'S ARRAY after the run: the flat decoder's row of the arrays the region finds. -/
theorem final (c : Dev nD) :
    (dats (F := Ideal) m 0 c).arrAt 5 cfg0.N
      = Cert.Mlp.decodeFlat (V m c main_v282) (V m c main_arg4) (V m c main_v283) (V m c main_arg6) (V m c main_v284) :=
  (dats m 0 c).arrAt_eq_of_cover 5 (row m c) (fun t _ => flushed_eq m c t) cover

end Cert.KernelIdeal.ArrayValue

end
-- ==== Proof.SimTactic.lean ====
/-
  Crossing one stretch of host operations that the kernel program and the reference share.

  Both programs begin with the same feature sampling (two clamped linear interpolations along the line tables and one
  bilinear interpolation in the plane table): the same StableHLO operations, in the same order, on buffers with the same
  numbers, but each program over its OWN signature, so their buffer contents live in different (definitionally equal)
  types and no list of operations of one program is a list of the other. The comparison is therefore made on CONTENTS:
  if every buffer a stretch reads holds the same contents on both sides when the stretch starts, then every buffer it
  writes, and every buffer it leaves alone, holds the same contents on both sides when it ends — each operation is a
  function of its operands' contents only. `cross_stretch` proves one such equation: it computes the fold of the
  stretch on both sides down to the operations' pure functions applied to the contents at the start, replaces the
  kernel side's start contents by the reference side's (the hypotheses), and compares the two terms, which are then the
  same functions of the same arrays (a called function's typed references are casts between equal types: identities).
  The fold is computed in one rewriting pass that shares subterms; a two-operand concatenate is first given a name
  (`join2`) so that the pass can enter its operands.
-/
import proofs.«152604_j41824391528833_1_alg».proof.Proof.Gen.KernelIdeal.Launch
import proofs.«152604_j41824391528833_1_alg».proof.Proof.RefRun
import Idealize.ShloMosaic.Lib.Pipeline.Frame

namespace Cert.Sim

open Idealize.ShloMosaic Idealize.ShloMosaic.StableHlo

/-- A TensorCore reference of the kernel program as a device buffer. -/
abbrev kr (b : Ref Cert.KernelIdeal.sig .tc) : DevRef Cert.KernelIdeal.τ Cert.KernelIdeal.sig := Proc.devRef .tc b
/-- A TensorCore reference of the reference program as a device buffer. -/
abbrev rr (b : Ref Cert.ReferenceIdeal.sig .tc) : DevRef Cert.ReferenceIdeal.τ Cert.ReferenceIdeal.sig := Proc.devRef .tc b

/-- Two arrays joined along an axis (a `stablehlo.concatenate` of two operands), as a function of the two arrays: the
    operation's own spelling keeps the operands inside a list of (shape, array) pairs, where a rewriting pass cannot
    reach them; under this name they are plain arguments. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem join2_fold {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = join2 t a s₁ s₂ h x y := rfl

open Lean in
/-- `cross_stretch [lists] [hyps]`: the goal is one equation between a buffer's contents after the stretch on the two
    sides (or, with no hypotheses, that a stretch keeps a buffer); `lists` are the stretch's operation lists, `hyps`
    the equations between the contents at its start. -/
syntax "cross_stretch" "[" ident,* "]" "[" ident,* "]" : tactic
open Lean in
macro_rules
  | `(tactic| cross_stretch [$ls:ident,*] [$hs:ident,*]) => do
    let lls ← ls.getElems.mapM fun l => `(Lean.Parser.Tactic.simpLemma| $l:ident)
    let hhs ← hs.getElems.mapM fun h => `(Lean.Parser.Tactic.simpLemma| $h:ident)
    `(tactic| (
      (try simp only [← StableHlo.after_append])
      simp only [$lls,*, List.cons_append, List.nil_append]
      (simp (disch := decide) only [↓ join2_fold, after_cons, after_nil,
        nullary_result', unary_result', binary_result', ternary_result', quaternary_result', reshape_result', nary4_result', nary_result',
        unaryIndexed_result', binaryIndexed_result',
        nullary_result_ne', unary_result_ne', binary_result_ne', ternary_result_ne', quaternary_result_ne', reshape_result_ne',
        nary_result_ne', unaryIndexed_result_ne', binaryIndexed_result_ne']) <;>
      (try simp only [TRef.ofBuf, TRef.toBuf, cast_eq, $hhs,*]) <;> (try rfl)))

end Cert.Sim
-- ==== Proof.SimTable.lean ====
import proofs.«152604_j41824391528833_1_alg».proof.Proof.SimTactic

set_option maxRecDepth 8192

noncomputable section

namespace Cert.Sim

open Idealize.ShloMosaic Idealize.ShloMosaic.TcCoe Idealize.SL.Sem Idealize.ShloMosaic.StableHlo

variable {F : FTy → Type} [FloatOps F]

/-- At the start of stretch 0 (of 21; 21 = after the last): every buffer still to be read holds the same contents on both sides. -/
abbrev Live0 (UK : Valuation Cert.KernelIdeal.τ Cert.KernelIdeal.sig (Elt F)) (UR : Valuation Cert.ReferenceIdeal.τ Cert.ReferenceIdeal.sig (Elt F)) : Prop :=
  UK (kr Cert.KernelIdeal.main_arg0) = UR (rr Cert.ReferenceIdeal.main_arg0)
  ∧ UK (kr Cert.KernelIdeal.main_arg1) = UR (rr Cert.ReferenceIdeal.main_arg1)
  ∧ UK (kr Cert.KernelIdeal.main_arg2) = UR (rr Cert.ReferenceIdeal.main_arg2)
  ∧ UK (kr Cert.KernelIdeal.main_arg3) = UR (rr Cert.ReferenceIdeal.main_arg3)

/-- At the start of stretch 1 (of 21; 21 = after the last): every buffer still to be read holds the same contents on both sides. -/
abbrev Live1 (UK : Valuation Cert.KernelIdeal.τ Cert.KernelIdeal.sig (Elt F)) (UR : Valuation Cert.ReferenceIdeal.τ Cert.ReferenceIdeal.sig (Elt F)) : Prop :=
  UK (kr Cert.KernelIdeal.main_cst_8) = UR (rr Cert.ReferenceIdeal.main_cst_8)
  ∧ UK (kr Cert.KernelIdeal.main_v21) = UR (rr Cert.ReferenceIdeal.main_v21)
  ∧ UK (kr Cert.KernelIdeal.main_cst_9) = UR (rr Cert.ReferenceIdeal.main_cst_9)
  ∧ UK (kr Cert.KernelIdeal.main_arg1) = UR (rr Cert.ReferenceIdeal.main_arg1)
  ∧ UK (kr Cert.KernelIdeal.main_v15) = UR (rr Cert.ReferenceIdeal.main_v15)
  ∧ UK (kr Cert.KernelIdeal.main_arg2) = UR (rr Cert.ReferenceIdeal.main_arg2)
  ∧ UK (kr Cert.KernelIdeal.main_v7) = UR (rr Cert.ReferenceIdeal.main_v7)
  ∧ UK (kr Cert.KernelIdeal.main_arg3) = UR (rr Cert.ReferenceIdeal.main_arg3)

/-- At the start of stretch 2 (of 21; 21 = after the last): every buffer still to be read holds the same contents on both sides. -/
abbrev Live2 (UK : Valuation Cert.KernelIdeal.τ Cert.KernelIdeal.sig (Elt F)) (UR : Valuation Cert.ReferenceIdeal.τ Cert.ReferenceIdeal.sig (Elt F)) : Prop :=
  UK (kr Cert.KernelIdeal.main_v22) = UR (rr Cert.ReferenceIdeal.main_v22)
  ∧ UK (kr Cert.KernelIdeal.main_arg1) = UR (rr Cert.ReferenceIdeal.main_arg1)
  ∧ UK (kr Cert.KernelIdeal.main_v15) = UR (rr Cert.ReferenceIdeal.main_v15)
  ∧ UK (kr Cert.KernelIdeal.main_arg2) = UR (rr Cert.ReferenceIdeal.main_arg2)
  ∧ UK (kr Cert.KernelIdeal.main_v7) = UR (rr Cert.ReferenceIdeal.main_v7)
  ∧ UK (kr Cert.KernelIdeal.main_arg3) = UR (rr Cert.ReferenceIdeal.main_arg3)

/-- At the start of stretch 3 (of 21; 21 = after the last): every buffer still to be read holds the same contents on both sides. -/
abbrev Live3 (UK : Valuation Cert.KernelIdeal.τ Cert.KernelIdeal.sig (Elt F)) (UR : Valuation Cert.ReferenceIdeal.τ Cert.ReferenceIdeal.sig (Elt F)) : Prop :=
  UK (kr Cert.KernelIdeal.main_cst_19) = UR (rr Cert.ReferenceIdeal.main_cst_19)
  ∧ UK (kr Cert.KernelIdeal.main_v59) = UR (rr Cert.ReferenceIdeal.main_v59)
  ∧ UK (kr Cert.KernelIdeal.main_cst_20) = UR (rr Cert.ReferenceIdeal.main_cst_20)
  ∧ UK (kr Cert.KernelIdeal.main_arg2) = UR (rr Cert.ReferenceIdeal.main_arg2)
  ∧ UK (kr Cert.KernelIdeal.main_v7) = UR (rr Cert.ReferenceIdeal.main_v7)
  ∧ UK (kr Cert.KernelIdeal.main_v15) = UR (rr Cert.ReferenceIdeal.main_v15)
  ∧ UK (kr Cert.KernelIdeal.main_arg3) = UR (rr Cert.ReferenceIdeal.main_arg3)
  ∧ UK (kr Cert.KernelIdeal.main_v53) = UR (rr Cert.ReferenceIdeal.main_v53)

/-- At the start of stretch 4 (of 21; 21 = after the last): every buffer still to be read holds the same contents on both sides. -/
abbrev Live4 (UK : Valuation Cert.KernelIdeal.τ Cert.KernelIdeal.sig (Elt F)) (UR : Valuation Cert.ReferenceIdeal.τ Cert.ReferenceIdeal.sig (Elt F)) : Prop :=
  UK (kr Cert.KernelIdeal.main_v60) = UR (rr Cert.ReferenceIdeal.main_v60)
  ∧ UK (kr Cert.KernelIdeal.main_arg2) = UR (rr Cert.ReferenceIdeal.main_arg2)
  ∧ UK (kr Cert.KernelIdeal.main_v7) = UR (rr Cert.ReferenceIdeal.main_v7)
  ∧ UK (kr Cert.KernelIdeal.main_v15) = UR (rr Cert.ReferenceIdeal.main_v15)
  ∧ UK (kr Cert.KernelIdeal.main_arg3) = UR (rr Cert.ReferenceIdeal.main_arg3)
  ∧ UK (kr Cert.KernelIdeal.main_v53) = UR (rr Cert.ReferenceIdeal.main_v53)

/-- At the start of stretch 5 (of 21; 21 = after the last): every buffer still to be read holds the same contents on both sides. -/
abbrev Live5 (UK : Valuation Cert.KernelIdeal.τ Cert.KernelIdeal.sig (Elt F)) (UR : Valuation Cert.ReferenceIdeal.τ Cert.ReferenceIdeal.sig (Elt F)) : Prop :=
  UK (kr Cert.KernelIdeal.main_c_38) = UR (rr Cert.ReferenceIdeal.main_c_38)
  ∧ UK (kr Cert.KernelIdeal.main_v105) = UR (rr Cert.ReferenceIdeal.main_v105)
  ∧ UK (kr Cert.KernelIdeal.main_c_39) = UR (rr Cert.ReferenceIdeal.main_c_39)
  ∧ UK (kr Cert.KernelIdeal.main_v107) = UR (rr Cert.ReferenceIdeal.main_v107)
  ∧ UK (kr Cert.KernelIdeal.main_arg3) = UR (rr Cert.ReferenceIdeal.main_arg3)
  ∧ UK (kr Cert.KernelIdeal.main_v122) = UR (rr Cert.ReferenceIdeal.main_v122)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v53) = UR (rr Cert.ReferenceIdeal.main_v53)
  ∧ UK (kr Cert.KernelIdeal.main_v91) = UR (rr Cert.ReferenceIdeal.main_v91)

/-- At the start of stretch 6 (of 21; 21 = after the last): every buffer still to be read holds the same contents on both sides. -/
abbrev Live6 (UK : Valuation Cert.KernelIdeal.τ Cert.KernelIdeal.sig (Elt F)) (UR : Valuation Cert.ReferenceIdeal.τ Cert.ReferenceIdeal.sig (Elt F)) : Prop :=
  UK (kr Cert.KernelIdeal.main_v107) = UR (rr Cert.ReferenceIdeal.main_v107)
  ∧ UK (kr Cert.KernelIdeal.main_v123) = UR (rr Cert.ReferenceIdeal.main_v123)
  ∧ UK (kr Cert.KernelIdeal.main_arg3) = UR (rr Cert.ReferenceIdeal.main_arg3)
  ∧ UK (kr Cert.KernelIdeal.main_v122) = UR (rr Cert.ReferenceIdeal.main_v122)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 7 (of 21; 21 = after the last): every buffer still to be read holds the same contents on both sides. -/
abbrev Live7 (UK : Valuation Cert.KernelIdeal.τ Cert.KernelIdeal.sig (Elt F)) (UR : Valuation Cert.ReferenceIdeal.τ Cert.ReferenceIdeal.sig (Elt F)) : Prop :=
  UK (kr Cert.KernelIdeal.main_c_40) = UR (rr Cert.ReferenceIdeal.main_c_40)
  ∧ UK (kr Cert.KernelIdeal.main_v107) = UR (rr Cert.ReferenceIdeal.main_v107)
  ∧ UK (kr Cert.KernelIdeal.main_c_41) = UR (rr Cert.ReferenceIdeal.main_c_41)
  ∧ UK (kr Cert.KernelIdeal.main_v123) = UR (rr Cert.ReferenceIdeal.main_v123)
  ∧ UK (kr Cert.KernelIdeal.main_arg3) = UR (rr Cert.ReferenceIdeal.main_arg3)
  ∧ UK (kr Cert.KernelIdeal.main_v122) = UR (rr Cert.ReferenceIdeal.main_v122)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 8 (of 21; 21 = after the last): every buffer still to be read holds the same contents on both sides. -/
abbrev Live8 (UK : Valuation Cert.KernelIdeal.τ Cert.KernelIdeal.sig (Elt F)) (UR : Valuation Cert.ReferenceIdeal.τ Cert.ReferenceIdeal.sig (Elt F)) : Prop :=
  UK (kr Cert.KernelIdeal.main_v124) = UR (rr Cert.ReferenceIdeal.main_v124)
  ∧ UK (kr Cert.KernelIdeal.main_v123) = UR (rr Cert.ReferenceIdeal.main_v123)
  ∧ UK (kr Cert.KernelIdeal.main_arg3) = UR (rr Cert.ReferenceIdeal.main_arg3)
  ∧ UK (kr Cert.KernelIdeal.main_v122) = UR (rr Cert.ReferenceIdeal.main_v122)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v105) = UR (rr Cert.ReferenceIdeal.main_v105)
  ∧ UK (kr Cert.KernelIdeal.main_v107) = UR (rr Cert.ReferenceIdeal.main_v107)
  ∧ UK (kr Cert.KernelIdeal.main_v53) = UR (rr Cert.ReferenceIdeal.main_v53)
  ∧ UK (kr Cert.KernelIdeal.main_v91) = UR (rr Cert.ReferenceIdeal.main_v91)

/-- At the start of stretch 9 (of 21; 21 = after the last): every buffer still to be read holds the same contents on both sides. -/
abbrev Live9 (UK : Valuation Cert.KernelIdeal.τ Cert.KernelIdeal.sig (Elt F)) (UR : Valuation Cert.ReferenceIdeal.τ Cert.ReferenceIdeal.sig (Elt F)) : Prop :=
  UK (kr Cert.KernelIdeal.main_c_53) = UR (rr Cert.ReferenceIdeal.main_c_53)
  ∧ UK (kr Cert.KernelIdeal.main_v154) = UR (rr Cert.ReferenceIdeal.main_v154)
  ∧ UK (kr Cert.KernelIdeal.main_c_54) = UR (rr Cert.ReferenceIdeal.main_c_54)
  ∧ UK (kr Cert.KernelIdeal.main_v107) = UR (rr Cert.ReferenceIdeal.main_v107)
  ∧ UK (kr Cert.KernelIdeal.main_arg3) = UR (rr Cert.ReferenceIdeal.main_arg3)
  ∧ UK (kr Cert.KernelIdeal.main_v165) = UR (rr Cert.ReferenceIdeal.main_v165)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v152) = UR (rr Cert.ReferenceIdeal.main_v152)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 10 (of 21; 21 = after the last): every buffer still to be read holds the same contents on both sides. -/
abbrev Live10 (UK : Valuation Cert.KernelIdeal.τ Cert.KernelIdeal.sig (Elt F)) (UR : Valuation Cert.ReferenceIdeal.τ Cert.ReferenceIdeal.sig (Elt F)) : Prop :=
  UK (kr Cert.KernelIdeal.main_v107) = UR (rr Cert.ReferenceIdeal.main_v107)
  ∧ UK (kr Cert.KernelIdeal.main_v166) = UR (rr Cert.ReferenceIdeal.main_v166)
  ∧ UK (kr Cert.KernelIdeal.main_arg3) = UR (rr Cert.ReferenceIdeal.main_arg3)
  ∧ UK (kr Cert.KernelIdeal.main_v165) = UR (rr Cert.ReferenceIdeal.main_v165)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v152) = UR (rr Cert.ReferenceIdeal.main_v152)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 11 (of 21; 21 = after the last): every buffer still to be read holds the same contents on both sides. -/
abbrev Live11 (UK : Valuation Cert.KernelIdeal.τ Cert.KernelIdeal.sig (Elt F)) (UR : Valuation Cert.ReferenceIdeal.τ Cert.ReferenceIdeal.sig (Elt F)) : Prop :=
  UK (kr Cert.KernelIdeal.main_c_55) = UR (rr Cert.ReferenceIdeal.main_c_55)
  ∧ UK (kr Cert.KernelIdeal.main_v107) = UR (rr Cert.ReferenceIdeal.main_v107)
  ∧ UK (kr Cert.KernelIdeal.main_c_56) = UR (rr Cert.ReferenceIdeal.main_c_56)
  ∧ UK (kr Cert.KernelIdeal.main_v166) = UR (rr Cert.ReferenceIdeal.main_v166)
  ∧ UK (kr Cert.KernelIdeal.main_arg3) = UR (rr Cert.ReferenceIdeal.main_arg3)
  ∧ UK (kr Cert.KernelIdeal.main_v165) = UR (rr Cert.ReferenceIdeal.main_v165)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v152) = UR (rr Cert.ReferenceIdeal.main_v152)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 12 (of 21; 21 = after the last): every buffer still to be read holds the same contents on both sides. -/
abbrev Live12 (UK : Valuation Cert.KernelIdeal.τ Cert.KernelIdeal.sig (Elt F)) (UR : Valuation Cert.ReferenceIdeal.τ Cert.ReferenceIdeal.sig (Elt F)) : Prop :=
  UK (kr Cert.KernelIdeal.main_v167) = UR (rr Cert.ReferenceIdeal.main_v167)
  ∧ UK (kr Cert.KernelIdeal.main_v166) = UR (rr Cert.ReferenceIdeal.main_v166)
  ∧ UK (kr Cert.KernelIdeal.main_arg3) = UR (rr Cert.ReferenceIdeal.main_arg3)
  ∧ UK (kr Cert.KernelIdeal.main_v165) = UR (rr Cert.ReferenceIdeal.main_v165)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v152) = UR (rr Cert.ReferenceIdeal.main_v152)
  ∧ UK (kr Cert.KernelIdeal.main_v107) = UR (rr Cert.ReferenceIdeal.main_v107)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 13 (of 21; 21 = after the last): every buffer still to be read holds the same contents on both sides. -/
abbrev Live13 (UK : Valuation Cert.KernelIdeal.τ Cert.KernelIdeal.sig (Elt F)) (UR : Valuation Cert.ReferenceIdeal.τ Cert.ReferenceIdeal.sig (Elt F)) : Prop :=
  UK (kr Cert.KernelIdeal.main_c_67) = UR (rr Cert.ReferenceIdeal.main_c_67)
  ∧ UK (kr Cert.KernelIdeal.main_v105) = UR (rr Cert.ReferenceIdeal.main_v105)
  ∧ UK (kr Cert.KernelIdeal.main_c_68) = UR (rr Cert.ReferenceIdeal.main_c_68)
  ∧ UK (kr Cert.KernelIdeal.main_v196) = UR (rr Cert.ReferenceIdeal.main_v196)
  ∧ UK (kr Cert.KernelIdeal.main_arg3) = UR (rr Cert.ReferenceIdeal.main_arg3)
  ∧ UK (kr Cert.KernelIdeal.main_v207) = UR (rr Cert.ReferenceIdeal.main_v207)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v194) = UR (rr Cert.ReferenceIdeal.main_v194)
  ∧ UK (kr Cert.KernelIdeal.main_v107) = UR (rr Cert.ReferenceIdeal.main_v107)
  ∧ UK (kr Cert.KernelIdeal.main_v53) = UR (rr Cert.ReferenceIdeal.main_v53)
  ∧ UK (kr Cert.KernelIdeal.main_v91) = UR (rr Cert.ReferenceIdeal.main_v91)

/-- At the start of stretch 14 (of 21; 21 = after the last): every buffer still to be read holds the same contents on both sides. -/
abbrev Live14 (UK : Valuation Cert.KernelIdeal.τ Cert.KernelIdeal.sig (Elt F)) (UR : Valuation Cert.ReferenceIdeal.τ Cert.ReferenceIdeal.sig (Elt F)) : Prop :=
  UK (kr Cert.KernelIdeal.main_v196) = UR (rr Cert.ReferenceIdeal.main_v196)
  ∧ UK (kr Cert.KernelIdeal.main_v208) = UR (rr Cert.ReferenceIdeal.main_v208)
  ∧ UK (kr Cert.KernelIdeal.main_arg3) = UR (rr Cert.ReferenceIdeal.main_arg3)
  ∧ UK (kr Cert.KernelIdeal.main_v207) = UR (rr Cert.ReferenceIdeal.main_v207)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v194) = UR (rr Cert.ReferenceIdeal.main_v194)
  ∧ UK (kr Cert.KernelIdeal.main_v107) = UR (rr Cert.ReferenceIdeal.main_v107)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 15 (of 21; 21 = after the last): every buffer still to be read holds the same contents on both sides. -/
abbrev Live15 (UK : Valuation Cert.KernelIdeal.τ Cert.KernelIdeal.sig (Elt F)) (UR : Valuation Cert.ReferenceIdeal.τ Cert.ReferenceIdeal.sig (Elt F)) : Prop :=
  UK (kr Cert.KernelIdeal.main_c_69) = UR (rr Cert.ReferenceIdeal.main_c_69)
  ∧ UK (kr Cert.KernelIdeal.main_v196) = UR (rr Cert.ReferenceIdeal.main_v196)
  ∧ UK (kr Cert.KernelIdeal.main_c_70) = UR (rr Cert.ReferenceIdeal.main_c_70)
  ∧ UK (kr Cert.KernelIdeal.main_v208) = UR (rr Cert.ReferenceIdeal.main_v208)
  ∧ UK (kr Cert.KernelIdeal.main_arg3) = UR (rr Cert.ReferenceIdeal.main_arg3)
  ∧ UK (kr Cert.KernelIdeal.main_v207) = UR (rr Cert.ReferenceIdeal.main_v207)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v194) = UR (rr Cert.ReferenceIdeal.main_v194)
  ∧ UK (kr Cert.KernelIdeal.main_v107) = UR (rr Cert.ReferenceIdeal.main_v107)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 16 (of 21; 21 = after the last): every buffer still to be read holds the same contents on both sides. -/
abbrev Live16 (UK : Valuation Cert.KernelIdeal.τ Cert.KernelIdeal.sig (Elt F)) (UR : Valuation Cert.ReferenceIdeal.τ Cert.ReferenceIdeal.sig (Elt F)) : Prop :=
  UK (kr Cert.KernelIdeal.main_v209) = UR (rr Cert.ReferenceIdeal.main_v209)
  ∧ UK (kr Cert.KernelIdeal.main_v208) = UR (rr Cert.ReferenceIdeal.main_v208)
  ∧ UK (kr Cert.KernelIdeal.main_arg3) = UR (rr Cert.ReferenceIdeal.main_arg3)
  ∧ UK (kr Cert.KernelIdeal.main_v207) = UR (rr Cert.ReferenceIdeal.main_v207)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v194) = UR (rr Cert.ReferenceIdeal.main_v194)
  ∧ UK (kr Cert.KernelIdeal.main_v107) = UR (rr Cert.ReferenceIdeal.main_v107)
  ∧ UK (kr Cert.KernelIdeal.main_v105) = UR (rr Cert.ReferenceIdeal.main_v105)
  ∧ UK (kr Cert.KernelIdeal.main_v53) = UR (rr Cert.ReferenceIdeal.main_v53)
  ∧ UK (kr Cert.KernelIdeal.main_v91) = UR (rr Cert.ReferenceIdeal.main_v91)

/-- At the start of stretch 17 (of 21; 21 = after the last): every buffer still to be read holds the same contents on both sides. -/
abbrev Live17 (UK : Valuation Cert.KernelIdeal.τ Cert.KernelIdeal.sig (Elt F)) (UR : Valuation Cert.ReferenceIdeal.τ Cert.ReferenceIdeal.sig (Elt F)) : Prop :=
  UK (kr Cert.KernelIdeal.main_c_82) = UR (rr Cert.ReferenceIdeal.main_c_82)
  ∧ UK (kr Cert.KernelIdeal.main_v240) = UR (rr Cert.ReferenceIdeal.main_v240)
  ∧ UK (kr Cert.KernelIdeal.main_c_83) = UR (rr Cert.ReferenceIdeal.main_c_83)
  ∧ UK (kr Cert.KernelIdeal.main_v238) = UR (rr Cert.ReferenceIdeal.main_v238)
  ∧ UK (kr Cert.KernelIdeal.main_arg3) = UR (rr Cert.ReferenceIdeal.main_arg3)
  ∧ UK (kr Cert.KernelIdeal.main_v251) = UR (rr Cert.ReferenceIdeal.main_v251)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v236) = UR (rr Cert.ReferenceIdeal.main_v236)
  ∧ UK (kr Cert.KernelIdeal.main_v53) = UR (rr Cert.ReferenceIdeal.main_v53)
  ∧ UK (kr Cert.KernelIdeal.main_v91) = UR (rr Cert.ReferenceIdeal.main_v91)

/-- At the start of stretch 18 (of 21; 21 = after the last): every buffer still to be read holds the same contents on both sides. -/
abbrev Live18 (UK : Valuation Cert.KernelIdeal.τ Cert.KernelIdeal.sig (Elt F)) (UR : Valuation Cert.ReferenceIdeal.τ Cert.ReferenceIdeal.sig (Elt F)) : Prop :=
  UK (kr Cert.KernelIdeal.main_v238) = UR (rr Cert.ReferenceIdeal.main_v238)
  ∧ UK (kr Cert.KernelIdeal.main_v252) = UR (rr Cert.ReferenceIdeal.main_v252)
  ∧ UK (kr Cert.KernelIdeal.main_arg3) = UR (rr Cert.ReferenceIdeal.main_arg3)
  ∧ UK (kr Cert.KernelIdeal.main_v251) = UR (rr Cert.ReferenceIdeal.main_v251)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v236) = UR (rr Cert.ReferenceIdeal.main_v236)
  ∧ UK (kr Cert.KernelIdeal.main_v53) = UR (rr Cert.ReferenceIdeal.main_v53)
  ∧ UK (kr Cert.KernelIdeal.main_v91) = UR (rr Cert.ReferenceIdeal.main_v91)

/-- At the start of stretch 19 (of 21; 21 = after the last): every buffer still to be read holds the same contents on both sides. -/
abbrev Live19 (UK : Valuation Cert.KernelIdeal.τ Cert.KernelIdeal.sig (Elt F)) (UR : Valuation Cert.ReferenceIdeal.τ Cert.ReferenceIdeal.sig (Elt F)) : Prop :=
  UK (kr Cert.KernelIdeal.main_c_84) = UR (rr Cert.ReferenceIdeal.main_c_84)
  ∧ UK (kr Cert.KernelIdeal.main_v238) = UR (rr Cert.ReferenceIdeal.main_v238)
  ∧ UK (kr Cert.KernelIdeal.main_c_85) = UR (rr Cert.ReferenceIdeal.main_c_85)
  ∧ UK (kr Cert.KernelIdeal.main_v252) = UR (rr Cert.ReferenceIdeal.main_v252)
  ∧ UK (kr Cert.KernelIdeal.main_arg3) = UR (rr Cert.ReferenceIdeal.main_arg3)
  ∧ UK (kr Cert.KernelIdeal.main_v251) = UR (rr Cert.ReferenceIdeal.main_v251)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v236) = UR (rr Cert.ReferenceIdeal.main_v236)
  ∧ UK (kr Cert.KernelIdeal.main_v53) = UR (rr Cert.ReferenceIdeal.main_v53)
  ∧ UK (kr Cert.KernelIdeal.main_v91) = UR (rr Cert.ReferenceIdeal.main_v91)

/-- At the start of stretch 20 (of 21; 21 = after the last): every buffer still to be read holds the same contents on both sides. -/
abbrev Live20 (UK : Valuation Cert.KernelIdeal.τ Cert.KernelIdeal.sig (Elt F)) (UR : Valuation Cert.ReferenceIdeal.τ Cert.ReferenceIdeal.sig (Elt F)) : Prop :=
  UK (kr Cert.KernelIdeal.main_v253) = UR (rr Cert.ReferenceIdeal.main_v253)
  ∧ UK (kr Cert.KernelIdeal.main_v252) = UR (rr Cert.ReferenceIdeal.main_v252)
  ∧ UK (kr Cert.KernelIdeal.main_arg3) = UR (rr Cert.ReferenceIdeal.main_arg3)
  ∧ UK (kr Cert.KernelIdeal.main_v251) = UR (rr Cert.ReferenceIdeal.main_v251)
  ∧ UK (kr Cert.KernelIdeal.main_v111) = UR (rr Cert.ReferenceIdeal.main_v111)
  ∧ UK (kr Cert.KernelIdeal.main_v109) = UR (rr Cert.ReferenceIdeal.main_v109)
  ∧ UK (kr Cert.KernelIdeal.main_v236) = UR (rr Cert.ReferenceIdeal.main_v236)
  ∧ UK (kr Cert.KernelIdeal.main_v53) = UR (rr Cert.ReferenceIdeal.main_v53)
  ∧ UK (kr Cert.KernelIdeal.main_v91) = UR (rr Cert.ReferenceIdeal.main_v91)

/-- At the start of stretch 21 (of 21; 21 = after the last): every buffer still to be read holds the same contents on both sides. -/
abbrev Live21 (UK : Valuation Cert.KernelIdeal.τ Cert.KernelIdeal.sig (Elt F)) (UR : Valuation Cert.ReferenceIdeal.τ Cert.ReferenceIdeal.sig (Elt F)) : Prop :=
  UK (kr Cert.KernelIdeal.main_v280) = UR (rr Cert.ReferenceIdeal.main_v280)

set_option maxHeartbeats 4000000 in
/-- Stretch 0: the kernel program's `hostOps0` against the reference's operations 1 … 33. -/
theorem step0 (UK : Valuation Cert.KernelIdeal.τ Cert.KernelIdeal.sig (Elt F)) (UR : Valuation Cert.ReferenceIdeal.τ Cert.ReferenceIdeal.sig (Elt F)) (h : Live0 UK UR) :
    Live1 (after Cert.KernelIdeal.Gen.hostOps0 UK) (after Cert.ReferenceIdeal.RunP.p00 UR) := by
  obtain ⟨h0, h1, h2, h3⟩ := h
  refine ⟨?_, ?_, ?_, ?_, ?_, ?_, ?_, ?_⟩
  all_goals cross_stretch [Cert.KernelIdeal.Gen.hostOps0, Cert.ReferenceIdeal.RunP.p00] [h0, h1, h2, h3]

set_option maxHeartbeats 4000000 in
/-- Stretch 1: the kernel program's `hostOps0_1` against the reference's operations 34 … 39. -/
theorem step1 (UK : Valuation Cert.KernelIdeal.τ Cert.KernelIdeal.sig (Elt F)) (UR : Valuation Cert.ReferenceIdeal.τ Cert.ReferenceIdeal.sig (Elt F)) (h : Live1 UK UR) :
    Live2 (after Cert.KernelIdeal.Gen.hostOps0_1 UK) (after Cert.ReferenceIdeal.RunP.p01 UR) := by
  obtain ⟨h0, h1, h2, h3, h4, h5, h6, h7⟩ := h
  refine ⟨?_, ?_, ?_, ?_, ?_, ?_⟩
  all_goals cross_stretch [Cert.KernelIdeal.Gen.hostOps0_1, Cert.ReferenceIdeal.RunP.p01] [h0, h1, h2, h3, h4, h5, h6, h7]

set_option maxHeartbeats 4000000 in
/-- Stretch 2: the kernel program's `hostOps0_2` against the reference's operations 40 … 88. -/
theorem step2 (UK : Valuation Cert.KernelIdeal.τ Cert.KernelIdeal.sig (Elt F)) (UR : Valuation Cert.ReferenceIdeal.τ Cert.ReferenceIdeal.sig (Elt F)) (h : Live2 UK UR) :
    Live3 (after Cert.KernelIdeal.Gen.hostOps0_2 UK) (after Cert.ReferenceIdeal.RunP.p03 (after Cert.ReferenceIdeal.RunP.p02 UR)) := by
  obtain ⟨h0, h1, h2, h3, h4, h5⟩ := h
  refine ⟨?_, ?_, ?_, ?_, ?_, ?_, ?_, ?_⟩
  all_goals cross_stretch [Cert.KernelIdeal.Gen.hostOps0_2, Cert.ReferenceIdeal.RunP.p02, Cert.ReferenceIdeal.RunP.p03] [h0, h1, h2, h3, h4, h5]

set_option maxHeartbeats 4000000 in
/-- Stretch 3: the kernel program's `hostOps0_3` against the reference's operations 89 … 94. -/
theorem step3 (UK : Valuation Cert.KernelIdeal.τ Cert.KernelIdeal.sig (Elt F)) (UR : Valuation Cert.ReferenceIdeal.τ Cert.ReferenceIdeal.sig (Elt F)) (h : Live3 UK UR) :
    Live4 (after Cert.KernelIdeal.Gen.hostOps0_3 UK) (after Cert.ReferenceIdeal.RunP.p04 UR) := by
  obtain ⟨h0, h1, h2, h3, h4, h5, h6, h7⟩ := h
  refine ⟨?_, ?_, ?_, ?_, ?_, ?_⟩
  all_goals cross_stretch [Cert.KernelIdeal.Gen.hostOps0_3, Cert.ReferenceIdeal.RunP.p04] [h0, h1, h2, h3, h4, h5, h6, h7]

set_option maxHeartbeats 4000000 in
/-- Stretch 4: the kernel program's `hostOps0_4` against the reference's operations 95 … 175. -/
theorem step4 (UK : Valuation Cert.KernelIdeal.τ Cert.KernelIdeal.sig (Elt F)) (UR : Valuation Cert.ReferenceIdeal.τ Cert.ReferenceIdeal.sig (Elt F)) (h : Live4 UK UR) :
    Live5 (after Cert.KernelIdeal.Gen.hostOps0_4 UK) (after Cert.ReferenceIdeal.RunP.p06 (after Cert.ReferenceIdeal.RunP.p05 UR)) := by
  obtain ⟨h0, h1, h2, h3, h4, h5⟩ := h
  refine ⟨?_, ?_, ?_, ?_, ?_, ?_, ?_, ?_, ?_, ?_⟩
  all_goals cross_stretch [Cert.KernelIdeal.Gen.hostOps0_4, Cert.ReferenceIdeal.RunP.p05, Cert.ReferenceIdeal.RunP.p06] [h0, h1, h2, h3, h4, h5]

set_option maxHeartbeats 4000000 in
/-- Stretch 5: the kernel program's `hostOps0_5` against the reference's operations 176 … 181. -/
theorem step5 (UK : Valuation Cert.KernelIdeal.τ Cert.KernelIdeal.sig (Elt F)) (UR : Valuation Cert.ReferenceIdeal.τ Cert.ReferenceIdeal.sig (Elt F)) (h : Live5 UK UR) :
    Live6 (after Cert.KernelIdeal.Gen.hostOps0_5 UK) (after Cert.ReferenceIdeal.RunP.p07 UR) := by
  obtain ⟨h0, h1, h2, h3, h4, h5, h6, h7, h8, h9⟩ := h
  refine ⟨?_, ?_, ?_, ?_, ?_, ?_, ?_, ?_, ?_⟩
  all_goals cross_stretch [Cert.KernelIdeal.Gen.hostOps0_5, Cert.ReferenceIdeal.RunP.p07] [h0, h1, h2, h3, h4, h5, h6, h7, h8, h9]

set_option maxHeartbeats 4000000 in
/-- Stretch 6: the kernel program's `hostOps0_6` against the reference's operations 182 … 183. -/
theorem step6 (UK : Valuation Cert.KernelIdeal.τ Cert.KernelIdeal.sig (Elt F)) (UR : Valuation Cert.ReferenceIdeal.τ Cert.ReferenceIdeal.sig (Elt F)) (h : Live6 UK UR) :
    Live7 (after Cert.KernelIdeal.Gen.hostOps0_6 UK) (after Cert.ReferenceIdeal.RunP.p08 UR) := by
  obtain ⟨h0, h1, h2, h3, h4, h5, h6, h7, h8⟩ := h
  refine ⟨?_, ?_, ?_, ?_, ?_, ?_, ?_, ?_, ?_, ?_, ?_⟩
  all_goals cross_stretch [Cert.KernelIdeal.Gen.hostOps0_6, Cert.ReferenceIdeal.RunP.p08] [h0, h1, h2, h3, h4, h5, h6, h7, h8]

set_option maxHeartbeats 4000000 in
/-- Stretch 7: the kernel program's `hostOps0_7` against the reference's operations 184 … 189. -/
theorem step7 (UK : Valuation Cert.KernelIdeal.τ Cert.KernelIdeal.sig (Elt F)) (UR : Valuation Cert.ReferenceIdeal.τ Cert.ReferenceIdeal.sig (Elt F)) (h : Live7 UK UR) :
    Live8 (after Cert.KernelIdeal.Gen.hostOps0_7 UK) (after Cert.ReferenceIdeal.RunP.p09 UR) := by
  obtain ⟨h0, h1, h2, h3, h4, h5, h6, h7, h8, h9, h10⟩ := h
  refine ⟨?_, ?_, ?_, ?_, ?_, ?_, ?_, ?_, ?_, ?_⟩
  all_goals cross_stretch [Cert.KernelIdeal.Gen.hostOps0_7, Cert.ReferenceIdeal.RunP.p09] [h0, h1, h2, h3, h4, h5, h6, h7, h8, h9, h10]

set_option maxHeartbeats 4000000 in
/-- Stretch 8: the kernel program's `hostOps0_8` against the reference's operations 190 … 243. -/
theorem step8 (UK : Valuation Cert.KernelIdeal.τ Cert.KernelIdeal.sig (Elt F)) (UR : Valuation Cert.ReferenceIdeal.τ Cert.ReferenceIdeal.sig (Elt F)) (h : Live8 UK UR) :
    Live9 (after Cert.KernelIdeal.Gen.hostOps0_8 UK) (after Cert.ReferenceIdeal.RunP.p11 (after Cert.ReferenceIdeal.RunP.p10 UR)) := by
  obtain ⟨h0, h1, h2, h3, h4, h5, h6, h7, h8, h9⟩ := h
  refine ⟨?_, ?_, ?_, ?_, ?_, ?_, ?_, ?_, ?_, ?_, ?_, ?_⟩
  all_goals cross_stretch [Cert.KernelIdeal.Gen.hostOps0_8, Cert.ReferenceIdeal.RunP.p10, Cert.ReferenceIdeal.RunP.p11] [h0, h1, h2, h3, h4, h5, h6, h7, h8, h9]

set_option maxHeartbeats 4000000 in
/-- Stretch 9: the kernel program's `hostOps0_9` against the reference's operations 244 … 249. -/
theorem step9 (UK : Valuation Cert.KernelIdeal.τ Cert.KernelIdeal.sig (Elt F)) (UR : Valuation Cert.ReferenceIdeal.τ Cert.ReferenceIdeal.sig (Elt F)) (h : Live9 UK UR) :
    Live10 (after Cert.KernelIdeal.Gen.hostOps0_9 UK) (after Cert.ReferenceIdeal.RunP.p12 UR) := by
  obtain ⟨h0, h1, h2, h3, h4, h5, h6, h7, h8, h9, h10, h11⟩ := h
  refine ⟨?_, ?_, ?_, ?_, ?_, ?_, ?_, ?_, ?_, ?_⟩
  all_goals cross_stretch [Cert.KernelIdeal.Gen.hostOps0_9, Cert.ReferenceIdeal.RunP.p12] [h0, h1, h2, h3, h4, h5, h6, h7, h8, h9, h10, h11]

set_option maxHeartbeats 4000000 in
/-- Stretch 10: the kernel program's `hostOps0_10` against the reference's operations 250 … 251. -/
theorem step10 (UK : Valuation Cert.KernelIdeal.τ Cert.KernelIdeal.sig (Elt F)) (UR : Valuation Cert.ReferenceIdeal.τ Cert.ReferenceIdeal.sig (Elt F)) (h : Live10 UK UR) :
    Live11 (after Cert.KernelIdeal.Gen.hostOps0_10 UK) (after Cert.ReferenceIdeal.RunP.p13 UR) := by
  obtain ⟨h0, h1, h2, h3, h4, h5, h6, h7, h8, h9⟩ := h
  refine ⟨?_, ?_, ?_, ?_, ?_, ?_, ?_, ?_, ?_, ?_, ?_, ?_⟩
  all_goals cross_stretch [Cert.KernelIdeal.Gen.hostOps0_10, Cert.ReferenceIdeal.RunP.p13] [h0, h1, h2, h3, h4, h5, h6, h7, h8, h9]

set_option maxHeartbeats 4000000 in
/-- Stretch 11: the kernel program's `hostOps0_11` against the reference's operations 252 … 257. -/
theorem step11 (UK : Valuation Cert.KernelIdeal.τ Cert.KernelIdeal.sig (Elt F)) (UR : Valuation Cert.ReferenceIdeal.τ Cert.ReferenceIdeal.sig (Elt F)) (h : Live11 UK UR) :
    Live12 (after Cert.KernelIdeal.Gen.hostOps0_11 UK) (after Cert.ReferenceIdeal.RunP.p14 UR) := by
  obtain ⟨h0, h1, h2, h3, h4, h5, h6, h7, h8, h9, h10, h11⟩ := h
  refine ⟨?_, ?_, ?_, ?_, ?_, ?_, ?_, ?_, ?_, ?_, ?_⟩
  all_goals cross_stretch [Cert.KernelIdeal.Gen.hostOps0_11, Cert.ReferenceIdeal.RunP.p14] [h0, h1, h2, h3, h4, h5, h6, h7, h8, h9, h10, h11]

set_option maxHeartbeats 4000000 in
/-- Stretch 12: the kernel program's `hostOps0_12` against the reference's operations 258 … 309. -/
theorem step12 (UK : Valuation Cert.KernelIdeal.τ Cert.KernelIdeal.sig (Elt F)) (UR : Valuation Cert.ReferenceIdeal.τ Cert.ReferenceIdeal.sig (Elt F)) (h : Live12 UK UR) :
    Live13 (after Cert.KernelIdeal.Gen.hostOps0_12 UK) (after Cert.ReferenceIdeal.RunP.p16 (after Cert.ReferenceIdeal.RunP.p15 UR)) := by
  obtain ⟨h0, h1, h2, h3, h4, h5, h6, h7, h8, h9, h10⟩ := h
  refine ⟨?_, ?_, ?_, ?_, ?_, ?_, ?_, ?_, ?_, ?_, ?_, ?_⟩
  all_goals cross_stretch [Cert.KernelIdeal.Gen.hostOps0_12, Cert.ReferenceIdeal.RunP.p15, Cert.ReferenceIdeal.RunP.p16] [h0, h1, h2, h3, h4, h5, h6, h7, h8, h9, h10]

set_option maxHeartbeats 4000000 in
/-- Stretch 13: the kernel program's `hostOps0_13` against the reference's operations 310 … 315. -/
theorem step13 (UK : Valuation Cert.KernelIdeal.τ Cert.KernelIdeal.sig (Elt F)) (UR : Valuation Cert.ReferenceIdeal.τ Cert.ReferenceIdeal.sig (Elt F)) (h : Live13 UK UR) :
    Live14 (after Cert.KernelIdeal.Gen.hostOps0_13 UK) (after Cert.ReferenceIdeal.RunP.p17 UR) := by
  obtain ⟨h0, h1, h2, h3, h4, h5, h6, h7, h8, h9, h10, h11⟩ := h
  refine ⟨?_, ?_, ?_, ?_, ?_, ?_, ?_, ?_, ?_, ?_, ?_⟩
  all_goals cross_stretch [Cert.KernelIdeal.Gen.hostOps0_13, Cert.ReferenceIdeal.RunP.p17] [h0, h1, h2, h3, h4, h5, h6, h7, h8, h9, h10, h11]

set_option maxHeartbeats 4000000 in
/-- Stretch 14: the kernel program's `hostOps0_14` against the reference's operations 316 … 317. -/
theorem step14 (UK : Valuation Cert.KernelIdeal.τ Cert.KernelIdeal.sig (Elt F)) (UR : Valuation Cert.ReferenceIdeal.τ Cert.ReferenceIdeal.sig (Elt F)) (h : Live14 UK UR) :
    Live15 (after Cert.KernelIdeal.Gen.hostOps0_14 UK) (after Cert.ReferenceIdeal.RunP.p18 UR) := by
  obtain ⟨h0, h1, h2, h3, h4, h5, h6, h7, h8, h9, h10⟩ := h
  refine ⟨?_, ?_, ?_, ?_, ?_, ?_, ?_, ?_, ?_, ?_, ?_, ?_, ?_⟩
  all_goals cross_stretch [Cert.KernelIdeal.Gen.hostOps0_14, Cert.ReferenceIdeal.RunP.p18] [h0, h1, h2, h3, h4, h5, h6, h7, h8, h9, h10]

set_option maxHeartbeats 4000000 in
/-- Stretch 15: the kernel program's `hostOps0_15` against the reference's operations 318 … 323. -/
theorem step15 (UK : Valuation Cert.KernelIdeal.τ Cert.KernelIdeal.sig (Elt F)) (UR : Valuation Cert.ReferenceIdeal.τ Cert.ReferenceIdeal.sig (Elt F)) (h : Live15 UK UR) :
    Live16 (after Cert.KernelIdeal.Gen.hostOps0_15 UK) (after Cert.ReferenceIdeal.RunP.p19 UR) := by
  obtain ⟨h0, h1, h2, h3, h4, h5, h6, h7, h8, h9, h10, h11, h12⟩ := h
  refine ⟨?_, ?_, ?_, ?_, ?_, ?_, ?_, ?_, ?_, ?_, ?_⟩
  all_goals cross_stretch [Cert.KernelIdeal.Gen.hostOps0_15, Cert.ReferenceIdeal.RunP.p19] [h0, h1, h2, h3, h4, h5, h6, h7, h8, h9, h10, h11, h12]

set_option maxHeartbeats 4000000 in
/-- Stretch 16: the kernel program's `hostOps0_16` against the reference's operations 324 … 378. -/
theorem step16 (UK : Valuation Cert.KernelIdeal.τ Cert.KernelIdeal.sig (Elt F)) (UR : Valuation Cert.ReferenceIdeal.τ Cert.ReferenceIdeal.sig (Elt F)) (h : Live16 UK UR) :
    Live17 (after Cert.KernelIdeal.Gen.hostOps0_16 UK) (after Cert.ReferenceIdeal.RunP.p21 (after Cert.ReferenceIdeal.RunP.p20 UR)) := by
  obtain ⟨h0, h1, h2, h3, h4, h5, h6, h7, h8, h9, h10⟩ := h
  refine ⟨?_, ?_, ?_, ?_, ?_, ?_, ?_, ?_, ?_, ?_, ?_⟩
  all_goals cross_stretch [Cert.KernelIdeal.Gen.hostOps0_16, Cert.ReferenceIdeal.RunP.p20, Cert.ReferenceIdeal.RunP.p21] [h0, h1, h2, h3, h4, h5, h6, h7, h8, h9, h10]

set_option maxHeartbeats 4000000 in
/-- Stretch 17: the kernel program's `hostOps0_17` against the reference's operations 379 … 384. -/
theorem step17 (UK : Valuation Cert.KernelIdeal.τ Cert.KernelIdeal.sig (Elt F)) (UR : Valuation Cert.ReferenceIdeal.τ Cert.ReferenceIdeal.sig (Elt F)) (h : Live17 UK UR) :
    Live18 (after Cert.KernelIdeal.Gen.hostOps0_17 UK) (after Cert.ReferenceIdeal.RunP.p22 UR) := by
  obtain ⟨h0, h1, h2, h3, h4, h5, h6, h7, h8, h9, h10⟩ := h
  refine ⟨?_, ?_, ?_, ?_, ?_, ?_, ?_, ?_, ?_⟩
  all_goals cross_stretch [Cert.KernelIdeal.Gen.hostOps0_17, Cert.ReferenceIdeal.RunP.p22] [h0, h1, h2, h3, h4, h5, h6, h7, h8, h9, h10]

set_option maxHeartbeats 4000000 in
/-- Stretch 18: the kernel program's `hostOps0_18` against the reference's operations 385 … 386. -/
theorem step18 (UK : Valuation Cert.KernelIdeal.τ Cert.KernelIdeal.sig (Elt F)) (UR : Valuation Cert.ReferenceIdeal.τ Cert.ReferenceIdeal.sig (Elt F)) (h : Live18 UK UR) :
    Live19 (after Cert.KernelIdeal.Gen.hostOps0_18 UK) (after Cert.ReferenceIdeal.RunP.p23 UR) := by
  obtain ⟨h0, h1, h2, h3, h4, h5, h6, h7, h8⟩ := h
  refine ⟨?_, ?_, ?_, ?_, ?_, ?_, ?_, ?_, ?_, ?_, ?_⟩
  all_goals cross_stretch [Cert.KernelIdeal.Gen.hostOps0_18, Cert.ReferenceIdeal.RunP.p23] [h0, h1, h2, h3, h4, h5, h6, h7, h8]

set_option maxHeartbeats 4000000 in
/-- Stretch 19: the kernel program's `hostOps0_19` against the reference's operations 387 … 392. -/
theorem step19 (UK : Valuation Cert.KernelIdeal.τ Cert.KernelIdeal.sig (Elt F)) (UR : Valuation Cert.ReferenceIdeal.τ Cert.ReferenceIdeal.sig (Elt F)) (h : Live19 UK UR) :
    Live20 (after Cert.KernelIdeal.Gen.hostOps0_19 UK) (after Cert.ReferenceIdeal.RunP.p24 UR) := by
  obtain ⟨h0, h1, h2, h3, h4, h5, h6, h7, h8, h9, h10⟩ := h
  refine ⟨?_, ?_, ?_, ?_, ?_, ?_, ?_, ?_, ?_⟩
  all_goals cross_stretch [Cert.KernelIdeal.Gen.hostOps0_19, Cert.ReferenceIdeal.RunP.p24] [h0, h1, h2, h3, h4, h5, h6, h7, h8, h9, h10]

set_option maxHeartbeats 4000000 in
/-- Stretch 20: the kernel program's `hostOps0_20` against the reference's operations 393 … 423. -/
theorem step20 (UK : Valuation Cert.KernelIdeal.τ Cert.KernelIdeal.sig (Elt F)) (UR : Valuation Cert.ReferenceIdeal.τ Cert.ReferenceIdeal.sig (Elt F)) (h : Live20 UK UR) :
    Live21 (after Cert.KernelIdeal.Gen.hostOps0_20 UK) (after Cert.ReferenceIdeal.RunP.p26 (after Cert.ReferenceIdeal.RunP.p25 UR)) := by
  obtain ⟨h0, h1, h2, h3, h4, h5, h6, h7, h8⟩ := h
  show _ = _
  all_goals cross_stretch [Cert.KernelIdeal.Gen.hostOps0_20, Cert.ReferenceIdeal.RunP.p25, Cert.ReferenceIdeal.RunP.p26] [h0, h1, h2, h3, h4, h5, h6, h7, h8]

set_option maxHeartbeats 4000000 in
/-- The reference's operations 1 … 33 write none of @main's arguments. -/
theorem keep_p00 (U : Valuation Cert.ReferenceIdeal.τ Cert.ReferenceIdeal.sig (Elt F)) :
    after Cert.ReferenceIdeal.RunP.p00 U (rr Cert.ReferenceIdeal.main_arg0) = U (rr Cert.ReferenceIdeal.main_arg0)
    ∧ after Cert.ReferenceIdeal.RunP.p00 U (rr Cert.ReferenceIdeal.main_arg1) = U (rr Cert.ReferenceIdeal.main_arg1)
    ∧ after Cert.ReferenceIdeal.RunP.p00 U (rr Cert.ReferenceIdeal.main_arg2) = U (rr Cert.ReferenceIdeal.main_arg2)
    ∧ after Cert.ReferenceIdeal.RunP.p00 U (rr Cert.ReferenceIdeal.main_arg3) = U (rr Cert.ReferenceIdeal.main_arg3)
    ∧ after Cert.ReferenceIdeal.RunP.p00 U (rr Cert.ReferenceIdeal.main_arg4) = U (rr Cert.ReferenceIdeal.main_arg4)
    ∧ after Cert.ReferenceIdeal.RunP.p00 U (rr Cert.ReferenceIdeal.main_arg5) = U (rr Cert.ReferenceIdeal.main_arg5)
    ∧ after Cert.ReferenceIdeal.RunP.p00 U (rr Cert.ReferenceIdeal.main_arg6) = U (rr Cert.ReferenceIdeal.main_arg6)
    ∧ after Cert.ReferenceIdeal.RunP.p00 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p00] []

set_option maxHeartbeats 4000000 in
/-- The reference's operations 34 … 39 write none of @main's arguments. -/
theorem keep_p01 (U : Valuation Cert.ReferenceIdeal.τ Cert.ReferenceIdeal.sig (Elt F)) :
    after Cert.ReferenceIdeal.RunP.p01 U (rr Cert.ReferenceIdeal.main_arg0) = U (rr Cert.ReferenceIdeal.main_arg0)
    ∧ after Cert.ReferenceIdeal.RunP.p01 U (rr Cert.ReferenceIdeal.main_arg1) = U (rr Cert.ReferenceIdeal.main_arg1)
    ∧ after Cert.ReferenceIdeal.RunP.p01 U (rr Cert.ReferenceIdeal.main_arg2) = U (rr Cert.ReferenceIdeal.main_arg2)
    ∧ after Cert.ReferenceIdeal.RunP.p01 U (rr Cert.ReferenceIdeal.main_arg3) = U (rr Cert.ReferenceIdeal.main_arg3)
    ∧ after Cert.ReferenceIdeal.RunP.p01 U (rr Cert.ReferenceIdeal.main_arg4) = U (rr Cert.ReferenceIdeal.main_arg4)
    ∧ after Cert.ReferenceIdeal.RunP.p01 U (rr Cert.ReferenceIdeal.main_arg5) = U (rr Cert.ReferenceIdeal.main_arg5)
    ∧ after Cert.ReferenceIdeal.RunP.p01 U (rr Cert.ReferenceIdeal.main_arg6) = U (rr Cert.ReferenceIdeal.main_arg6)
    ∧ after Cert.ReferenceIdeal.RunP.p01 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p01] []

set_option maxHeartbeats 4000000 in
/-- The reference's operations 40 … 65 write none of @main's arguments. -/
theorem keep_p02 (U : Valuation Cert.ReferenceIdeal.τ Cert.ReferenceIdeal.sig (Elt F)) :
    after Cert.ReferenceIdeal.RunP.p02 U (rr Cert.ReferenceIdeal.main_arg0) = U (rr Cert.ReferenceIdeal.main_arg0)
    ∧ after Cert.ReferenceIdeal.RunP.p02 U (rr Cert.ReferenceIdeal.main_arg1) = U (rr Cert.ReferenceIdeal.main_arg1)
    ∧ after Cert.ReferenceIdeal.RunP.p02 U (rr Cert.ReferenceIdeal.main_arg2) = U (rr Cert.ReferenceIdeal.main_arg2)
    ∧ after Cert.ReferenceIdeal.RunP.p02 U (rr Cert.ReferenceIdeal.main_arg3) = U (rr Cert.ReferenceIdeal.main_arg3)
    ∧ after Cert.ReferenceIdeal.RunP.p02 U (rr Cert.ReferenceIdeal.main_arg4) = U (rr Cert.ReferenceIdeal.main_arg4)
    ∧ after Cert.ReferenceIdeal.RunP.p02 U (rr Cert.ReferenceIdeal.main_arg5) = U (rr Cert.ReferenceIdeal.main_arg5)
    ∧ after Cert.ReferenceIdeal.RunP.p02 U (rr Cert.ReferenceIdeal.main_arg6) = U (rr Cert.ReferenceIdeal.main_arg6)
    ∧ after Cert.ReferenceIdeal.RunP.p02 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p02] []

set_option maxHeartbeats 4000000 in
/-- The reference's operations 66 … 88 write none of @main's arguments. -/
theorem keep_p03 (U : Valuation Cert.ReferenceIdeal.τ Cert.ReferenceIdeal.sig (Elt F)) :
    after Cert.ReferenceIdeal.RunP.p03 U (rr Cert.ReferenceIdeal.main_arg0) = U (rr Cert.ReferenceIdeal.main_arg0)
    ∧ after Cert.ReferenceIdeal.RunP.p03 U (rr Cert.ReferenceIdeal.main_arg1) = U (rr Cert.ReferenceIdeal.main_arg1)
    ∧ after Cert.ReferenceIdeal.RunP.p03 U (rr Cert.ReferenceIdeal.main_arg2) = U (rr Cert.ReferenceIdeal.main_arg2)
    ∧ after Cert.ReferenceIdeal.RunP.p03 U (rr Cert.ReferenceIdeal.main_arg3) = U (rr Cert.ReferenceIdeal.main_arg3)
    ∧ after Cert.ReferenceIdeal.RunP.p03 U (rr Cert.ReferenceIdeal.main_arg4) = U (rr Cert.ReferenceIdeal.main_arg4)
    ∧ after Cert.ReferenceIdeal.RunP.p03 U (rr Cert.ReferenceIdeal.main_arg5) = U (rr Cert.ReferenceIdeal.main_arg5)
    ∧ after Cert.ReferenceIdeal.RunP.p03 U (rr Cert.ReferenceIdeal.main_arg6) = U (rr Cert.ReferenceIdeal.main_arg6)
    ∧ after Cert.ReferenceIdeal.RunP.p03 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p03] []

set_option maxHeartbeats 4000000 in
/-- The reference's operations 89 … 94 write none of @main's arguments. -/
theorem keep_p04 (U : Valuation Cert.ReferenceIdeal.τ Cert.ReferenceIdeal.sig (Elt F)) :
    after Cert.ReferenceIdeal.RunP.p04 U (rr Cert.ReferenceIdeal.main_arg0) = U (rr Cert.ReferenceIdeal.main_arg0)
    ∧ after Cert.ReferenceIdeal.RunP.p04 U (rr Cert.ReferenceIdeal.main_arg1) = U (rr Cert.ReferenceIdeal.main_arg1)
    ∧ after Cert.ReferenceIdeal.RunP.p04 U (rr Cert.ReferenceIdeal.main_arg2) = U (rr Cert.ReferenceIdeal.main_arg2)
    ∧ after Cert.ReferenceIdeal.RunP.p04 U (rr Cert.ReferenceIdeal.main_arg3) = U (rr Cert.ReferenceIdeal.main_arg3)
    ∧ after Cert.ReferenceIdeal.RunP.p04 U (rr Cert.ReferenceIdeal.main_arg4) = U (rr Cert.ReferenceIdeal.main_arg4)
    ∧ after Cert.ReferenceIdeal.RunP.p04 U (rr Cert.ReferenceIdeal.main_arg5) = U (rr Cert.ReferenceIdeal.main_arg5)
    ∧ after Cert.ReferenceIdeal.RunP.p04 U (rr Cert.ReferenceIdeal.main_arg6) = U (rr Cert.ReferenceIdeal.main_arg6)
    ∧ after Cert.ReferenceIdeal.RunP.p04 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p04] []

set_option maxHeartbeats 4000000 in
/-- The reference's operations 95 … 130 write none of @main's arguments. -/
theorem keep_p05 (U : Valuation Cert.ReferenceIdeal.τ Cert.ReferenceIdeal.sig (Elt F)) :
    after Cert.ReferenceIdeal.RunP.p05 U (rr Cert.ReferenceIdeal.main_arg0) = U (rr Cert.ReferenceIdeal.main_arg0)
    ∧ after Cert.ReferenceIdeal.RunP.p05 U (rr Cert.ReferenceIdeal.main_arg1) = U (rr Cert.ReferenceIdeal.main_arg1)
    ∧ after Cert.ReferenceIdeal.RunP.p05 U (rr Cert.ReferenceIdeal.main_arg2) = U (rr Cert.ReferenceIdeal.main_arg2)
    ∧ after Cert.ReferenceIdeal.RunP.p05 U (rr Cert.ReferenceIdeal.main_arg3) = U (rr Cert.ReferenceIdeal.main_arg3)
    ∧ after Cert.ReferenceIdeal.RunP.p05 U (rr Cert.ReferenceIdeal.main_arg4) = U (rr Cert.ReferenceIdeal.main_arg4)
    ∧ after Cert.ReferenceIdeal.RunP.p05 U (rr Cert.ReferenceIdeal.main_arg5) = U (rr Cert.ReferenceIdeal.main_arg5)
    ∧ after Cert.ReferenceIdeal.RunP.p05 U (rr Cert.ReferenceIdeal.main_arg6) = U (rr Cert.ReferenceIdeal.main_arg6)
    ∧ after Cert.ReferenceIdeal.RunP.p05 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p05] []

set_option maxHeartbeats 4000000 in
/-- The reference's operations 131 … 175 write none of @main's arguments. -/
theorem keep_p06 (U : Valuation Cert.ReferenceIdeal.τ Cert.ReferenceIdeal.sig (Elt F)) :
    after Cert.ReferenceIdeal.RunP.p06 U (rr Cert.ReferenceIdeal.main_arg0) = U (rr Cert.ReferenceIdeal.main_arg0)
    ∧ after Cert.ReferenceIdeal.RunP.p06 U (rr Cert.ReferenceIdeal.main_arg1) = U (rr Cert.ReferenceIdeal.main_arg1)
    ∧ after Cert.ReferenceIdeal.RunP.p06 U (rr Cert.ReferenceIdeal.main_arg2) = U (rr Cert.ReferenceIdeal.main_arg2)
    ∧ after Cert.ReferenceIdeal.RunP.p06 U (rr Cert.ReferenceIdeal.main_arg3) = U (rr Cert.ReferenceIdeal.main_arg3)
    ∧ after Cert.ReferenceIdeal.RunP.p06 U (rr Cert.ReferenceIdeal.main_arg4) = U (rr Cert.ReferenceIdeal.main_arg4)
    ∧ after Cert.ReferenceIdeal.RunP.p06 U (rr Cert.ReferenceIdeal.main_arg5) = U (rr Cert.ReferenceIdeal.main_arg5)
    ∧ after Cert.ReferenceIdeal.RunP.p06 U (rr Cert.ReferenceIdeal.main_arg6) = U (rr Cert.ReferenceIdeal.main_arg6)
    ∧ after Cert.ReferenceIdeal.RunP.p06 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p06] []

set_option maxHeartbeats 4000000 in
/-- The reference's operations 176 … 181 write none of @main's arguments. -/
theorem keep_p07 (U : Valuation Cert.ReferenceIdeal.τ Cert.ReferenceIdeal.sig (Elt F)) :
    after Cert.ReferenceIdeal.RunP.p07 U (rr Cert.ReferenceIdeal.main_arg0) = U (rr Cert.ReferenceIdeal.main_arg0)
    ∧ after Cert.ReferenceIdeal.RunP.p07 U (rr Cert.ReferenceIdeal.main_arg1) = U (rr Cert.ReferenceIdeal.main_arg1)
    ∧ after Cert.ReferenceIdeal.RunP.p07 U (rr Cert.ReferenceIdeal.main_arg2) = U (rr Cert.ReferenceIdeal.main_arg2)
    ∧ after Cert.ReferenceIdeal.RunP.p07 U (rr Cert.ReferenceIdeal.main_arg3) = U (rr Cert.ReferenceIdeal.main_arg3)
    ∧ after Cert.ReferenceIdeal.RunP.p07 U (rr Cert.ReferenceIdeal.main_arg4) = U (rr Cert.ReferenceIdeal.main_arg4)
    ∧ after Cert.ReferenceIdeal.RunP.p07 U (rr Cert.ReferenceIdeal.main_arg5) = U (rr Cert.ReferenceIdeal.main_arg5)
    ∧ after Cert.ReferenceIdeal.RunP.p07 U (rr Cert.ReferenceIdeal.main_arg6) = U (rr Cert.ReferenceIdeal.main_arg6)
    ∧ after Cert.ReferenceIdeal.RunP.p07 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p07] []

set_option maxHeartbeats 4000000 in
/-- The reference's operations 182 … 183 write none of @main's arguments. -/
theorem keep_p08 (U : Valuation Cert.ReferenceIdeal.τ Cert.ReferenceIdeal.sig (Elt F)) :
    after Cert.ReferenceIdeal.RunP.p08 U (rr Cert.ReferenceIdeal.main_arg0) = U (rr Cert.ReferenceIdeal.main_arg0)
    ∧ after Cert.ReferenceIdeal.RunP.p08 U (rr Cert.ReferenceIdeal.main_arg1) = U (rr Cert.ReferenceIdeal.main_arg1)
    ∧ after Cert.ReferenceIdeal.RunP.p08 U (rr Cert.ReferenceIdeal.main_arg2) = U (rr Cert.ReferenceIdeal.main_arg2)
    ∧ after Cert.ReferenceIdeal.RunP.p08 U (rr Cert.ReferenceIdeal.main_arg3) = U (rr Cert.ReferenceIdeal.main_arg3)
    ∧ after Cert.ReferenceIdeal.RunP.p08 U (rr Cert.ReferenceIdeal.main_arg4) = U (rr Cert.ReferenceIdeal.main_arg4)
    ∧ after Cert.ReferenceIdeal.RunP.p08 U (rr Cert.ReferenceIdeal.main_arg5) = U (rr Cert.ReferenceIdeal.main_arg5)
    ∧ after Cert.ReferenceIdeal.RunP.p08 U (rr Cert.ReferenceIdeal.main_arg6) = U (rr Cert.ReferenceIdeal.main_arg6)
    ∧ after Cert.ReferenceIdeal.RunP.p08 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p08] []

set_option maxHeartbeats 4000000 in
/-- The reference's operations 184 … 189 write none of @main's arguments. -/
theorem keep_p09 (U : Valuation Cert.ReferenceIdeal.τ Cert.ReferenceIdeal.sig (Elt F)) :
    after Cert.ReferenceIdeal.RunP.p09 U (rr Cert.ReferenceIdeal.main_arg0) = U (rr Cert.ReferenceIdeal.main_arg0)
    ∧ after Cert.ReferenceIdeal.RunP.p09 U (rr Cert.ReferenceIdeal.main_arg1) = U (rr Cert.ReferenceIdeal.main_arg1)
    ∧ after Cert.ReferenceIdeal.RunP.p09 U (rr Cert.ReferenceIdeal.main_arg2) = U (rr Cert.ReferenceIdeal.main_arg2)
    ∧ after Cert.ReferenceIdeal.RunP.p09 U (rr Cert.ReferenceIdeal.main_arg3) = U (rr Cert.ReferenceIdeal.main_arg3)
    ∧ after Cert.ReferenceIdeal.RunP.p09 U (rr Cert.ReferenceIdeal.main_arg4) = U (rr Cert.ReferenceIdeal.main_arg4)
    ∧ after Cert.ReferenceIdeal.RunP.p09 U (rr Cert.ReferenceIdeal.main_arg5) = U (rr Cert.ReferenceIdeal.main_arg5)
    ∧ after Cert.ReferenceIdeal.RunP.p09 U (rr Cert.ReferenceIdeal.main_arg6) = U (rr Cert.ReferenceIdeal.main_arg6)
    ∧ after Cert.ReferenceIdeal.RunP.p09 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p09] []

set_option maxHeartbeats 4000000 in
/-- The reference's operations 190 … 200 write none of @main's arguments. -/
theorem keep_p10 (U : Valuation Cert.ReferenceIdeal.τ Cert.ReferenceIdeal.sig (Elt F)) :
    after Cert.ReferenceIdeal.RunP.p10 U (rr Cert.ReferenceIdeal.main_arg0) = U (rr Cert.ReferenceIdeal.main_arg0)
    ∧ after Cert.ReferenceIdeal.RunP.p10 U (rr Cert.ReferenceIdeal.main_arg1) = U (rr Cert.ReferenceIdeal.main_arg1)
    ∧ after Cert.ReferenceIdeal.RunP.p10 U (rr Cert.ReferenceIdeal.main_arg2) = U (rr Cert.ReferenceIdeal.main_arg2)
    ∧ after Cert.ReferenceIdeal.RunP.p10 U (rr Cert.ReferenceIdeal.main_arg3) = U (rr Cert.ReferenceIdeal.main_arg3)
    ∧ after Cert.ReferenceIdeal.RunP.p10 U (rr Cert.ReferenceIdeal.main_arg4) = U (rr Cert.ReferenceIdeal.main_arg4)
    ∧ after Cert.ReferenceIdeal.RunP.p10 U (rr Cert.ReferenceIdeal.main_arg5) = U (rr Cert.ReferenceIdeal.main_arg5)
    ∧ after Cert.ReferenceIdeal.RunP.p10 U (rr Cert.ReferenceIdeal.main_arg6) = U (rr Cert.ReferenceIdeal.main_arg6)
    ∧ after Cert.ReferenceIdeal.RunP.p10 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p10] []

set_option maxHeartbeats 4000000 in
/-- The reference's operations 201 … 243 write none of @main's arguments. -/
theorem keep_p11 (U : Valuation Cert.ReferenceIdeal.τ Cert.ReferenceIdeal.sig (Elt F)) :
    after Cert.ReferenceIdeal.RunP.p11 U (rr Cert.ReferenceIdeal.main_arg0) = U (rr Cert.ReferenceIdeal.main_arg0)
    ∧ after Cert.ReferenceIdeal.RunP.p11 U (rr Cert.ReferenceIdeal.main_arg1) = U (rr Cert.ReferenceIdeal.main_arg1)
    ∧ after Cert.ReferenceIdeal.RunP.p11 U (rr Cert.ReferenceIdeal.main_arg2) = U (rr Cert.ReferenceIdeal.main_arg2)
    ∧ after Cert.ReferenceIdeal.RunP.p11 U (rr Cert.ReferenceIdeal.main_arg3) = U (rr Cert.ReferenceIdeal.main_arg3)
    ∧ after Cert.ReferenceIdeal.RunP.p11 U (rr Cert.ReferenceIdeal.main_arg4) = U (rr Cert.ReferenceIdeal.main_arg4)
    ∧ after Cert.ReferenceIdeal.RunP.p11 U (rr Cert.ReferenceIdeal.main_arg5) = U (rr Cert.ReferenceIdeal.main_arg5)
    ∧ after Cert.ReferenceIdeal.RunP.p11 U (rr Cert.ReferenceIdeal.main_arg6) = U (rr Cert.ReferenceIdeal.main_arg6)
    ∧ after Cert.ReferenceIdeal.RunP.p11 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p11] []

set_option maxHeartbeats 4000000 in
/-- The reference's operations 244 … 249 write none of @main's arguments. -/
theorem keep_p12 (U : Valuation Cert.ReferenceIdeal.τ Cert.ReferenceIdeal.sig (Elt F)) :
    after Cert.ReferenceIdeal.RunP.p12 U (rr Cert.ReferenceIdeal.main_arg0) = U (rr Cert.ReferenceIdeal.main_arg0)
    ∧ after Cert.ReferenceIdeal.RunP.p12 U (rr Cert.ReferenceIdeal.main_arg1) = U (rr Cert.ReferenceIdeal.main_arg1)
    ∧ after Cert.ReferenceIdeal.RunP.p12 U (rr Cert.ReferenceIdeal.main_arg2) = U (rr Cert.ReferenceIdeal.main_arg2)
    ∧ after Cert.ReferenceIdeal.RunP.p12 U (rr Cert.ReferenceIdeal.main_arg3) = U (rr Cert.ReferenceIdeal.main_arg3)
    ∧ after Cert.ReferenceIdeal.RunP.p12 U (rr Cert.ReferenceIdeal.main_arg4) = U (rr Cert.ReferenceIdeal.main_arg4)
    ∧ after Cert.ReferenceIdeal.RunP.p12 U (rr Cert.ReferenceIdeal.main_arg5) = U (rr Cert.ReferenceIdeal.main_arg5)
    ∧ after Cert.ReferenceIdeal.RunP.p12 U (rr Cert.ReferenceIdeal.main_arg6) = U (rr Cert.ReferenceIdeal.main_arg6)
    ∧ after Cert.ReferenceIdeal.RunP.p12 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p12] []

set_option maxHeartbeats 4000000 in
/-- The reference's operations 250 … 251 write none of @main's arguments. -/
theorem keep_p13 (U : Valuation Cert.ReferenceIdeal.τ Cert.ReferenceIdeal.sig (Elt F)) :
    after Cert.ReferenceIdeal.RunP.p13 U (rr Cert.ReferenceIdeal.main_arg0) = U (rr Cert.ReferenceIdeal.main_arg0)
    ∧ after Cert.ReferenceIdeal.RunP.p13 U (rr Cert.ReferenceIdeal.main_arg1) = U (rr Cert.ReferenceIdeal.main_arg1)
    ∧ after Cert.ReferenceIdeal.RunP.p13 U (rr Cert.ReferenceIdeal.main_arg2) = U (rr Cert.ReferenceIdeal.main_arg2)
    ∧ after Cert.ReferenceIdeal.RunP.p13 U (rr Cert.ReferenceIdeal.main_arg3) = U (rr Cert.ReferenceIdeal.main_arg3)
    ∧ after Cert.ReferenceIdeal.RunP.p13 U (rr Cert.ReferenceIdeal.main_arg4) = U (rr Cert.ReferenceIdeal.main_arg4)
    ∧ after Cert.ReferenceIdeal.RunP.p13 U (rr Cert.ReferenceIdeal.main_arg5) = U (rr Cert.ReferenceIdeal.main_arg5)
    ∧ after Cert.ReferenceIdeal.RunP.p13 U (rr Cert.ReferenceIdeal.main_arg6) = U (rr Cert.ReferenceIdeal.main_arg6)
    ∧ after Cert.ReferenceIdeal.RunP.p13 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p13] []

set_option maxHeartbeats 4000000 in
/-- The reference's operations 252 … 257 write none of @main's arguments. -/
theorem keep_p14 (U : Valuation Cert.ReferenceIdeal.τ Cert.ReferenceIdeal.sig (Elt F)) :
    after Cert.ReferenceIdeal.RunP.p14 U (rr Cert.ReferenceIdeal.main_arg0) = U (rr Cert.ReferenceIdeal.main_arg0)
    ∧ after Cert.ReferenceIdeal.RunP.p14 U (rr Cert.ReferenceIdeal.main_arg1) = U (rr Cert.ReferenceIdeal.main_arg1)
    ∧ after Cert.ReferenceIdeal.RunP.p14 U (rr Cert.ReferenceIdeal.main_arg2) = U (rr Cert.ReferenceIdeal.main_arg2)
    ∧ after Cert.ReferenceIdeal.RunP.p14 U (rr Cert.ReferenceIdeal.main_arg3) = U (rr Cert.ReferenceIdeal.main_arg3)
    ∧ after Cert.ReferenceIdeal.RunP.p14 U (rr Cert.ReferenceIdeal.main_arg4) = U (rr Cert.ReferenceIdeal.main_arg4)
    ∧ after Cert.ReferenceIdeal.RunP.p14 U (rr Cert.ReferenceIdeal.main_arg5) = U (rr Cert.ReferenceIdeal.main_arg5)
    ∧ after Cert.ReferenceIdeal.RunP.p14 U (rr Cert.ReferenceIdeal.main_arg6) = U (rr Cert.ReferenceIdeal.main_arg6)
    ∧ after Cert.ReferenceIdeal.RunP.p14 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p14] []

set_option maxHeartbeats 4000000 in
/-- The reference's operations 258 … 270 write none of @main's arguments. -/
theorem keep_p15 (U : Valuation Cert.ReferenceIdeal.τ Cert.ReferenceIdeal.sig (Elt F)) :
    after Cert.ReferenceIdeal.RunP.p15 U (rr Cert.ReferenceIdeal.main_arg0) = U (rr Cert.ReferenceIdeal.main_arg0)
    ∧ after Cert.ReferenceIdeal.RunP.p15 U (rr Cert.ReferenceIdeal.main_arg1) = U (rr Cert.ReferenceIdeal.main_arg1)
    ∧ after Cert.ReferenceIdeal.RunP.p15 U (rr Cert.ReferenceIdeal.main_arg2) = U (rr Cert.ReferenceIdeal.main_arg2)
    ∧ after Cert.ReferenceIdeal.RunP.p15 U (rr Cert.ReferenceIdeal.main_arg3) = U (rr Cert.ReferenceIdeal.main_arg3)
    ∧ after Cert.ReferenceIdeal.RunP.p15 U (rr Cert.ReferenceIdeal.main_arg4) = U (rr Cert.ReferenceIdeal.main_arg4)
    ∧ after Cert.ReferenceIdeal.RunP.p15 U (rr Cert.ReferenceIdeal.main_arg5) = U (rr Cert.ReferenceIdeal.main_arg5)
    ∧ after Cert.ReferenceIdeal.RunP.p15 U (rr Cert.ReferenceIdeal.main_arg6) = U (rr Cert.ReferenceIdeal.main_arg6)
    ∧ after Cert.ReferenceIdeal.RunP.p15 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p15] []

set_option maxHeartbeats 4000000 in
/-- The reference's operations 271 … 309 write none of @main's arguments. -/
theorem keep_p16 (U : Valuation Cert.ReferenceIdeal.τ Cert.ReferenceIdeal.sig (Elt F)) :
    after Cert.ReferenceIdeal.RunP.p16 U (rr Cert.ReferenceIdeal.main_arg0) = U (rr Cert.ReferenceIdeal.main_arg0)
    ∧ after Cert.ReferenceIdeal.RunP.p16 U (rr Cert.ReferenceIdeal.main_arg1) = U (rr Cert.ReferenceIdeal.main_arg1)
    ∧ after Cert.ReferenceIdeal.RunP.p16 U (rr Cert.ReferenceIdeal.main_arg2) = U (rr Cert.ReferenceIdeal.main_arg2)
    ∧ after Cert.ReferenceIdeal.RunP.p16 U (rr Cert.ReferenceIdeal.main_arg3) = U (rr Cert.ReferenceIdeal.main_arg3)
    ∧ after Cert.ReferenceIdeal.RunP.p16 U (rr Cert.ReferenceIdeal.main_arg4) = U (rr Cert.ReferenceIdeal.main_arg4)
    ∧ after Cert.ReferenceIdeal.RunP.p16 U (rr Cert.ReferenceIdeal.main_arg5) = U (rr Cert.ReferenceIdeal.main_arg5)
    ∧ after Cert.ReferenceIdeal.RunP.p16 U (rr Cert.ReferenceIdeal.main_arg6) = U (rr Cert.ReferenceIdeal.main_arg6)
    ∧ after Cert.ReferenceIdeal.RunP.p16 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p16] []

set_option maxHeartbeats 4000000 in
/-- The reference's operations 310 … 315 write none of @main's arguments. -/
theorem keep_p17 (U : Valuation Cert.ReferenceIdeal.τ Cert.ReferenceIdeal.sig (Elt F)) :
    after Cert.ReferenceIdeal.RunP.p17 U (rr Cert.ReferenceIdeal.main_arg0) = U (rr Cert.ReferenceIdeal.main_arg0)
    ∧ after Cert.ReferenceIdeal.RunP.p17 U (rr Cert.ReferenceIdeal.main_arg1) = U (rr Cert.ReferenceIdeal.main_arg1)
    ∧ after Cert.ReferenceIdeal.RunP.p17 U (rr Cert.ReferenceIdeal.main_arg2) = U (rr Cert.ReferenceIdeal.main_arg2)
    ∧ after Cert.ReferenceIdeal.RunP.p17 U (rr Cert.ReferenceIdeal.main_arg3) = U (rr Cert.ReferenceIdeal.main_arg3)
    ∧ after Cert.ReferenceIdeal.RunP.p17 U (rr Cert.ReferenceIdeal.main_arg4) = U (rr Cert.ReferenceIdeal.main_arg4)
    ∧ after Cert.ReferenceIdeal.RunP.p17 U (rr Cert.ReferenceIdeal.main_arg5) = U (rr Cert.ReferenceIdeal.main_arg5)
    ∧ after Cert.ReferenceIdeal.RunP.p17 U (rr Cert.ReferenceIdeal.main_arg6) = U (rr Cert.ReferenceIdeal.main_arg6)
    ∧ after Cert.ReferenceIdeal.RunP.p17 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p17] []

set_option maxHeartbeats 4000000 in
/-- The reference's operations 316 … 317 write none of @main's arguments. -/
theorem keep_p18 (U : Valuation Cert.ReferenceIdeal.τ Cert.ReferenceIdeal.sig (Elt F)) :
    after Cert.ReferenceIdeal.RunP.p18 U (rr Cert.ReferenceIdeal.main_arg0) = U (rr Cert.ReferenceIdeal.main_arg0)
    ∧ after Cert.ReferenceIdeal.RunP.p18 U (rr Cert.ReferenceIdeal.main_arg1) = U (rr Cert.ReferenceIdeal.main_arg1)
    ∧ after Cert.ReferenceIdeal.RunP.p18 U (rr Cert.ReferenceIdeal.main_arg2) = U (rr Cert.ReferenceIdeal.main_arg2)
    ∧ after Cert.ReferenceIdeal.RunP.p18 U (rr Cert.ReferenceIdeal.main_arg3) = U (rr Cert.ReferenceIdeal.main_arg3)
    ∧ after Cert.ReferenceIdeal.RunP.p18 U (rr Cert.ReferenceIdeal.main_arg4) = U (rr Cert.ReferenceIdeal.main_arg4)
    ∧ after Cert.ReferenceIdeal.RunP.p18 U (rr Cert.ReferenceIdeal.main_arg5) = U (rr Cert.ReferenceIdeal.main_arg5)
    ∧ after Cert.ReferenceIdeal.RunP.p18 U (rr Cert.ReferenceIdeal.main_arg6) = U (rr Cert.ReferenceIdeal.main_arg6)
    ∧ after Cert.ReferenceIdeal.RunP.p18 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p18] []

set_option maxHeartbeats 4000000 in
/-- The reference's operations 318 … 323 write none of @main's arguments. -/
theorem keep_p19 (U : Valuation Cert.ReferenceIdeal.τ Cert.ReferenceIdeal.sig (Elt F)) :
    after Cert.ReferenceIdeal.RunP.p19 U (rr Cert.ReferenceIdeal.main_arg0) = U (rr Cert.ReferenceIdeal.main_arg0)
    ∧ after Cert.ReferenceIdeal.RunP.p19 U (rr Cert.ReferenceIdeal.main_arg1) = U (rr Cert.ReferenceIdeal.main_arg1)
    ∧ after Cert.ReferenceIdeal.RunP.p19 U (rr Cert.ReferenceIdeal.main_arg2) = U (rr Cert.ReferenceIdeal.main_arg2)
    ∧ after Cert.ReferenceIdeal.RunP.p19 U (rr Cert.ReferenceIdeal.main_arg3) = U (rr Cert.ReferenceIdeal.main_arg3)
    ∧ after Cert.ReferenceIdeal.RunP.p19 U (rr Cert.ReferenceIdeal.main_arg4) = U (rr Cert.ReferenceIdeal.main_arg4)
    ∧ after Cert.ReferenceIdeal.RunP.p19 U (rr Cert.ReferenceIdeal.main_arg5) = U (rr Cert.ReferenceIdeal.main_arg5)
    ∧ after Cert.ReferenceIdeal.RunP.p19 U (rr Cert.ReferenceIdeal.main_arg6) = U (rr Cert.ReferenceIdeal.main_arg6)
    ∧ after Cert.ReferenceIdeal.RunP.p19 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p19] []

set_option maxHeartbeats 4000000 in
/-- The reference's operations 324 … 340 write none of @main's arguments. -/
theorem keep_p20 (U : Valuation Cert.ReferenceIdeal.τ Cert.ReferenceIdeal.sig (Elt F)) :
    after Cert.ReferenceIdeal.RunP.p20 U (rr Cert.ReferenceIdeal.main_arg0) = U (rr Cert.ReferenceIdeal.main_arg0)
    ∧ after Cert.ReferenceIdeal.RunP.p20 U (rr Cert.ReferenceIdeal.main_arg1) = U (rr Cert.ReferenceIdeal.main_arg1)
    ∧ after Cert.ReferenceIdeal.RunP.p20 U (rr Cert.ReferenceIdeal.main_arg2) = U (rr Cert.ReferenceIdeal.main_arg2)
    ∧ after Cert.ReferenceIdeal.RunP.p20 U (rr Cert.ReferenceIdeal.main_arg3) = U (rr Cert.ReferenceIdeal.main_arg3)
    ∧ after Cert.ReferenceIdeal.RunP.p20 U (rr Cert.ReferenceIdeal.main_arg4) = U (rr Cert.ReferenceIdeal.main_arg4)
    ∧ after Cert.ReferenceIdeal.RunP.p20 U (rr Cert.ReferenceIdeal.main_arg5) = U (rr Cert.ReferenceIdeal.main_arg5)
    ∧ after Cert.ReferenceIdeal.RunP.p20 U (rr Cert.ReferenceIdeal.main_arg6) = U (rr Cert.ReferenceIdeal.main_arg6)
    ∧ after Cert.ReferenceIdeal.RunP.p20 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p20] []

set_option maxHeartbeats 4000000 in
/-- The reference's operations 341 … 378 write none of @main's arguments. -/
theorem keep_p21 (U : Valuation Cert.ReferenceIdeal.τ Cert.ReferenceIdeal.sig (Elt F)) :
    after Cert.ReferenceIdeal.RunP.p21 U (rr Cert.ReferenceIdeal.main_arg0) = U (rr Cert.ReferenceIdeal.main_arg0)
    ∧ after Cert.ReferenceIdeal.RunP.p21 U (rr Cert.ReferenceIdeal.main_arg1) = U (rr Cert.ReferenceIdeal.main_arg1)
    ∧ after Cert.ReferenceIdeal.RunP.p21 U (rr Cert.ReferenceIdeal.main_arg2) = U (rr Cert.ReferenceIdeal.main_arg2)
    ∧ after Cert.ReferenceIdeal.RunP.p21 U (rr Cert.ReferenceIdeal.main_arg3) = U (rr Cert.ReferenceIdeal.main_arg3)
    ∧ after Cert.ReferenceIdeal.RunP.p21 U (rr Cert.ReferenceIdeal.main_arg4) = U (rr Cert.ReferenceIdeal.main_arg4)
    ∧ after Cert.ReferenceIdeal.RunP.p21 U (rr Cert.ReferenceIdeal.main_arg5) = U (rr Cert.ReferenceIdeal.main_arg5)
    ∧ after Cert.ReferenceIdeal.RunP.p21 U (rr Cert.ReferenceIdeal.main_arg6) = U (rr Cert.ReferenceIdeal.main_arg6)
    ∧ after Cert.ReferenceIdeal.RunP.p21 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p21] []

set_option maxHeartbeats 4000000 in
/-- The reference's operations 379 … 384 write none of @main's arguments. -/
theorem keep_p22 (U : Valuation Cert.ReferenceIdeal.τ Cert.ReferenceIdeal.sig (Elt F)) :
    after Cert.ReferenceIdeal.RunP.p22 U (rr Cert.ReferenceIdeal.main_arg0) = U (rr Cert.ReferenceIdeal.main_arg0)
    ∧ after Cert.ReferenceIdeal.RunP.p22 U (rr Cert.ReferenceIdeal.main_arg1) = U (rr Cert.ReferenceIdeal.main_arg1)
    ∧ after Cert.ReferenceIdeal.RunP.p22 U (rr Cert.ReferenceIdeal.main_arg2) = U (rr Cert.ReferenceIdeal.main_arg2)
    ∧ after Cert.ReferenceIdeal.RunP.p22 U (rr Cert.ReferenceIdeal.main_arg3) = U (rr Cert.ReferenceIdeal.main_arg3)
    ∧ after Cert.ReferenceIdeal.RunP.p22 U (rr Cert.ReferenceIdeal.main_arg4) = U (rr Cert.ReferenceIdeal.main_arg4)
    ∧ after Cert.ReferenceIdeal.RunP.p22 U (rr Cert.ReferenceIdeal.main_arg5) = U (rr Cert.ReferenceIdeal.main_arg5)
    ∧ after Cert.ReferenceIdeal.RunP.p22 U (rr Cert.ReferenceIdeal.main_arg6) = U (rr Cert.ReferenceIdeal.main_arg6)
    ∧ after Cert.ReferenceIdeal.RunP.p22 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p22] []

set_option maxHeartbeats 4000000 in
/-- The reference's operations 385 … 386 write none of @main's arguments. -/
theorem keep_p23 (U : Valuation Cert.ReferenceIdeal.τ Cert.ReferenceIdeal.sig (Elt F)) :
    after Cert.ReferenceIdeal.RunP.p23 U (rr Cert.ReferenceIdeal.main_arg0) = U (rr Cert.ReferenceIdeal.main_arg0)
    ∧ after Cert.ReferenceIdeal.RunP.p23 U (rr Cert.ReferenceIdeal.main_arg1) = U (rr Cert.ReferenceIdeal.main_arg1)
    ∧ after Cert.ReferenceIdeal.RunP.p23 U (rr Cert.ReferenceIdeal.main_arg2) = U (rr Cert.ReferenceIdeal.main_arg2)
    ∧ after Cert.ReferenceIdeal.RunP.p23 U (rr Cert.ReferenceIdeal.main_arg3) = U (rr Cert.ReferenceIdeal.main_arg3)
    ∧ after Cert.ReferenceIdeal.RunP.p23 U (rr Cert.ReferenceIdeal.main_arg4) = U (rr Cert.ReferenceIdeal.main_arg4)
    ∧ after Cert.ReferenceIdeal.RunP.p23 U (rr Cert.ReferenceIdeal.main_arg5) = U (rr Cert.ReferenceIdeal.main_arg5)
    ∧ after Cert.ReferenceIdeal.RunP.p23 U (rr Cert.ReferenceIdeal.main_arg6) = U (rr Cert.ReferenceIdeal.main_arg6)
    ∧ after Cert.ReferenceIdeal.RunP.p23 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p23] []

set_option maxHeartbeats 4000000 in
/-- The reference's operations 387 … 392 write none of @main's arguments. -/
theorem keep_p24 (U : Valuation Cert.ReferenceIdeal.τ Cert.ReferenceIdeal.sig (Elt F)) :
    after Cert.ReferenceIdeal.RunP.p24 U (rr Cert.ReferenceIdeal.main_arg0) = U (rr Cert.ReferenceIdeal.main_arg0)
    ∧ after Cert.ReferenceIdeal.RunP.p24 U (rr Cert.ReferenceIdeal.main_arg1) = U (rr Cert.ReferenceIdeal.main_arg1)
    ∧ after Cert.ReferenceIdeal.RunP.p24 U (rr Cert.ReferenceIdeal.main_arg2) = U (rr Cert.ReferenceIdeal.main_arg2)
    ∧ after Cert.ReferenceIdeal.RunP.p24 U (rr Cert.ReferenceIdeal.main_arg3) = U (rr Cert.ReferenceIdeal.main_arg3)
    ∧ after Cert.ReferenceIdeal.RunP.p24 U (rr Cert.ReferenceIdeal.main_arg4) = U (rr Cert.ReferenceIdeal.main_arg4)
    ∧ after Cert.ReferenceIdeal.RunP.p24 U (rr Cert.ReferenceIdeal.main_arg5) = U (rr Cert.ReferenceIdeal.main_arg5)
    ∧ after Cert.ReferenceIdeal.RunP.p24 U (rr Cert.ReferenceIdeal.main_arg6) = U (rr Cert.ReferenceIdeal.main_arg6)
    ∧ after Cert.ReferenceIdeal.RunP.p24 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p24] []

set_option maxHeartbeats 4000000 in
/-- The reference's operations 393 … 410 write none of @main's arguments. -/
theorem keep_p25 (U : Valuation Cert.ReferenceIdeal.τ Cert.ReferenceIdeal.sig (Elt F)) :
    after Cert.ReferenceIdeal.RunP.p25 U (rr Cert.ReferenceIdeal.main_arg0) = U (rr Cert.ReferenceIdeal.main_arg0)
    ∧ after Cert.ReferenceIdeal.RunP.p25 U (rr Cert.ReferenceIdeal.main_arg1) = U (rr Cert.ReferenceIdeal.main_arg1)
    ∧ after Cert.ReferenceIdeal.RunP.p25 U (rr Cert.ReferenceIdeal.main_arg2) = U (rr Cert.ReferenceIdeal.main_arg2)
    ∧ after Cert.ReferenceIdeal.RunP.p25 U (rr Cert.ReferenceIdeal.main_arg3) = U (rr Cert.ReferenceIdeal.main_arg3)
    ∧ after Cert.ReferenceIdeal.RunP.p25 U (rr Cert.ReferenceIdeal.main_arg4) = U (rr Cert.ReferenceIdeal.main_arg4)
    ∧ after Cert.ReferenceIdeal.RunP.p25 U (rr Cert.ReferenceIdeal.main_arg5) = U (rr Cert.ReferenceIdeal.main_arg5)
    ∧ after Cert.ReferenceIdeal.RunP.p25 U (rr Cert.ReferenceIdeal.main_arg6) = U (rr Cert.ReferenceIdeal.main_arg6)
    ∧ after Cert.ReferenceIdeal.RunP.p25 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p25] []

set_option maxHeartbeats 4000000 in
/-- The reference's operations 411 … 423 write none of @main's arguments. -/
theorem keep_p26 (U : Valuation Cert.ReferenceIdeal.τ Cert.ReferenceIdeal.sig (Elt F)) :
    after Cert.ReferenceIdeal.RunP.p26 U (rr Cert.ReferenceIdeal.main_arg0) = U (rr Cert.ReferenceIdeal.main_arg0)
    ∧ after Cert.ReferenceIdeal.RunP.p26 U (rr Cert.ReferenceIdeal.main_arg1) = U (rr Cert.ReferenceIdeal.main_arg1)
    ∧ after Cert.ReferenceIdeal.RunP.p26 U (rr Cert.ReferenceIdeal.main_arg2) = U (rr Cert.ReferenceIdeal.main_arg2)
    ∧ after Cert.ReferenceIdeal.RunP.p26 U (rr Cert.ReferenceIdeal.main_arg3) = U (rr Cert.ReferenceIdeal.main_arg3)
    ∧ after Cert.ReferenceIdeal.RunP.p26 U (rr Cert.ReferenceIdeal.main_arg4) = U (rr Cert.ReferenceIdeal.main_arg4)
    ∧ after Cert.ReferenceIdeal.RunP.p26 U (rr Cert.ReferenceIdeal.main_arg5) = U (rr Cert.ReferenceIdeal.main_arg5)
    ∧ after Cert.ReferenceIdeal.RunP.p26 U (rr Cert.ReferenceIdeal.main_arg6) = U (rr Cert.ReferenceIdeal.main_arg6)
    ∧ after Cert.ReferenceIdeal.RunP.p26 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p26] []

set_option maxHeartbeats 4000000 in
/-- The reference's operations 424 … 436 write none of @main's arguments. -/
theorem keep_p27 (U : Valuation Cert.ReferenceIdeal.τ Cert.ReferenceIdeal.sig (Elt F)) :
    after Cert.ReferenceIdeal.RunP.p27 U (rr Cert.ReferenceIdeal.main_arg0) = U (rr Cert.ReferenceIdeal.main_arg0)
    ∧ after Cert.ReferenceIdeal.RunP.p27 U (rr Cert.ReferenceIdeal.main_arg1) = U (rr Cert.ReferenceIdeal.main_arg1)
    ∧ after Cert.ReferenceIdeal.RunP.p27 U (rr Cert.ReferenceIdeal.main_arg2) = U (rr Cert.ReferenceIdeal.main_arg2)
    ∧ after Cert.ReferenceIdeal.RunP.p27 U (rr Cert.ReferenceIdeal.main_arg3) = U (rr Cert.ReferenceIdeal.main_arg3)
    ∧ after Cert.ReferenceIdeal.RunP.p27 U (rr Cert.ReferenceIdeal.main_arg4) = U (rr Cert.ReferenceIdeal.main_arg4)
    ∧ after Cert.ReferenceIdeal.RunP.p27 U (rr Cert.ReferenceIdeal.main_arg5) = U (rr Cert.ReferenceIdeal.main_arg5)
    ∧ after Cert.ReferenceIdeal.RunP.p27 U (rr Cert.ReferenceIdeal.main_arg6) = U (rr Cert.ReferenceIdeal.main_arg6)
    ∧ after Cert.ReferenceIdeal.RunP.p27 U (rr Cert.ReferenceIdeal.main_arg7) = U (rr Cert.ReferenceIdeal.main_arg7) := by
  refine ⟨?_, ?_, ?_, ?_, ?_, ?_, ?_, ?_⟩
  all_goals cross_stretch [Cert.ReferenceIdeal.RunP.p27] []

end Cert.Sim

end
-- ==== Proof.SimChain.lean ====
import proofs.«152604_j41824391528833_1_alg».proof.Proof.SimTable

set_option maxRecDepth 8192

noncomputable section

namespace Cert.Sim

open Idealize.ShloMosaic Idealize.ShloMosaic.TcCoe Idealize.SL.Sem Idealize.ShloMosaic.StableHlo

variable {F : FTy → Type} [FloatOps F]

/-- The kernel program's contents when its pallas_call starts, stretch by stretch. -/
abbrev kernelEntry (UK : Valuation Cert.KernelIdeal.τ Cert.KernelIdeal.sig (Elt F)) : Valuation Cert.KernelIdeal.τ Cert.KernelIdeal.sig (Elt F) :=
  (after Cert.KernelIdeal.Gen.hostOps0_20 (after Cert.KernelIdeal.Gen.hostOps0_19 (after Cert.KernelIdeal.Gen.hostOps0_18 (after Cert.KernelIdeal.Gen.hostOps0_17 (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 UK)))))))))))))))))))))

/-- The reference's contents after the operations it shares with the kernel program, piece by piece. -/
abbrev refShared (UR : Valuation Cert.ReferenceIdeal.τ Cert.ReferenceIdeal.sig (Elt F)) : Valuation Cert.ReferenceIdeal.τ Cert.ReferenceIdeal.sig (Elt F) :=
  (after Cert.ReferenceIdeal.RunP.p26 (after Cert.ReferenceIdeal.RunP.p25 (after Cert.ReferenceIdeal.RunP.p24 (after Cert.ReferenceIdeal.RunP.p23 (after Cert.ReferenceIdeal.RunP.p22 (after Cert.ReferenceIdeal.RunP.p21 (after Cert.ReferenceIdeal.RunP.p20 (after Cert.ReferenceIdeal.RunP.p19 (after Cert.ReferenceIdeal.RunP.p18 (after Cert.ReferenceIdeal.RunP.p17 (after Cert.ReferenceIdeal.RunP.p16 (after Cert.ReferenceIdeal.RunP.p15 (after Cert.ReferenceIdeal.RunP.p14 (after Cert.ReferenceIdeal.RunP.p13 (after Cert.ReferenceIdeal.RunP.p12 (after Cert.ReferenceIdeal.RunP.p11 (after Cert.ReferenceIdeal.RunP.p10 (after Cert.ReferenceIdeal.RunP.p09 (after Cert.ReferenceIdeal.RunP.p08 (after Cert.ReferenceIdeal.RunP.p07 (after Cert.ReferenceIdeal.RunP.p06 (after Cert.ReferenceIdeal.RunP.p05 (after Cert.ReferenceIdeal.RunP.p04 (after Cert.ReferenceIdeal.RunP.p03 (after Cert.ReferenceIdeal.RunP.p02 (after Cert.ReferenceIdeal.RunP.p01 (after Cert.ReferenceIdeal.RunP.p00 UR)))))))))))))))))))))))))))

/-- The fold over the kernel program's whole host prefix is the stretches' folds, nested. -/
theorem kernelEntry_eq (UK : Valuation Cert.KernelIdeal.τ Cert.KernelIdeal.sig (Elt F)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20]) UK = kernelEntry UK := by
  simp only [List.flatten_cons, List.flatten_nil, List.append_nil, StableHlo.after_append]

/-- The fold over all the reference's operations is its last piece after the shared ones. -/
theorem refOps_eq (UR : Valuation Cert.ReferenceIdeal.τ Cert.ReferenceIdeal.sig (Elt F)) : after Cert.ReferenceIdeal.RunP.ops UR = after Cert.ReferenceIdeal.RunP.p27 (refShared UR) := by
  simp only [Cert.ReferenceIdeal.RunP.ops, StableHlo.after_append]

/-- THE SHARED PREFIX: from contents agreeing on coords, the line tables and the plane table, the combined feature
    tensor holds the same contents when the kernel program's pallas_call starts and after the reference's shared operations. -/
theorem features_eq (UK : Valuation Cert.KernelIdeal.τ Cert.KernelIdeal.sig (Elt F)) (UR : Valuation Cert.ReferenceIdeal.τ Cert.ReferenceIdeal.sig (Elt F)) (h : Live0 UK UR) :
    kernelEntry UK (kr Cert.KernelIdeal.main_v280) = refShared UR (rr Cert.ReferenceIdeal.main_v280) :=
  (step20 _ _ (step19 _ _ (step18 _ _ (step17 _ _ (step16 _ _ (step15 _ _ (step14 _ _ (step13 _ _ (step12 _ _ (step11 _ _ (step10 _ _ (step9 _ _ (step8 _ _ (step7 _ _ (step6 _ _ (step5 _ _ (step4 _ _ (step3 _ _ (step2 _ _ (step1 _ _ (step0 UK UR h)))))))))))))))))))))

/-- A transformation of the reference's buffer contents that leaves @main's eight arguments as they were. -/
abbrev Keeps (f : Valuation Cert.ReferenceIdeal.τ Cert.ReferenceIdeal.sig (Elt F) → Valuation Cert.ReferenceIdeal.τ Cert.ReferenceIdeal.sig (Elt F)) : Prop :=
  ∀ U, f U (rr Cert.ReferenceIdeal.main_arg0) = U (rr Cert.ReferenceIdeal.main_arg0)
    ∧ f U (rr Cert.ReferenceIdeal.main_arg1) = U (rr Cert.ReferenceIdeal.main_arg1)
    ∧ f U (rr Cert.ReferenceIdeal.main_arg2) = U (rr Cert.ReferenceIdeal.main_arg2)
    ∧ f U (rr Cert.ReferenceIdeal.main_arg3) = U (rr Cert.ReferenceIdeal.main_arg3)
    ∧ f U (rr Cert.ReferenceIdeal.main_arg4) = U (rr Cert.ReferenceIdeal.main_arg4)
    ∧ f U (rr Cert.ReferenceIdeal.main_arg5) = U (rr Cert.ReferenceIdeal.main_arg5)
    ∧ f U (rr Cert.ReferenceIdeal.main_arg6) = U (rr Cert.ReferenceIdeal.main_arg6)
    ∧ f U (rr Cert.ReferenceIdeal.main_arg7) = U (rr Cert.ReferenceIdeal.main_arg7)

/-- The reference's shared operations write none of @main's arguments: piece after piece. -/
theorem refShared_keeps : Keeps (refShared (F := F)) := fun U => by
  refine ⟨?_, ?_, ?_, ?_, ?_, ?_, ?_, ?_⟩
  · exact ((keep_p26 _).1).trans (((keep_p25 _).1).trans (((keep_p24 _).1).trans (((keep_p23 _).1).trans (((keep_p22 _).1).trans (((keep_p21 _).1).trans (((keep_p20 _).1).trans (((keep_p19 _).1).trans (((keep_p18 _).1).trans (((keep_p17 _).1).trans (((keep_p16 _).1).trans (((keep_p15 _).1).trans (((keep_p14 _).1).trans (((keep_p13 _).1).trans (((keep_p12 _).1).trans (((keep_p11 _).1).trans (((keep_p10 _).1).trans (((keep_p09 _).1).trans (((keep_p08 _).1).trans (((keep_p07 _).1).trans (((keep_p06 _).1).trans (((keep_p05 _).1).trans (((keep_p04 _).1).trans (((keep_p03 _).1).trans (((keep_p02 _).1).trans (((keep_p01 _).1).trans ((keep_p00 U).1))))))))))))))))))))))))))
  · exact ((keep_p26 _).2.1).trans (((keep_p25 _).2.1).trans (((keep_p24 _).2.1).trans (((keep_p23 _).2.1).trans (((keep_p22 _).2.1).trans (((keep_p21 _).2.1).trans (((keep_p20 _).2.1).trans (((keep_p19 _).2.1).trans (((keep_p18 _).2.1).trans (((keep_p17 _).2.1).trans (((keep_p16 _).2.1).trans (((keep_p15 _).2.1).trans (((keep_p14 _).2.1).trans (((keep_p13 _).2.1).trans (((keep_p12 _).2.1).trans (((keep_p11 _).2.1).trans (((keep_p10 _).2.1).trans (((keep_p09 _).2.1).trans (((keep_p08 _).2.1).trans (((keep_p07 _).2.1).trans (((keep_p06 _).2.1).trans (((keep_p05 _).2.1).trans (((keep_p04 _).2.1).trans (((keep_p03 _).2.1).trans (((keep_p02 _).2.1).trans (((keep_p01 _).2.1).trans ((keep_p00 U).2.1))))))))))))))))))))))))))
  · exact ((keep_p26 _).2.2.1).trans (((keep_p25 _).2.2.1).trans (((keep_p24 _).2.2.1).trans (((keep_p23 _).2.2.1).trans (((keep_p22 _).2.2.1).trans (((keep_p21 _).2.2.1).trans (((keep_p20 _).2.2.1).trans (((keep_p19 _).2.2.1).trans (((keep_p18 _).2.2.1).trans (((keep_p17 _).2.2.1).trans (((keep_p16 _).2.2.1).trans (((keep_p15 _).2.2.1).trans (((keep_p14 _).2.2.1).trans (((keep_p13 _).2.2.1).trans (((keep_p12 _).2.2.1).trans (((keep_p11 _).2.2.1).trans (((keep_p10 _).2.2.1).trans (((keep_p09 _).2.2.1).trans (((keep_p08 _).2.2.1).trans (((keep_p07 _).2.2.1).trans (((keep_p06 _).2.2.1).trans (((keep_p05 _).2.2.1).trans (((keep_p04 _).2.2.1).trans (((keep_p03 _).2.2.1).trans (((keep_p02 _).2.2.1).trans (((keep_p01 _).2.2.1).trans ((keep_p00 U).2.2.1))))))))))))))))))))))))))
  · exact ((keep_p26 _).2.2.2.1).trans (((keep_p25 _).2.2.2.1).trans (((keep_p24 _).2.2.2.1).trans (((keep_p23 _).2.2.2.1).trans (((keep_p22 _).2.2.2.1).trans (((keep_p21 _).2.2.2.1).trans (((keep_p20 _).2.2.2.1).trans (((keep_p19 _).2.2.2.1).trans (((keep_p18 _).2.2.2.1).trans (((keep_p17 _).2.2.2.1).trans (((keep_p16 _).2.2.2.1).trans (((keep_p15 _).2.2.2.1).trans (((keep_p14 _).2.2.2.1).trans (((keep_p13 _).2.2.2.1).trans (((keep_p12 _).2.2.2.1).trans (((keep_p11 _).2.2.2.1).trans (((keep_p10 _).2.2.2.1).trans (((keep_p09 _).2.2.2.1).trans (((keep_p08 _).2.2.2.1).trans (((keep_p07 _).2.2.2.1).trans (((keep_p06 _).2.2.2.1).trans (((keep_p05 _).2.2.2.1).trans (((keep_p04 _).2.2.2.1).trans (((keep_p03 _).2.2.2.1).trans (((keep_p02 _).2.2.2.1).trans (((keep_p01 _).2.2.2.1).trans ((keep_p00 U).2.2.2.1))))))))))))))))))))))))))
  · exact ((keep_p26 _).2.2.2.2.1).trans (((keep_p25 _).2.2.2.2.1).trans (((keep_p24 _).2.2.2.2.1).trans (((keep_p23 _).2.2.2.2.1).trans (((keep_p22 _).2.2.2.2.1).trans (((keep_p21 _).2.2.2.2.1).trans (((keep_p20 _).2.2.2.2.1).trans (((keep_p19 _).2.2.2.2.1).trans (((keep_p18 _).2.2.2.2.1).trans (((keep_p17 _).2.2.2.2.1).trans (((keep_p16 _).2.2.2.2.1).trans (((keep_p15 _).2.2.2.2.1).trans (((keep_p14 _).2.2.2.2.1).trans (((keep_p13 _).2.2.2.2.1).trans (((keep_p12 _).2.2.2.2.1).trans (((keep_p11 _).2.2.2.2.1).trans (((keep_p10 _).2.2.2.2.1).trans (((keep_p09 _).2.2.2.2.1).trans (((keep_p08 _).2.2.2.2.1).trans (((keep_p07 _).2.2.2.2.1).trans (((keep_p06 _).2.2.2.2.1).trans (((keep_p05 _).2.2.2.2.1).trans (((keep_p04 _).2.2.2.2.1).trans (((keep_p03 _).2.2.2.2.1).trans (((keep_p02 _).2.2.2.2.1).trans (((keep_p01 _).2.2.2.2.1).trans ((keep_p00 U).2.2.2.2.1))))))))))))))))))))))))))
  · exact ((keep_p26 _).2.2.2.2.2.1).trans (((keep_p25 _).2.2.2.2.2.1).trans (((keep_p24 _).2.2.2.2.2.1).trans (((keep_p23 _).2.2.2.2.2.1).trans (((keep_p22 _).2.2.2.2.2.1).trans (((keep_p21 _).2.2.2.2.2.1).trans (((keep_p20 _).2.2.2.2.2.1).trans (((keep_p19 _).2.2.2.2.2.1).trans (((keep_p18 _).2.2.2.2.2.1).trans (((keep_p17 _).2.2.2.2.2.1).trans (((keep_p16 _).2.2.2.2.2.1).trans (((keep_p15 _).2.2.2.2.2.1).trans (((keep_p14 _).2.2.2.2.2.1).trans (((keep_p13 _).2.2.2.2.2.1).trans (((keep_p12 _).2.2.2.2.2.1).trans (((keep_p11 _).2.2.2.2.2.1).trans (((keep_p10 _).2.2.2.2.2.1).trans (((keep_p09 _).2.2.2.2.2.1).trans (((keep_p08 _).2.2.2.2.2.1).trans (((keep_p07 _).2.2.2.2.2.1).trans (((keep_p06 _).2.2.2.2.2.1).trans (((keep_p05 _).2.2.2.2.2.1).trans (((keep_p04 _).2.2.2.2.2.1).trans (((keep_p03 _).2.2.2.2.2.1).trans (((keep_p02 _).2.2.2.2.2.1).trans (((keep_p01 _).2.2.2.2.2.1).trans ((keep_p00 U).2.2.2.2.2.1))))))))))))))))))))))))))
  · exact ((keep_p26 _).2.2.2.2.2.2.1).trans (((keep_p25 _).2.2.2.2.2.2.1).trans (((keep_p24 _).2.2.2.2.2.2.1).trans (((keep_p23 _).2.2.2.2.2.2.1).trans (((keep_p22 _).2.2.2.2.2.2.1).trans (((keep_p21 _).2.2.2.2.2.2.1).trans (((keep_p20 _).2.2.2.2.2.2.1).trans (((keep_p19 _).2.2.2.2.2.2.1).trans (((keep_p18 _).2.2.2.2.2.2.1).trans (((keep_p17 _).2.2.2.2.2.2.1).trans (((keep_p16 _).2.2.2.2.2.2.1).trans (((keep_p15 _).2.2.2.2.2.2.1).trans (((keep_p14 _).2.2.2.2.2.2.1).trans (((keep_p13 _).2.2.2.2.2.2.1).trans (((keep_p12 _).2.2.2.2.2.2.1).trans (((keep_p11 _).2.2.2.2.2.2.1).trans (((keep_p10 _).2.2.2.2.2.2.1).trans (((keep_p09 _).2.2.2.2.2.2.1).trans (((keep_p08 _).2.2.2.2.2.2.1).trans (((keep_p07 _).2.2.2.2.2.2.1).trans (((keep_p06 _).2.2.2.2.2.2.1).trans (((keep_p05 _).2.2.2.2.2.2.1).trans (((keep_p04 _).2.2.2.2.2.2.1).trans (((keep_p03 _).2.2.2.2.2.2.1).trans (((keep_p02 _).2.2.2.2.2.2.1).trans (((keep_p01 _).2.2.2.2.2.2.1).trans ((keep_p00 U).2.2.2.2.2.2.1))))))))))))))))))))))))))
  · exact ((keep_p26 _).2.2.2.2.2.2.2).trans (((keep_p25 _).2.2.2.2.2.2.2).trans (((keep_p24 _).2.2.2.2.2.2.2).trans (((keep_p23 _).2.2.2.2.2.2.2).trans (((keep_p22 _).2.2.2.2.2.2.2).trans (((keep_p21 _).2.2.2.2.2.2.2).trans (((keep_p20 _).2.2.2.2.2.2.2).trans (((keep_p19 _).2.2.2.2.2.2.2).trans (((keep_p18 _).2.2.2.2.2.2.2).trans (((keep_p17 _).2.2.2.2.2.2.2).trans (((keep_p16 _).2.2.2.2.2.2.2).trans (((keep_p15 _).2.2.2.2.2.2.2).trans (((keep_p14 _).2.2.2.2.2.2.2).trans (((keep_p13 _).2.2.2.2.2.2.2).trans (((keep_p12 _).2.2.2.2.2.2.2).trans (((keep_p11 _).2.2.2.2.2.2.2).trans (((keep_p10 _).2.2.2.2.2.2.2).trans (((keep_p09 _).2.2.2.2.2.2.2).trans (((keep_p08 _).2.2.2.2.2.2.2).trans (((keep_p07 _).2.2.2.2.2.2.2).trans (((keep_p06 _).2.2.2.2.2.2.2).trans (((keep_p05 _).2.2.2.2.2.2.2).trans (((keep_p04 _).2.2.2.2.2.2.2).trans (((keep_p03 _).2.2.2.2.2.2.2).trans (((keep_p02 _).2.2.2.2.2.2.2).trans (((keep_p01 _).2.2.2.2.2.2.2).trans ((keep_p00 U).2.2.2.2.2.2.2))))))))))))))))))))))))))

/-- Nor do all of its operations. -/
theorem refOps_keeps : Keeps (after (Cert.ReferenceIdeal.RunP.ops (F := F))) := fun U => by
  rw [refOps_eq]
  obtain ⟨f0, f1, f2, f3, f4, f5, f6, f7⟩ := refShared_keeps U
  obtain ⟨g0, g1, g2, g3, g4, g5, g6, g7⟩ := keep_p27 (refShared U)
  exact ⟨g0.trans f0, g1.trans f1, g2.trans f2, g3.trans f3, g4.trans f4, g5.trans f5, g6.trans f6, g7.trans f7⟩

end Cert.Sim

end
-- ==== Proof.Sim.lean ====
/-
  The shared feature sampling gives the same feature tensor on both sides; what the kernel program's pallas_call finds.

  The kernel program's host operations before its pallas_call are 21 stretches (cut where a called function starts and
  ends); the first 423 of the reference's 436 operations are the same operations. Starting from contents that agree on
  the four arrays the sampling reads (coords, the two line tables, the plane table), the equations "every buffer still to
  be read agrees" are carried across stretch after stretch, and after the last the one buffer still to be read is the
  combined feature tensor `fx · fy + fp`, [32, 1024, 1024]: it holds the same contents in both programs
  (`features_eq`, laid out with the table). Nothing of what the sampling computes is opened: the clamps, floors, gathers
  and interpolation weights stay the operations' own functions, applied on both sides to the same arrays.

  Here: the kernel program's LAST stretch also makes the arrays its pallas_call's windows stage — the feature tensor
  flattened and cast, and the two biases reshaped — each a function of a buffer the same stretch leaves in place, so
  each can be read off the contents at the pallas_call's start alone.
-/
import proofs.«152604_j41824391528833_1_alg».proof.Proof.SimChain

set_option maxRecDepth 8192

noncomputable section

namespace Cert.Sim

open Idealize.ShloMosaic Idealize.ShloMosaic.TcCoe Idealize.SL.Sem Idealize.ShloMosaic.StableHlo

variable {F : FTy → Type} [FloatOps F]

/-- Window 0's array is the feature tensor flattened to [32, 1048576] and cast to bf16. -/
theorem entry_features (U : Valuation Cert.KernelIdeal.τ Cert.KernelIdeal.sig (Elt F)) :
    after Cert.KernelIdeal.Gen.hostOps0_20 U (kr Cert.KernelIdeal.main_v282)
      = truncf .bf16 (shapeCast _ (after Cert.KernelIdeal.Gen.hostOps0_20 U (kr Cert.KernelIdeal.main_v280)) Cert.KernelIdeal.Gen.shapeCasts_S32x1024x1024_S32x1048576) Cert.KernelIdeal.Gen.bitsLt_bf16_f32 := by
  cross_stretch [Cert.KernelIdeal.Gen.hostOps0_20] []

/-- Window 2's array is the first bias as a column. -/
theorem entry_bias1 (U : Valuation Cert.KernelIdeal.τ Cert.KernelIdeal.sig (Elt F)) :
    after Cert.KernelIdeal.Gen.hostOps0_20 U (kr Cert.KernelIdeal.main_v283)
      = shapeCast _ (after Cert.KernelIdeal.Gen.hostOps0_20 U (kr Cert.KernelIdeal.main_arg5)) Cert.KernelIdeal.Gen.shapeCasts_S64_S64x1 := by
  cross_stretch [Cert.KernelIdeal.Gen.hostOps0_20] []

/-- Window 4's array is the second bias as a [1, 1] cell. -/
theorem entry_bias2 (U : Valuation Cert.KernelIdeal.τ Cert.KernelIdeal.sig (Elt F)) :
    after Cert.KernelIdeal.Gen.hostOps0_20 U (kr Cert.KernelIdeal.main_v284)
      = shapeCast _ (after Cert.KernelIdeal.Gen.hostOps0_20 U (kr Cert.KernelIdeal.main_arg7)) Cert.KernelIdeal.Gen.shapeCasts_S1_S1x1 := by
  cross_stretch [Cert.KernelIdeal.Gen.hostOps0_20] []

end Cert.Sim

end
-- ==== Proof.KernelValue.lean ====
/-
  The kernel program's result as the specification's decoder of the feature tensor.

  When the pallas_call starts, its feature window's array is the feature tensor X [32, 1024, 1024] flattened to
  [32, 1048576] (position n = h · 1024 + w) and cast to bf16 (the identity on the extended reals), its bias windows'
  arrays are b1 as a column and b2 as a cell, and W1, W2 are the arguments themselves. The call leaves the row
  `decodeFlat` of those arrays in its output array, and the one host operation after it reshapes that row [1, 1048576]
  to [1024, 1024]: entry (h, w) is the row's entry at n = h · 1024 + w, which is `decode X W1 b1 W2 b2` at (h, w).
-/
import proofs.«152604_j41824391528833_1_alg».proof.Proof.KernelArray
import proofs.«152604_j41824391528833_1_alg».proof.Proof.Sim
import Idealize.ShloMosaic.Lib.Pipeline.Value
import Idealize.ShloMosaic.Lib.ValueIdx

set_option maxRecDepth 8192

noncomputable section

namespace Cert.KernelIdeal.ResultValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The contents the pallas_call finds are the stretches' folds over the launch contents. -/
theorem V_eq (c : Dev nD) (b : Ref sig .tc) :
    V m c b = Cert.Sim.kernelEntry (fun b => m (c, b)) (Proc.devRef .tc b) := by
  dsimp only [V, V0]
  rw [Cert.Sim.kernelEntry_eq]

/-- The feature window's array: the feature tensor flattened and cast. -/
theorem V_features (c : Dev nD) :
    V m c main_v282 = truncf (F := Ideal) .bf16 (shapeCast _ (V m c main_v280) shapeCasts_S32x1024x1024_S32x1048576) bitsLt_bf16_f32 := by
  rw [V_eq m c main_v282, V_eq m c main_v280]
  exact Cert.Sim.entry_features _

/-- The first bias window's array: b1 as a column. -/
theorem V_bias1 (c : Dev nD) :
    V m c main_v283 = shapeCast _ (m ((c : Thread nD τ).loc main_arg5)) shapeCasts_S64_S64x1 := by
  rw [← V_main_arg5 m c, V_eq m c main_v283, V_eq m c main_arg5]
  exact Cert.Sim.entry_bias1 _

/-- The second bias window's array: b2 as a cell. -/
theorem V_bias2 (c : Dev nD) :
    V m c main_v284 = shapeCast _ (m ((c : Thread nD τ).loc main_arg7)) shapeCasts_S1_S1x1 := by
  rw [← V_main_arg7 m c, V_eq m c main_v284, V_eq m c main_arg7]
  exact Cert.Sim.entry_bias2 _

/-- The flat features at channel `ch` and position `h · 1024 + w` are the tensor at `(ch, h, w)`. -/
theorem features_at (c : Dev nD) (ch : Fin 32) (h w : Fin 1024) :
    (V m c main_v282) (ix2 ch (Cert.Mlp.flatPos h w)) = (V m c main_v280) (ix3 ch h w) := by
  rw [V_features]
  show shapeCast _ (V m c main_v280) shapeCasts_S32x1024x1024_S32x1048576 (ix2 ch (Cert.Mlp.flatPos h w)) = _
  exact shapeCast_apply _ _ _ (ix3 ch h w) (by
    rw [Shape.rowMajor_val_three, Shape.rowMajor_val_two]
    show (ch.val * 1024 + h.val) * 1024 + w.val = ch.val * 1048576 + (h.val * 1024 + w.val)
    omega)

/-- The bias column at row `k` is `b1` at `k`. -/
theorem bias1_at (c : Dev nD) (k : Fin 64) :
    (V m c main_v283) (ix2 k 0) = (m ((c : Thread nD τ).loc main_arg5)) (ix1 k) := by
  rw [V_bias1]
  exact shapeCast_apply _ _ _ (ix1 k) (by
    rw [Shape.rowMajor_val_one, Shape.rowMajor_val_two]
    show k.val = k.val * 1 + 0
    omega)

/-- The bias cell is `b2`'s one entry. -/
theorem bias2_at (c : Dev nD) :
    (V m c main_v284) (ix2 0 0) = (m ((c : Thread nD τ).loc main_arg7)) (ix1 0) := by
  rw [V_bias2]
  exact shapeCast_apply _ _ _ (ix1 0) (by
    rw [Shape.rowMajor_val_one, Shape.rowMajor_val_two]
    rfl)

/-- The host operation after the pallas_call: the output row reshaped to [1024, 1024]. -/
theorem tail_eq (c : Dev nD) :
    Pipeline.afterTail₀ cfgs (dats m) 0 (V0 m) [hostOps1] c main_v286
      = shapeCast _ ((dats m 0 c).arrAt 5 cfg0.N) shapeCasts_S1x1048576_S1024x1024 := by
  unfold Pipeline.afterTail₀
  show StableHlo.after hostOps1 _ (Proc.devRef .tc main_v286) = _
  simp only [hostOps1]
  after_results
  have e : Pipeline.withArrays (cfgs 0).spec c (V0 m c) (fun w => (dats m 0 c).arrAt w (cfgs 0).N) (Proc.devRef .tc main_v285)
      = (dats m 0 c).arrAt 5 cfg0.N := Pipeline.withArrays_arr spec0 launch0.win.arr_inj c _ _ 5
  rw [e]
  rfl

/-- The result buffer after the program: the decoder of the feature tensor the pallas_call's first window was made
    from, and of the launched weights. -/
theorem result_eq (c : Dev nD) :
    Pipeline.afterTail₀ cfgs (dats m) 0 (V0 m) [hostOps1] c main_v286
      = Cert.Mlp.decode (V m c main_v280) (m ((c : Thread nD τ).loc main_arg4)) (m ((c : Thread nD τ).loc main_arg5))
          (m ((c : Thread nD τ).loc main_arg6)) (m ((c : Thread nD τ).loc main_arg7)) := by
  rw [tail_eq, Cert.KernelIdeal.ArrayValue.final m c]
  funext i
  obtain ⟨h, w, rfl⟩ : ∃ (h w : Fin 1024), i = ix2 h w := ⟨i 0, i 1, eq_ix2 i⟩
  refine (shapeCast_apply _ _ (ix2 h w) (ix2 0 (Cert.Mlp.flatPos h w)) (by
    rw [Shape.rowMajor_val_two, Shape.rowMajor_val_two]
    show 0 * 1048576 + (h.val * 1024 + w.val) = h.val * 1024 + w.val
    omega)).trans ?_
  have h4 := V_main_arg4 m c
  have h6 := V_main_arg6 m c
  rw [← h4, ← h6]
  exact Cert.Mlp.decodeFlat_eq (V m c main_v280) (V m c main_v282) (V m c main_arg4) (m ((c : Thread nD τ).loc main_arg5))
    (V m c main_v283) (V m c main_arg6) (m ((c : Thread nD τ).loc main_arg7)) (V m c main_v284)
    (features_at m c) (bias1_at m c) (bias2_at m c) h w

/-- THE KERNEL PROGRAM'S RUN: it terminates with the result at the decoder of its feature tensor and its arguments
    unchanged (the argument arrays as the frame certificate reads them off the same run). -/
theorem run : θ_run defs (onTc (τ := τ) (main (F := Ideal))) ⟨m, fun _ => 0, ρ⟩ fun r => ∀ c : Dev nD,
      r.2.mem ((c.tc : Thread nD τ).loc main_v286)
          = Cert.Mlp.decode (V m c main_v280) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v286 (Pipeline.mem_restRefs_of main_v286 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c))⟩)
    (run_main m ρ)

end Cert.KernelIdeal.ResultValue

end
-- ==== Proof.RefTail.lean ====
/-
  The reference's decoder, as its last thirteen host operations compose, is the specification's decoder.

  With X the feature tensor [32, 1024, 1024] (channel first), W1 [64, 32], b1 [64], W2 [1, 64], b2 [1], the reference
  moves the channel axis last (X' [h, w, c] = X [c, h, w]), contracts X' with W1 over the channel (a sum over c of
  X' [h, w, c] · W1 [k, c]), adds b1 along the last axis, clamps below at zero, contracts the result with W2 over the
  hidden axis (a sum over k of hidden [h, w, k] · W2 [0, k]), adds b2, and drops the trailing unit axis. Read at a pixel
  (h, w) this is the specification's `decode` with the two factors of every product exchanged: the only law used is
  the commutativity of multiplication on the extended reals. Nothing is asked of the values (no finiteness).

  Each operation is first read at coordinates over an arbitrary operand (one small statement per operation); the theorem
  then rewrites with them from the outermost operation inwards.
-/
import proofs.«152604_j41824391528833_1_alg».proof.Proof.Spec
import proofs.«152604_j41824391528833_1_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.ReferenceIdeal.TailValue

open Cert.ReferenceIdeal Cert.ReferenceIdeal.Gen Idealize.ShloMosaic Idealize.ShloMosaic.ValueIdx

/-- The reference's two-layer decoder as its host operations compose: the feature tensor moved channel-last,
    contracted with the first weights, the first bias added along the last axis, clamped below at zero, contracted with
    the second weights, the second bias added, and the trailing unit axis dropped. -/
def tail (X : (⟨S32x1024x1024, .f32⟩ : BufTy).Contents (Elt Ideal)) (W1 : (⟨S64x32, .f32⟩ : BufTy).Contents (Elt Ideal))
    (b1 : (⟨S64, .f32⟩ : BufTy).Contents (Elt Ideal)) (W2 : (⟨S1x64, .f32⟩ : BufTy).Contents (Elt Ideal))
    (b2 : (⟨S1, .f32⟩ : BufTy).Contents (Elt Ideal)) : (⟨S1024x1024, .f32⟩ : BufTy).Contents (Elt Ideal) :=
  shapeCast _ (addf (F := Ideal) (φ := .f32) (Host.dotGeneral (F := Ideal) (φ₁ := .f32) (φ₂ := .f32) dot_S1024x1024x64_S1x64_S1024x1024x1_2_1_01_0_n_n none
        (maximumf (F := Ideal) (φ := .f32) (addf (F := Ideal) (φ := .f32) (Host.dotGeneral (F := Ideal) (φ₁ := .f32) (φ₂ := .f32) dot_S1024x1024x32_S64x32_S1024x1024x64_2_1_01_0_n_n none
                          (transpose S1024x1024x32 [1, 2, 0] X transposes_S32x1024x1024_S1024x1024x32_1_2_0) W1)
                        (broadcastInDim S1024x1024x64 ![0, 1, 2] bcast_S1x1x64_S1024x1024x64_0_1_2 (broadcastInDim S1x1x64 ![2] bcast_S64_S1x1x64_2 b1)))
                  (broadcastInDim S1024x1024x64 ![] bcast_S_S1024x1024x64 (constant (F := Ideal) S_ .f32 0x00000000#32))) W2)
      (broadcastInDim S1024x1024x1 ![0, 1, 2] bcast_S1x1x1_S1024x1024x1_0_1_2 (broadcastInDim S1x1x1 ![2] bcast_S1_S1x1x1_2 b2))) shapeCasts_S1024x1024x1_S1024x1024

/-! ## The layout operations at coordinates -/

/-- The channel axis moved last: the result at `(h, w, c)` is the operand at `(c, h, w)`. -/
theorem transpose_at (y : S32x1024x1024.Idx → EReal) (h w : Fin 1024) (c : Fin 32) :
    transpose S1024x1024x32 [1, 2, 0] y transposes_S32x1024x1024_S1024x1024x32_1_2_0 (ix3 h w c) = y (ix3 c h w) :=
  transpose_apply [1, 2, 0] y transposes_S32x1024x1024_S1024x1024x32_1_2_0 (ix3 h w c) (ix3 c h w) (fun b => match b with
    | ⟨0, _⟩ => rfl
    | ⟨1, _⟩ => rfl
    | ⟨2, _⟩ => rfl)

/-- A vector of 64 placed on the last axis of a `[1, 1, 64]` block: the block at `(0, 0, k)` is the vector at `k`. -/
theorem lastAxis64_at (y : S64.Idx → EReal) (k : Fin 64) :
    broadcastInDim S1x1x64 ![2] bcast_S64_S1x1x64_2 y (ix3 0 0 k) = y (ix1 k) :=
  broadcastInDim_apply _ bcast_S64_S1x1x64_2 y (ix3 0 0 k) (ix1 k) (fun a => match a with
    | ⟨0, _⟩ => by show k.val = if (64 : Nat) = 1 then 0 else k.val; rw [if_neg (by decide)])

/-- The `[1, 1, 64]` block repeated over every pixel: the result at `(h, w, k)` is the block at `(0, 0, k)`. -/
theorem overPixels64_at (y : S1x1x64.Idx → EReal) (h w : Fin 1024) (k : Fin 64) :
    broadcastInDim S1024x1024x64 ![0, 1, 2] bcast_S1x1x64_S1024x1024x64_0_1_2 y (ix3 h w k) = y (ix3 0 0 k) :=
  broadcastInDim_apply _ bcast_S1x1x64_S1024x1024x64_0_1_2 y (ix3 h w k) (ix3 0 0 k) (fun a => match a with
    | ⟨0, _⟩ => by show 0 = if (1 : Nat) = 1 then 0 else h.val; rw [if_pos rfl]
    | ⟨1, _⟩ => by show 0 = if (1 : Nat) = 1 then 0 else w.val; rw [if_pos rfl]
    | ⟨2, _⟩ => by show k.val = if (64 : Nat) = 1 then 0 else k.val; rw [if_neg (by decide)])

/-- A one-element vector placed in a `[1, 1, 1]` cell. -/
theorem lastAxis1_at (y : S1.Idx → EReal) :
    broadcastInDim S1x1x1 ![2] bcast_S1_S1x1x1_2 y (ix3 0 0 0) = y (ix1 0) :=
  broadcastInDim_apply _ bcast_S1_S1x1x1_2 y (ix3 0 0 0) (ix1 0) (fun a => match a with
    | ⟨0, _⟩ => by show 0 = if (1 : Nat) = 1 then 0 else 0; rw [if_pos rfl])

/-- The `[1, 1, 1]` cell repeated over every pixel. -/
theorem overPixels1_at (y : S1x1x1.Idx → EReal) (h w : Fin 1024) :
    broadcastInDim S1024x1024x1 ![0, 1, 2] bcast_S1x1x1_S1024x1024x1_0_1_2 y (ix3 h w 0) = y (ix3 0 0 0) :=
  broadcastInDim_apply _ bcast_S1x1x1_S1024x1024x1_0_1_2 y (ix3 h w 0) (ix3 0 0 0) (fun a => match a with
    | ⟨0, _⟩ => by show 0 = if (1 : Nat) = 1 then 0 else h.val; rw [if_pos rfl]
    | ⟨1, _⟩ => by show 0 = if (1 : Nat) = 1 then 0 else w.val; rw [if_pos rfl]
    | ⟨2, _⟩ => by show 0 = if (1 : Nat) = 1 then 0 else 0; rw [if_pos rfl])

/-- A scalar repeated over every index reads the scalar. -/
theorem scalar_at (y : S_.Idx → EReal) (i : S1024x1024x64.Idx) :
    broadcastInDim S1024x1024x64 ![] bcast_S_S1024x1024x64 y i = y ix0 :=
  broadcastInDim_apply _ bcast_S_S1024x1024x64 y i ix0 (fun a => a.elim0)

/-- Dropping the trailing unit axis: the `[1024, 1024]` result at `(h, w)` is the operand at `(h, w, 0)`, both
    at row-major position `h · 1024 + w`. -/
theorem dropUnit_at (y : S1024x1024x1.Idx → EReal) (h w : Fin 1024) :
    shapeCast S1024x1024 y shapeCasts_S1024x1024x1_S1024x1024 (ix2 h w) = y (ix3 h w 0) :=
  shapeCast_apply y shapeCasts_S1024x1024x1_S1024x1024 (ix2 h w) (ix3 h w 0)
    (by rewrite [Shape.rowMajor_val_three, Shape.rowMajor_val_two]
        show (h.val * 1024 + w.val) * 1 + 0 = h.val * 1024 + w.val
        omega)

/-! ## The first contraction: features against the first weights

The operand indices of the contraction at an output index and a contraction position, axis by axis. -/

theorem lhs1_0 (i : S1024x1024x64.Idx) (q : dot_S1024x1024x32_S64x32_S1024x1024x64_2_1_01_0_n_n.contr.Idx) :
    (dot_S1024x1024x32_S64x32_S1024x1024x64_2_1_01_0_n_n.lhsIdx i q 0).val = (i 0).val := by
  unfold DotDims.lhsIdx
  rw [dif_neg (show ¬(0 : Fin S1024x1024x32.rank) ∈ dot_S1024x1024x32_S64x32_S1024x1024x64_2_1_01_0_n_n.lhsBatch by decide), dif_pos (show (0 : Fin S1024x1024x32.rank) ∈ dot_S1024x1024x32_S64x32_S1024x1024x64_2_1_01_0_n_n.lhsNonContracting by decide)]
  rfl
theorem lhs1_1 (i : S1024x1024x64.Idx) (q : dot_S1024x1024x32_S64x32_S1024x1024x64_2_1_01_0_n_n.contr.Idx) :
    (dot_S1024x1024x32_S64x32_S1024x1024x64_2_1_01_0_n_n.lhsIdx i q 1).val = (i 1).val := by
  unfold DotDims.lhsIdx
  rw [dif_neg (show ¬(1 : Fin S1024x1024x32.rank) ∈ dot_S1024x1024x32_S64x32_S1024x1024x64_2_1_01_0_n_n.lhsBatch by decide), dif_pos (show (1 : Fin S1024x1024x32.rank) ∈ dot_S1024x1024x32_S64x32_S1024x1024x64_2_1_01_0_n_n.lhsNonContracting by decide)]
  rfl
theorem lhs1_2 (i : S1024x1024x64.Idx) (q : dot_S1024x1024x32_S64x32_S1024x1024x64_2_1_01_0_n_n.contr.Idx) :
    (dot_S1024x1024x32_S64x32_S1024x1024x64_2_1_01_0_n_n.lhsIdx i q 2).val = (q ⟨0, by decide⟩).val :=
  dot_S1024x1024x32_S64x32_S1024x1024x64_2_1_01_0_n_n.lhsIdx_val_of_single rfl i q
theorem rhs1_0 (i : S1024x1024x64.Idx) (q : dot_S1024x1024x32_S64x32_S1024x1024x64_2_1_01_0_n_n.contr.Idx) :
    (dot_S1024x1024x32_S64x32_S1024x1024x64_2_1_01_0_n_n.rhsIdx i q 0).val = (i 2).val := by
  unfold DotDims.rhsIdx
  rw [dif_neg (show ¬(0 : Fin S64x32.rank) ∈ dot_S1024x1024x32_S64x32_S1024x1024x64_2_1_01_0_n_n.rhsBatch by decide), dif_pos (show (0 : Fin S64x32.rank) ∈ dot_S1024x1024x32_S64x32_S1024x1024x64_2_1_01_0_n_n.rhsNonContracting by decide)]
  rfl
theorem rhs1_1 (i : S1024x1024x64.Idx) (q : dot_S1024x1024x32_S64x32_S1024x1024x64_2_1_01_0_n_n.contr.Idx) :
    (dot_S1024x1024x32_S64x32_S1024x1024x64_2_1_01_0_n_n.rhsIdx i q 1).val = (q ⟨0, by decide⟩).val :=
  dot_S1024x1024x32_S64x32_S1024x1024x64_2_1_01_0_n_n.rhsIdx_val_of_single rfl i q

/-- The first contraction at `(h, w, k)`: the sum over the 32 channels of the pixel's feature times the weight
    `W1[k, c]`. -/
theorem dot1_at (y : FVec Ideal S1024x1024x32 .f32) (W1 : FVec Ideal S64x32 .f32) (h w : Fin 1024) (k : Fin 64) :
    Host.dotGeneral (F := Ideal) dot_S1024x1024x32_S64x32_S1024x1024x64_2_1_01_0_n_n none y W1 (ix3 h w k) = ∑ c : Fin 32, y (ix3 h w c) * W1 (ix2 k c) := by
  simp only [Host.dotGeneral]
  rw [Ideal.dotGeneral_apply, ← Equiv.sum_comp (ValueIdx.contrEquiv1 dot_S1024x1024x32_S64x32_S1024x1024x64_2_1_01_0_n_n 32 rfl rfl).symm]
  refine Finset.sum_congr rfl fun c _ => ?_
  have hc := ValueIdx.contrEquiv1_symm_val dot_S1024x1024x32_S64x32_S1024x1024x64_2_1_01_0_n_n 32 rfl rfl c
  have el : dot_S1024x1024x32_S64x32_S1024x1024x64_2_1_01_0_n_n.lhsIdx (ix3 h w k) ((ValueIdx.contrEquiv1 dot_S1024x1024x32_S64x32_S1024x1024x64_2_1_01_0_n_n 32 rfl rfl).symm c) = ix3 h w c := funext fun a => Fin.ext (by
    match a with
    | ⟨0, _⟩ => exact lhs1_0 _ _
    | ⟨1, _⟩ => exact lhs1_1 _ _
    | ⟨2, _⟩ => exact (lhs1_2 _ _).trans hc)
  have er : dot_S1024x1024x32_S64x32_S1024x1024x64_2_1_01_0_n_n.rhsIdx (ix3 h w k) ((ValueIdx.contrEquiv1 dot_S1024x1024x32_S64x32_S1024x1024x64_2_1_01_0_n_n 32 rfl rfl).symm c) = ix2 k c := funext fun a => Fin.ext (by
    match a with
    | ⟨0, _⟩ => exact rhs1_0 _ _
    | ⟨1, _⟩ => exact (rhs1_1 _ _).trans hc)
  rw [el, er]

/-! ## The second contraction: hidden units against the second weights -/

theorem lhs2_0 (i : S1024x1024x1.Idx) (q : dot_S1024x1024x64_S1x64_S1024x1024x1_2_1_01_0_n_n.contr.Idx) :
    (dot_S1024x1024x64_S1x64_S1024x1024x1_2_1_01_0_n_n.lhsIdx i q 0).val = (i 0).val := by
  unfold DotDims.lhsIdx
  rw [dif_neg (show ¬(0 : Fin S1024x1024x64.rank) ∈ dot_S1024x1024x64_S1x64_S1024x1024x1_2_1_01_0_n_n.lhsBatch by decide), dif_pos (show (0 : Fin S1024x1024x64.rank) ∈ dot_S1024x1024x64_S1x64_S1024x1024x1_2_1_01_0_n_n.lhsNonContracting by decide)]
  rfl
theorem lhs2_1 (i : S1024x1024x1.Idx) (q : dot_S1024x1024x64_S1x64_S1024x1024x1_2_1_01_0_n_n.contr.Idx) :
    (dot_S1024x1024x64_S1x64_S1024x1024x1_2_1_01_0_n_n.lhsIdx i q 1).val = (i 1).val := by
  unfold DotDims.lhsIdx
  rw [dif_neg (show ¬(1 : Fin S1024x1024x64.rank) ∈ dot_S1024x1024x64_S1x64_S1024x1024x1_2_1_01_0_n_n.lhsBatch by decide), dif_pos (show (1 : Fin S1024x1024x64.rank) ∈ dot_S1024x1024x64_S1x64_S1024x1024x1_2_1_01_0_n_n.lhsNonContracting by decide)]
  rfl
theorem lhs2_2 (i : S1024x1024x1.Idx) (q : dot_S1024x1024x64_S1x64_S1024x1024x1_2_1_01_0_n_n.contr.Idx) :
    (dot_S1024x1024x64_S1x64_S1024x1024x1_2_1_01_0_n_n.lhsIdx i q 2).val = (q ⟨0, by decide⟩).val :=
  dot_S1024x1024x64_S1x64_S1024x1024x1_2_1_01_0_n_n.lhsIdx_val_of_single rfl i q
theorem rhs2_0 (i : S1024x1024x1.Idx) (q : dot_S1024x1024x64_S1x64_S1024x1024x1_2_1_01_0_n_n.contr.Idx) :
    (dot_S1024x1024x64_S1x64_S1024x1024x1_2_1_01_0_n_n.rhsIdx i q 0).val = (i 2).val := by
  unfold DotDims.rhsIdx
  rw [dif_neg (show ¬(0 : Fin S1x64.rank) ∈ dot_S1024x1024x64_S1x64_S1024x1024x1_2_1_01_0_n_n.rhsBatch by decide), dif_pos (show (0 : Fin S1x64.rank) ∈ dot_S1024x1024x64_S1x64_S1024x1024x1_2_1_01_0_n_n.rhsNonContracting by decide)]
  rfl
theorem rhs2_1 (i : S1024x1024x1.Idx) (q : dot_S1024x1024x64_S1x64_S1024x1024x1_2_1_01_0_n_n.contr.Idx) :
    (dot_S1024x1024x64_S1x64_S1024x1024x1_2_1_01_0_n_n.rhsIdx i q 1).val = (q ⟨0, by decide⟩).val :=
  dot_S1024x1024x64_S1x64_S1024x1024x1_2_1_01_0_n_n.rhsIdx_val_of_single rfl i q

/-- The second contraction at `(h, w, 0)`: the sum over the 64 hidden units of the unit times the weight `W2[0, k]`. -/
theorem dot2_at (y : FVec Ideal S1024x1024x64 .f32) (W2 : FVec Ideal S1x64 .f32) (h w : Fin 1024) :
    Host.dotGeneral (F := Ideal) dot_S1024x1024x64_S1x64_S1024x1024x1_2_1_01_0_n_n none y W2 (ix3 h w 0) = ∑ k : Fin 64, y (ix3 h w k) * W2 (ix2 0 k) := by
  simp only [Host.dotGeneral]
  rw [Ideal.dotGeneral_apply, ← Equiv.sum_comp (ValueIdx.contrEquiv1 dot_S1024x1024x64_S1x64_S1024x1024x1_2_1_01_0_n_n 64 rfl rfl).symm]
  refine Finset.sum_congr rfl fun k _ => ?_
  have hk := ValueIdx.contrEquiv1_symm_val dot_S1024x1024x64_S1x64_S1024x1024x1_2_1_01_0_n_n 64 rfl rfl k
  have el : dot_S1024x1024x64_S1x64_S1024x1024x1_2_1_01_0_n_n.lhsIdx (ix3 h w 0) ((ValueIdx.contrEquiv1 dot_S1024x1024x64_S1x64_S1024x1024x1_2_1_01_0_n_n 64 rfl rfl).symm k) = ix3 h w k := funext fun a => Fin.ext (by
    match a with
    | ⟨0, _⟩ => exact lhs2_0 _ _
    | ⟨1, _⟩ => exact lhs2_1 _ _
    | ⟨2, _⟩ => exact (lhs2_2 _ _).trans hk)
  have er : dot_S1024x1024x64_S1x64_S1024x1024x1_2_1_01_0_n_n.rhsIdx (ix3 h w 0) ((ValueIdx.contrEquiv1 dot_S1024x1024x64_S1x64_S1024x1024x1_2_1_01_0_n_n 64 rfl rfl).symm k) = ix2 0 k := funext fun a => Fin.ext (by
    match a with
    | ⟨0, _⟩ => exact rhs2_0 _ _
    | ⟨1, _⟩ => exact (rhs2_1 _ _).trans hk)
  rw [el, er]

/-! ## The tail is the decoder -/

/-- The hidden layer: the clamped affine map at `(h, w, k)` is the specification's hidden unit; the two differ only
    in the order of each product's factors. -/
theorem hidden_at (X : (⟨S32x1024x1024, .f32⟩ : BufTy).Contents (Elt Ideal)) (W1 : (⟨S64x32, .f32⟩ : BufTy).Contents (Elt Ideal))
    (b1 : (⟨S64, .f32⟩ : BufTy).Contents (Elt Ideal)) (h w : Fin 1024) (k : Fin 64) :
    maximumf (F := Ideal) (φ := .f32) (addf (F := Ideal) (φ := .f32) (Host.dotGeneral (F := Ideal) (φ₁ := .f32) (φ₂ := .f32) dot_S1024x1024x32_S64x32_S1024x1024x64_2_1_01_0_n_n none
          (transpose S1024x1024x32 [1, 2, 0] X transposes_S32x1024x1024_S1024x1024x32_1_2_0) W1)
        (broadcastInDim S1024x1024x64 ![0, 1, 2] bcast_S1x1x64_S1024x1024x64_0_1_2 (broadcastInDim S1x1x64 ![2] bcast_S64_S1x1x64_2 b1)))
      (broadcastInDim S1024x1024x64 ![] bcast_S_S1024x1024x64 (constant (F := Ideal) S_ .f32 0x00000000#32)) (ix3 h w k)
      = Cert.Mlp.hidden X W1 b1 h w k := by
  rw [maximumf_apply, addf_apply, dot1_at, overPixels64_at, lastAxis64_at, scalar_at, constant_apply, Ideal.ofBits_zero_f32]
  unfold Cert.Mlp.hidden
  refine congrArg (fun s => max (s + b1 (ix1 k)) 0) (Finset.sum_congr rfl fun c _ => ?_)
  rw [transpose_at, mul_comm]

/-- The specification's decoder at the pixel `(h, w)`. -/
theorem decode_at (X : (⟨S32x1024x1024, .f32⟩ : BufTy).Contents (Elt Ideal)) (W1 : (⟨S64x32, .f32⟩ : BufTy).Contents (Elt Ideal))
    (b1 : (⟨S64, .f32⟩ : BufTy).Contents (Elt Ideal)) (W2 : (⟨S1x64, .f32⟩ : BufTy).Contents (Elt Ideal))
    (b2 : (⟨S1, .f32⟩ : BufTy).Contents (Elt Ideal)) (h w : Fin 1024) :
    Cert.Mlp.decode X W1 b1 W2 b2 (ix2 h w) = (∑ k : Fin 64, W2 (ix2 0 k) * Cert.Mlp.hidden X W1 b1 h w k) + b2 (ix1 0) := rfl

/-- The reference's last thirteen operations compute the decoder: index by index the second affine map of the hidden
    units, each product with its factors in the other order. -/
theorem tail_eq (X : (⟨S32x1024x1024, .f32⟩ : BufTy).Contents (Elt Ideal)) (W1 : (⟨S64x32, .f32⟩ : BufTy).Contents (Elt Ideal))
    (b1 : (⟨S64, .f32⟩ : BufTy).Contents (Elt Ideal)) (W2 : (⟨S1x64, .f32⟩ : BufTy).Contents (Elt Ideal))
    (b2 : (⟨S1, .f32⟩ : BufTy).Contents (Elt Ideal)) : tail X W1 b1 W2 b2 = Cert.Mlp.decode X W1 b1 W2 b2 := by
  funext i
  obtain ⟨h, w, rfl⟩ : ∃ h w, i = ix2 h w := ⟨i 0, i 1, eq_ix2 i⟩
  unfold tail
  rw [dropUnit_at, addf_apply, dot2_at, overPixels1_at, lastAxis1_at, decode_at]
  refine congrArg (fun s => s + b2 (ix1 0)) (Finset.sum_congr rfl fun k _ => ?_)
  rw [hidden_at, mul_comm]

end Cert.ReferenceIdeal.TailValue

end
-- ==== Proof.RefValue.lean ====
/-
  The reference's result as the specification's decoder of the feature tensor.

  Every weakly fair execution of the reference ends with each buffer at the fold of its 436 operations over the launch
  contents. The last thirteen (transpose to channel-last, the first layer as a dot_general plus the broadcast bias, the
  clamp at zero, the second layer and bias, the reshape that drops the unit axis) compose to the term `tail` of the
  feature tensor after the first 423 and of the four weight arrays, which the operations before them do not write; and
  `tail` is `decode`.
-/
import proofs.«152604_j41824391528833_1_alg».proof.Proof.RefTail
import proofs.«152604_j41824391528833_1_alg».proof.Proof.Sim

set_option maxRecDepth 8192

noncomputable section

namespace Cert.ReferenceIdeal.ResultValue

open Cert.ReferenceIdeal Cert.ReferenceIdeal.Gen Idealize.ShloMosaic Idealize.ShloMosaic.TcCoe Idealize.SL.Sem
open Idealize.ShloMosaic.StableHlo Cert.Sim

/-- The last thirteen operations, from any contents: the result buffer ends at `tail` of the feature tensor and the
    weight arrays as those contents have them. -/
theorem last_ops (U : Valuation τ sig (Elt Ideal)) :
    after Cert.ReferenceIdeal.RunP.p27 U (rr main_v291)
      = Cert.ReferenceIdeal.TailValue.tail (U (rr main_v280)) (U (rr main_arg4)) (U (rr main_arg5)) (U (rr main_arg6)) (U (rr main_arg7)) := by
  simp only [Cert.ReferenceIdeal.RunP.p27]
  after_results_simp <;> (try simp only [TRef.ofBuf, TRef.toBuf, cast_eq]) <;> rfl

/-- The feature tensor after the reference's first 423 operations, from the launch contents `m` on core `c`. -/
abbrev features (m : (ℓ : Loc nD τ sig) → Buf (Elt Ideal) ℓ) (c : Dev nD) : (⟨S32x1024x1024, .f32⟩ : BufTy).Contents (Elt Ideal) :=
  refShared (launchContents m c) (rr main_v280)

/-- The fold at the result buffer is the decoder of that feature tensor and the launched weights. -/
theorem result_eq (m : (ℓ : Loc nD τ sig) → Buf (Elt Ideal) ℓ) (c : Dev nD) :
    after Cert.ReferenceIdeal.RunP.ops (launchContents m c) (Proc.devRef .tc main_v291)
      = Cert.Mlp.decode (features m c) (m ((c.tc : Thread nD τ).loc main_arg4)) (m ((c.tc : Thread nD τ).loc main_arg5))
          (m ((c.tc : Thread nD τ).loc main_arg6)) (m ((c.tc : Thread nD τ).loc main_arg7)) := by
  rw [refOps_eq]
  refine (last_ops _).trans ?_
  rw [Cert.ReferenceIdeal.TailValue.tail_eq]
  obtain ⟨-, -, -, -, k4, k5, k6, k7⟩ := refShared_keeps (launchContents m c)
  rw [k4, k5, k6, k7]

/-- THE REFERENCE'S RUN: it terminates with the result at the decoder of its feature tensor and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v291)
          = Cert.Mlp.decode (features m c) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨k0, k1, k2, k3, k4, k5, k6, k7⟩ := refOps_keeps (launchContents m c)
      exact ⟨(h c main_v291).trans (result_eq m c), (h c main_arg0).trans k0, (h c main_arg1).trans k1, (h c main_arg2).trans k2,
        (h c main_arg3).trans k3, (h c main_arg4).trans k4, (h c main_arg5).trans k5, (h c main_arg6).trans k6, (h c main_arg7).trans k7⟩)
    (Cert.ReferenceIdeal.RunP.run_after (F := Ideal) m ρ)

end Cert.ReferenceIdeal.ResultValue

end
-- ==== Proof.lean ====
/-
  A two-layer decoder over sampled features: the kernel program and its jnp reference compute the same array over the
  extended reals.

  Both programs first sample a feature tensor X [32, 1024, 1024] from coords, two line tables and a plane table (clamped
  linear interpolation along each line, bilinear interpolation with zero padding in the plane, combined as fx · fy + fp):
  the same host operations in both, so X is the same array in both (`Cert.Sim.features_eq`; nothing of the sampling is
  opened). The reference then applies Linear(32 → 64), a clamp at zero and Linear(64 → 1) per pixel with two
  dot_generals; the kernel program flattens X to [32, 1048576], casts it to bf16 (the identity on the extended reals)
  and applies the same two layers in one pallas_call over 32 column blocks of 32768 positions, two matmuls into zero
  accumulators. Per pixel (h, w) both are

      Σ_k W2[0, k] · max (Σ_c W1[k, c] · X[c, h, w] + b1[k]) 0 + b2[0]

  (`Cert.Mlp.decode`): the kernel's blocks tile the flat row and each block is that function of its columns; the
  reference's products have their factors in the other order, and multiplication on the extended reals commutes. No
  law that fails at an infinity is used, so the finiteness of the inputs is never opened.

  Frames: the two kernel programs' by their generated frame certificates; the reference's from its run, which ends with
  every buffer at the fold of its operations, none of which writes an argument. The idealization rewrote no operation
  (`preserves` is `True`).
-/
import proofs.«152604_j41824391528833_1_alg».proof.Defs
import proofs.«152604_j41824391528833_1_alg».proof.Proof.Gen.Kernel
import proofs.«152604_j41824391528833_1_alg».proof.Proof.Gen.Kernel.Skeleton
import proofs.«152604_j41824391528833_1_alg».proof.Proof.Gen.Kernel.Launch
import proofs.«152604_j41824391528833_1_alg».proof.Proof.Gen.Kernel.Points
import proofs.«152604_j41824391528833_1_alg».proof.Proof.Gen.Kernel.Frame
import proofs.«152604_j41824391528833_1_alg».proof.Proof.Gen.KernelIdeal
import proofs.«152604_j41824391528833_1_alg».proof.Proof.Gen.KernelIdeal.Skeleton
import proofs.«152604_j41824391528833_1_alg».proof.Proof.Gen.KernelIdeal.Launch
import proofs.«152604_j41824391528833_1_alg».proof.Proof.Gen.KernelIdeal.Points
import proofs.«152604_j41824391528833_1_alg».proof.Proof.Gen.KernelIdeal.Frame
import proofs.«152604_j41824391528833_1_alg».proof.Proof.Gen.ReferenceIdeal
import proofs.«152604_j41824391528833_1_alg».proof.Proof.Gen.Pre_finite_inputs
import proofs.«152604_j41824391528833_1_alg».proof.Proof.KernelValue
import proofs.«152604_j41824391528833_1_alg».proof.Proof.RefValue
import Idealize.ShloMosaic.Adequacy
import Idealize.ShloMosaic.Init

noncomputable section

namespace Cert.Proof

open Idealize.ShloMosaic Idealize.SL.Sem

/-- The word-level kernel program runs and leaves its arguments alone: its generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.ResultValue.run m ρ)

/-- The idealization rewrote nothing. -/
theorem preserves : Cert.preserves_Kernel_KernelIdeal := trivial

/-- From memories agreeing on the arguments both programs end at the decoder of ONE feature tensor and the same
    weights: the kernel program's own feature tensor, which is the reference's by the shared sampling. -/
theorem algebraic : Cert.algebraic_KernelIdeal_ReferenceIdeal := by
  intro m ρ m' ρ' _ hagree
  refine ⟨fun c => Cert.Mlp.decode (Cert.KernelIdeal.Gen.V m c Cert.KernelIdeal.main_v280)
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.ResultValue.run m ρ, ?_⟩
  refine (θ_run Cert.ReferenceIdeal.defs _ _).mono (fun _ h c => ⟨(h c).1.trans ?_, (h c).2⟩)
    (Cert.ReferenceIdeal.ResultValue.run m' ρ')
  obtain ⟨a0, a1, a2, a3, a4, a5, a6, a7⟩ := hagree c
  rw [a4, a5, a6, a7]
  refine congrArg (fun X => Cert.Mlp.decode X _ _ _ _) ?_
  rw [Cert.KernelIdeal.ResultValue.V_eq]
  exact (Cert.Sim.features_eq (fun b => m (c, b)) (Idealize.ShloMosaic.StableHlo.launchContents m' c)
    ⟨a0.symm, a1.symm, a2.symm, a3.symm⟩).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
